-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S2x160000 : Shape := ⟨2, ![2, 160000]⟩
abbrev S50000 : Shape := ⟨1, ![50000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg8 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg8 main_v34
  let main_c_13 : IVec S_ 32 := constantI S_ 32 64#32
  let main_v36 : IVec S50000 32 := broadcastInDim S50000 ![] bcast_S_S50000 main_c_13
  let main_v37 : IVec S50000 1 := cmpi .slt main_arg8 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg4 : FVec F S512 .f32) (main_arg5 : FVec F S512 .f32) (main_arg6 : FVec F S512 .f32) (main_arg8 : IVec S50000 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S50000x512 .f32) (main_arg1 : FVec F S160000 .f32) (main_arg2 : FVec F S512x512 .f32) (main_arg3 : FVec F S512 .f32) (main_arg4 : FVec F S512 .f32) (main_arg5 : FVec F S512 .f32) (main_arg6 : FVec F S512 .f32) (main_arg7 : IVec S2x160000 32) (main_arg8 : IVec S50000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg8 main_v13 main_v16
-- ==== Kernel.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S2x160000 : Shape := ⟨2, ![2, 160000]⟩
abbrev S50000 : Shape := ⟨1, ![50000]⟩
abbrev S2000x512 : Shape := ⟨2, ![2000, 512]⟩
abbrev S1x160000 : Shape := ⟨2, ![1, 160000]⟩
abbrev S210000 : Shape := ⟨1, ![210000]⟩
abbrev S_ : Shape := ⟨0, ![]⟩
abbrev S210000x1 : Shape := ⟨2, ![210000, 1]⟩
abbrev S210000x512 : Shape := ⟨2, ![210000, 512]⟩
abbrev S50000x1 : Shape := ⟨2, ![50000, 1]⟩
abbrev S1x512 : Shape := ⟨2, ![1, 512]⟩
abbrev S64x512 : Shape := ⟨2, ![64, 512]⟩
abbrev S1000x512 : Shape := ⟨2, ![1000, 512]⟩
abbrev S1000x1 : Shape := ⟨2, ![1000, 1]⟩
abbrev S1000x64 : Shape := ⟨2, ![1000, 64]⟩
abbrev S64x1000 : Shape := ⟨2, ![64, 1000]⟩
abbrev S64 : Shape := ⟨1, ![64]⟩
abbrev S64x1 : Shape := ⟨2, ![64, 1]⟩

abbrev nBuf : Space → Nat
  | .hbm => 108
  | .vmem => 29
  | .smem => 0
  | _ => 0

abbrev bufTy : (tb : Table) → Fin (tcTables nBuf tb) → BufTy
  | .hbm, ⟨0, _⟩ => ⟨S50000x512, .f32⟩
  | .hbm, ⟨1, _⟩ => ⟨S160000, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S2x160000, .i32⟩
  | .hbm, ⟨8, _⟩ => ⟨S50000, .i32⟩
  | .hbm, ⟨9, _⟩ => ⟨S50000x512, .f32⟩
  | .hbm, ⟨10, _⟩ => ⟨S50000, .i32⟩
  | .hbm, ⟨11, _⟩ => ⟨S1x160000, .i32⟩
  | .hbm, ⟨12, _⟩ => ⟨S160000, .i32⟩
  | .hbm, ⟨13, _⟩ => ⟨S210000, .i32⟩
  | .hbm, ⟨14, _⟩ => ⟨S1x160000, .i32⟩
  | .hbm, ⟨15, _⟩ => ⟨S160000, .i32⟩
  | .hbm, ⟨16, _⟩ => ⟨S210000, .i32⟩
  | .hbm, ⟨17, _⟩ => ⟨S_, .f32⟩
  | .hbm, ⟨18, _⟩ => ⟨S50000, .f32⟩
  | .hbm, ⟨19, _⟩ => ⟨S210000, .f32⟩
  | .hbm, ⟨20, _⟩ => ⟨S_, .f32⟩
  | .hbm, ⟨21, _⟩ => ⟨S50000, .f32⟩
  | .hbm, ⟨22, _⟩ => ⟨S210000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S210000, .i32⟩
  | .hbm, ⟨34, _⟩ => ⟨S210000, .i1⟩
  | .hbm, ⟨35, _⟩ => ⟨S_, .i32⟩
  | .hbm, ⟨36, _⟩ => ⟨S210000, .i32⟩
  | .hbm, ⟨37, _⟩ => ⟨S210000, .i32⟩
  | .hbm, ⟨38, _⟩ => ⟨S210000, .i32⟩
  | .hbm, ⟨39, _⟩ => ⟨S210000x1, .i32⟩
  | .hbm, ⟨40, _⟩ => ⟨S210000, .f32⟩
  | .hbm, ⟨41, _⟩ => ⟨S210000, .f32⟩
  | .hbm, ⟨42, _⟩ => ⟨S_, .i32⟩
  | .hbm, ⟨43, _⟩ => ⟨S210000, .i32⟩
  | .hbm, ⟨44, _⟩ => ⟨S210000, .i1⟩
  | .hbm, ⟨45, _⟩ => ⟨S_, .i32⟩
  | .hbm, ⟨46, _⟩ => ⟨S210000, .i32⟩
  | .hbm, ⟨47, _⟩ => ⟨S210000, .i32⟩
  | .hbm, ⟨48, _⟩ => ⟨S210000, .i32⟩
  | .hbm, ⟨49, _⟩ => ⟨S210000x1, .i32⟩
  | .hbm, ⟨50, _⟩ => ⟨S210000, .f32⟩
  | .hbm, ⟨51, _⟩ => ⟨S210000, .f32⟩
  | .hbm, ⟨52, _⟩ => ⟨S_, .i32⟩
  | .hbm, ⟨53, _⟩ => ⟨S210000, .i32⟩
  | .hbm, ⟨54, _⟩ => ⟨S210000, .i1⟩
  | .hbm, ⟨55, _⟩ => ⟨S_, .i32⟩
  | .hbm, ⟨56, _⟩ => ⟨S210000, .i32⟩
  | .hbm, ⟨57, _⟩ => ⟨S210000, .i32⟩
  | .hbm, ⟨58, _⟩ => ⟨S210000, .i32⟩
  | .hbm, ⟨59, _⟩ => ⟨S210000x1, .i32⟩
  | .hbm, ⟨60, _⟩ => ⟨S210000x512, .f32⟩
  | .hbm, ⟨61, _⟩ => ⟨S210000x1, .f32⟩
  | .hbm, ⟨62, _⟩ => ⟨S210000x512, .f32⟩
  | .hbm, ⟨63, _⟩ => ⟨S210000x512, .f32⟩
  | .hbm, ⟨64, _⟩ => ⟨S_, .f32⟩
  | .hbm, ⟨65, _⟩ => ⟨S50000x512, .f32⟩
  | .hbm, ⟨66, _⟩ => ⟨S210000x1, .i32⟩
  | .hbm, ⟨67, _⟩ => ⟨S50000x512, .f32⟩
  | .hbm, ⟨68, _⟩ => ⟨S50000x1, .i32⟩
  | .hbm, ⟨69, _⟩ => ⟨S1x512, .f32⟩
  | .hbm, ⟨70, _⟩ => ⟨S50000x512, .f32⟩
  | .hbm, ⟨71, _⟩ => ⟨S64x512, .f32⟩
  | .hbm, ⟨72, _⟩ => ⟨S64x512, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S64, .f32⟩
  | .hbm, ⟨77, _⟩ => ⟨S50000x1, .i32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64x1, .f32⟩
  | .hbm, ⟨83, _⟩ => ⟨S64x512, .f32⟩
  | .hbm, ⟨84, _⟩ => ⟨S64x512, .f32⟩
  | .hbm, ⟨85, _⟩ => ⟨S64x512, .f32⟩
  | .hbm, ⟨86, _⟩ => ⟨S64x512, .f32⟩
  | .hbm, ⟨87, _⟩ => ⟨S_, .f32⟩
  | .hbm, ⟨88, _⟩ => ⟨S512, .f32⟩
  | .hbm, ⟨89, _⟩ => ⟨S512, .f32⟩
  | .hbm, ⟨90, _⟩ => ⟨S512, .f32⟩
  | .hbm, ⟨91, _⟩ => ⟨S512, .f32⟩
  | .hbm, ⟨92, _⟩ => ⟨S64x512, .f32⟩
  | .hbm, ⟨93, _⟩ => ⟨S1x512, .f32⟩
  | .hbm, ⟨94, _⟩ => ⟨S64x512, .f32⟩
  | .hbm, ⟨95, _⟩ => ⟨S64x512, .f32⟩
  | .hbm, ⟨96, _⟩ => ⟨S64x512, .f32⟩
  | .hbm, ⟨97, _⟩ => ⟨S_, .f32⟩
  | .hbm, ⟨98, _⟩ => ⟨S64x512, .f32⟩
  | .hbm, ⟨99, _⟩ => ⟨S64x512, .f32⟩
  | .hbm, ⟨100, _⟩ => ⟨S_, .f32⟩
  | .hbm, ⟨101, _⟩ => ⟨S64x512, .f32⟩
  | .hbm, ⟨102, _⟩ => ⟨S64x512, .f32⟩
  | .hbm, ⟨103, _⟩ => ⟨S64x512, .f32⟩
  | .hbm, ⟨104, _⟩ => ⟨S1x512, .f32⟩
  | .hbm, ⟨105, _⟩ => ⟨S1x512, .f32⟩
  | .hbm, ⟨106, _⟩ => ⟨S1x512, .f32⟩
  | .hbm, ⟨107, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1x512, .f32⟩
  | .local _ .vmem, ⟨10, _⟩ => ⟨S1000x1, .i32⟩
  | .local _ .vmem, ⟨11, _⟩ => ⟨S1000x1, .i32⟩
  | .local _ .vmem, ⟨12, _⟩ => ⟨S1000x512, .f32⟩
  | .local _ .vmem, ⟨13, _⟩ => ⟨S1000x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S1000x512, .f32⟩
  | .local _ .vmem, ⟨19, _⟩ => ⟨S1000x512, .f32⟩
  | .local _ .vmem, ⟨20, _⟩ => ⟨S1000x1, .i32⟩
  | .local _ .vmem, ⟨21, _⟩ => ⟨S1000x1, .i32⟩
  | .local _ .vmem, ⟨22, _⟩ => ⟨S64x512, .f32⟩
  | .local _ .vmem, ⟨23, _⟩ => ⟨S64x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1000x512, .f32⟩
  | .local _ .vmem, ⟨28, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_v48_2 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v34 : BitVec 1 := Scalar.cmpi .eq arg0 c49_i32
  let v35 : BitVec 32 := Scalar.extui v34
  let c0_i32_19 : BitVec 32 := 0#32
  let v36 : BitVec 1 := Scalar.cmpi .ne v35 c0_i32_19
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S2x160000_S1x160000_0_0 : S2x160000.Slices ![0, 0] S1x160000
  shapeCasts_S1x160000_S160000 : S1x160000.ShapeCasts S160000
  concatenates_S160000_S50000_S210000_d0 : Shape.Concatenates [S160000, S50000] S210000 0
  slices_S2x160000_S1x160000_1_0 : S2x160000.Slices ![1, 0] S1x160000
  bcast_S_S50000 : S_.BroadcastsInDim S50000 (![] : Fin 0 → Fin S50000.rank)
  bcast_S210000_S210000x1_0 : S210000.BroadcastsInDim S210000x1 (![0] : Fin 1 → Fin S210000x1.rank)
  bcast_S_S210000 : S_.BroadcastsInDim S210000 (![] : Fin 0 → Fin S210000.rank)
  bcast_S210000x1_S210000x512_0_1 : S210000x1.BroadcastsInDim S210000x512 (![0, 1] : Fin 2 → Fin S210000x512.rank)
  bcast_S_S50000x512 : S_.BroadcastsInDim S50000x512 (![] : Fin 0 → Fin S50000x512.rank)
  shapeCasts_S50000_S50000x1 : S50000.ShapeCasts S50000x1
  shapeCasts_S512_S1x512 : S512.ShapeCasts S1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x64_d1_w32 : S1000x64.Iotas .tc 32 [1]
  broadcasts_S1000x1_S1000x64 : S1000x1.Broadcasts S1000x64
  natLt_1_32 : 1 < 32
  transposes_S1000x64_p1_0_S64x1000 : S1000x64.Transposes [1, 0] S64x1000
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S_S512 : S_.BroadcastsInDim S512 (![] : Fin 0 → Fin S512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  dot_S2000x512_S512x512_S2000x512_1_0_0_1_n_n_wf : DotDims.WF S2000x512 S512x512 S2000x512 [1] [0] [0] [1] [] []
  scatter_S50000_S210000x1_S210000_n_0_0_1_wf : ScatterDims.WF S50000 S210000x1 S210000 [] [0] [0] 1
  gather_S50000_S210000x1_S210000_n_0_n_n_0_1_1_wf : GatherDims.WF S50000 S210000x1 S210000 [] [0] [] [0] [] 1 ![1]
  gather_S50000x512_S210000x1_S210000x512_1_0_n_n_0_1_1512_wf : GatherDims.WF S50000x512 S210000x1 S210000x512 [1] [0] [] [0] [] 1 ![1, 512]
  scatter_S50000x512_S210000x1_S210000x512_1_0_0_1_wf : ScatterDims.WF S50000x512 S210000x1 S210000x512 [1] [0] [0] 1
  dot_S64x1000_S1000x512_S64x512_1_0_0_1_n_n_wf : DotDims.WF S64x1000 S1000x512 S64x512 [1] [0] [0] [1] [] []
  scatter_S64_S50000x1_S50000_n_0_0_1_wf : ScatterDims.WF S64 S50000x1 S50000 [] [0] [0] 1
  dot_S1000x64_S64x512_S1000x512_1_0_0_1_n_n_wf : DotDims.WF S1000x64 S64x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S50000x1.size a
  hwx1_3 : ∀ i : grid1.Coords, EltTy.bits .i32 = 32 ∨ (Rect.block (s := S50000x1) S1000x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S50000x512.size a
  hwx1_4 : ∀ i : grid1.Coords, EltTy.bits .f32 = 32 ∨ (Rect.block (s := S50000x512) S1000x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x512.size a ≤ S64x512.size a
  hwx1_5 : ∀ i : grid1.Coords, EltTy.bits .f32 = 32 ∨ (Rect.block (s := S64x512) S64x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S64x512.size a
  hwx1_6 : ∀ i : grid1.Coords, EltTy.bits .f32 = 32 ∨ (Rect.block (s := S64x512) S64x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .i32 = 32 ∨ (Rect.block (s := S50000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x512.size a ≤ S64x512.size a
  hwx2_2 : ∀ i : grid2.Coords, EltTy.bits .f32 = 32 ∨ (Rect.block (s := S64x512) S64x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x512.size a
  hwx2_3 : ∀ i : grid2.Coords, EltTy.bits .f32 = 32 ∨ (Rect.block (s := S64x512) S64x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x512.size a ≤ S50000x512.size a
  hwx2_7 : ∀ i : grid2.Coords, EltTy.bits .f32 = 32 ∨ (Rect.block (s := S50000x512) S1000x512.size (cc2_transform_7 i) (hinb2_7 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000_S210000x1_S210000_n_0_0_1 : ScatterDims S50000 S210000x1 S210000 where
  updateWindowDims := []
  insertedWindowDims := [0]
  scatterDimsToOperandDims := [0]
  indexVectorDim := 1
  wf := scatter_S50000_S210000x1_S210000_n_0_0_1_wf
def gather_S50000_S210000x1_S210000_n_0_n_n_0_1_1 : GatherDims S50000 S210000x1 S210000 where
  offsetDims := []
  collapsedSliceDims := [0]
  operandBatchingDims := []
  startIndicesBatchingDims := []
  startIndexMap := [0]
  indexVectorDim := 1
  sliceSizes := ![1]
  wf := gather_S50000_S210000x1_S210000_n_0_n_n_0_1_1_wf
def gather_S50000x512_S210000x1_S210000x512_1_0_n_n_0_1_1512 : GatherDims S50000x512 S210000x1 S210000x512 where
  offsetDims := [1]
  collapsedSliceDims := [0]
  operandBatchingDims := []
  startIndicesBatchingDims := []
  startIndexMap := [0]
  indexVectorDim := 1
  sliceSizes := ![1, 512]
  wf := gather_S50000x512_S210000x1_S210000x512_1_0_n_n_0_1_1512_wf
def scatter_S50000x512_S210000x1_S210000x512_1_0_0_1 : ScatterDims S50000x512 S210000x1 S210000x512 where
  updateWindowDims := [1]
  insertedWindowDims := [0]
  scatterDimsToOperandDims := [0]
  indexVectorDim := 1
  wf := scatter_S50000x512_S210000x1_S210000x512_1_0_0_1_wf
def dot_S64x1000_S1000x512_S64x512_1_0_0_1_n_n : DotDims S64x1000 S1000x512 S64x512 where
  lhsContracting := [1]
  rhsContracting := [0]
  lhsNonContracting := [0]
  rhsNonContracting := [1]
  lhsBatch := []
  rhsBatch := []
  wf := dot_S64x1000_S1000x512_S64x512_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S1000x64_S64x512_S1000x512_1_0_0_1_n_n : DotDims S1000x64 S64x512 S1000x512 where
  lhsContracting := [1]
  rhsContracting := [0]
  lhsNonContracting := [0]
  rhsNonContracting := [1]
  lhsBatch := []
  rhsBatch := []
  wf := dot_S1000x64_S64x512_S1000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S1000x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S64x512.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_2) S64x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v48_0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S64x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S1000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x512 : Shape := ⟨2, ![50000, 512]⟩
abbrev S160000 : Shape := ⟨1, ![160000]⟩
abbrev S512x512 : Shape := ⟨2, ![512, 512]⟩
abbrev S512 : Shape := ⟨1, ![512]⟩
abbrev S2x160000 : Shape := ⟨2, ![2, 160000]⟩
abbrev S50000 : Shape := ⟨1, ![50000]⟩
abbrev S1x160000 : Shape := ⟨2, ![1, 160000]⟩
abbrev S210000 : Shape := ⟨1, ![210000]⟩
abbrev S_ : Shape := ⟨0, ![]⟩
abbrev S210000x1 : Shape := ⟨2, ![210000, 1]⟩
abbrev S210000x512 : Shape := ⟨2, ![210000, 512]⟩
abbrev S1x512 : Shape := ⟨2, ![1, 512]⟩
abbrev S64 : Shape := ⟨1, ![64]⟩
abbrev S50000x1 : Shape := ⟨2, ![50000, 1]⟩
abbrev S64x1 : Shape := ⟨2, ![64, 1]⟩
abbrev S64x512 : Shape := ⟨2, ![64, 512]⟩

abbrev nBuf : Space → Nat
  | .hbm => 131
  | .vmem => 0
  | .smem => 0
  | _ => 0

abbrev hbmTy0_0 (i : Nat) : BufTy := match i % 128 with
  | 0 => ⟨S50000x512, .f32⟩
  | 1 => ⟨S160000, .f32⟩
  | 2 => ⟨S512x512, .f32⟩
  | 3 => ⟨S512, .f32⟩
  | 4 => ⟨S512, .f32⟩
  | 5 => ⟨S512, .f32⟩
  | 6 => ⟨S512, .f32⟩
  | 7 => ⟨S2x160000, .i32⟩
  | 8 => ⟨S50000, .i32⟩
  | 9 => ⟨S50000x512, .f32⟩
  | 10 => ⟨S50000, .i32⟩
  | 11 => ⟨S1x160000, .i32⟩
  | 12 => ⟨S160000, .i32⟩
  | 13 => ⟨S210000, .i32⟩
  | 14 => ⟨S1x160000, .i32⟩
  | 15 => ⟨S160000, .i32⟩
  | 16 => ⟨S210000, .i32⟩
  | 17 => ⟨S_, .f32⟩
  | 18 => ⟨S50000, .f32⟩
  | 19 => ⟨S210000, .f32⟩
  | 20 => ⟨S_, .f32⟩
  | 21 => ⟨S50000, .f32⟩
  | 22 => ⟨S210000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S210000, .i32⟩
  | 34 => ⟨S210000, .i1⟩
  | 35 => ⟨S_, .i32⟩
  | 36 => ⟨S210000, .i32⟩
  | 37 => ⟨S210000, .i32⟩
  | 38 => ⟨S210000, .i32⟩
  | 39 => ⟨S210000x1, .i32⟩
  | 40 => ⟨S210000, .f32⟩
  | 41 => ⟨S210000, .f32⟩
  | 42 => ⟨S_, .i32⟩
  | 43 => ⟨S210000, .i32⟩
  | 44 => ⟨S210000, .i1⟩
  | 45 => ⟨S_, .i32⟩
  | 46 => ⟨S210000, .i32⟩
  | 47 => ⟨S210000, .i32⟩
  | 48 => ⟨S210000, .i32⟩
  | 49 => ⟨S210000x1, .i32⟩
  | 50 => ⟨S210000, .f32⟩
  | 51 => ⟨S210000, .f32⟩
  | 52 => ⟨S_, .i32⟩
  | 53 => ⟨S210000, .i32⟩
  | 54 => ⟨S210000, .i1⟩
  | 55 => ⟨S_, .i32⟩
  | 56 => ⟨S210000, .i32⟩
  | 57 => ⟨S210000, .i32⟩
  | 58 => ⟨S210000, .i32⟩
  | 59 => ⟨S210000x1, .i32⟩
  | 60 => ⟨S210000x512, .f32⟩
  | 61 => ⟨S210000x1, .f32⟩
  | 62 => ⟨S210000x512, .f32⟩
  | 63 => ⟨S210000x512, .f32⟩
  | 64 => ⟨S_, .f32⟩
  | 65 => ⟨S50000x512, .f32⟩
  | 66 => ⟨S210000x1, .i32⟩
  | 67 => ⟨S50000x512, .f32⟩
  | 68 => ⟨S1x512, .f32⟩
  | 69 => ⟨S50000x512, .f32⟩
  | 70 => ⟨S50000x512, .f32⟩
  | 71 => ⟨S50000x512, .f32⟩
  | 72 => ⟨S_, .f32⟩
  | 73 => ⟨S50000, .f32⟩
  | 74 => ⟨S_, .f32⟩
  | 75 => ⟨S64, .f32⟩
  | 76 => ⟨S50000x1, .i32⟩
  | 77 => ⟨S64, .f32⟩
  | 78 => ⟨S_, .f32⟩
  | 79 => ⟨S64, .f32⟩
  | 80 => ⟨S64, .f32⟩
  | 81 => ⟨S64x1, .f32⟩
  | 82 => ⟨S_, .f32⟩
  | 83 => ⟨S64x512, .f32⟩
  | 84 => ⟨S50000x1, .i32⟩
  | 85 => ⟨S64x512, .f32⟩
  | 86 => ⟨S64x512, .f32⟩
  | 87 => ⟨S64x512, .f32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x512, .f32⟩
  | 97 => ⟨S1x512, .f32⟩
  | 98 => ⟨S50000x512, .f32⟩
  | 99 => ⟨S50000x512, .f32⟩
  | 100 => ⟨S50000x512, .f32⟩
  | 101 => ⟨S50000x512, .f32⟩
  | 102 => ⟨S_, .f32⟩
  | 103 => ⟨S64x512, .f32⟩
  | 104 => ⟨S50000x1, .i32⟩
  | 105 => ⟨S64x512, .f32⟩
  | 106 => ⟨S64x512, .f32⟩
  | 107 => ⟨S64x512, .f32⟩
  | 108 => ⟨S_, .f32⟩
  | 109 => ⟨S64x512, .f32⟩
  | 110 => ⟨S64x512, .f32⟩
  | 111 => ⟨S64x512, .f32⟩
  | 112 => ⟨S1x512, .f32⟩
  | 113 => ⟨S50000x512, .f32⟩
  | 114 => ⟨S50000x512, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x512, .f32⟩
  | 124 => ⟨S50000x512, .f32⟩
  | 125 => ⟨S1x512, .f32⟩
  | 126 => ⟨S50000x512, .f32⟩
  | 127 => ⟨S50000x512, .f32⟩
  | _ => ⟨S50000x512, .f32⟩

abbrev hbmTy0_1 (i : Nat) : BufTy := match i % 128 with
  | 0 => ⟨S_, .f32⟩
  | 1 => ⟨S50000x512, .f32⟩
  | 2 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_17 : Ref sig .tc := ⟨.hbm, 115, rfl⟩
abbrev main_v85 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_call1_cst : Ref sig .tc := ⟨.hbm, 128, rfl⟩
abbrev main_call1_v0 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S50000_S210000_d0 : Shape.Concatenates [S160000, S50000] S210000 0
  slices_S2x160000_S1x160000_1_0 : S2x160000.Slices ![1, 0] S1x160000
  bcast_S_S50000 : S_.BroadcastsInDim S50000 (![] : Fin 0 → Fin S50000.rank)
  bcast_S210000_S210000x1_0 : S210000.BroadcastsInDim S210000x1 (![0] : Fin 1 → Fin S210000x1.rank)
  bcast_S_S210000 : S_.BroadcastsInDim S210000 (![] : Fin 0 → Fin S210000.rank)
  bcast_S210000x1_S210000x512_0_1 : S210000x1.BroadcastsInDim S210000x512 (![0, 1] : Fin 2 → Fin S210000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S_S64x512 : S_.BroadcastsInDim S64x512 (![] : Fin 0 → Fin S64x512.rank)
  bcast_S64x1_S64x512_0_1 : S64x1.BroadcastsInDim S64x512 (![0, 1] : Fin 2 → Fin S64x512.rank)
  dot_S50000x512_S512x512_S50000x512_1_0_0_1_n_n_wf : DotDims.WF S50000x512 S512x512 S50000x512 [1] [0] [0] [1] [] []
  scatter_S50000_S210000x1_S210000_n_0_0_1_wf : ScatterDims.WF S50000 S210000x1 S210000 [] [0] [0] 1
  gather_S50000_S210000x1_S210000_n_0_n_n_0_1_1_wf : GatherDims.WF S50000 S210000x1 S210000 [] [0] [] [0] [] 1 ![1]
  gather_S50000x512_S210000x1_S210000x512_1_0_n_n_0_1_1512_wf : GatherDims.WF S50000x512 S210000x1 S210000x512 [1] [0] [] [0] [] 1 ![1, 512]
  scatter_S50000x512_S210000x1_S210000x512_1_0_0_1_wf : ScatterDims.WF S50000x512 S210000x1 S210000x512 [1] [0] [0] 1
  scatter_S64_S50000x1_S50000_n_0_0_1_wf : ScatterDims.WF S64 S50000x1 S50000 [] [0] [0] 1
  scatter_S64x512_S50000x1_S50000x512_1_0_0_1_wf : ScatterDims.WF S64x512 S50000x1 S50000x512 [1] [0] [0] 1
  gather_S64x512_S50000x1_S50000x512_1_0_n_n_0_1_1512_wf : GatherDims.WF S64x512 S50000x1 S50000x512 [1] [0] [] [0] [] 1 ![1, 512]

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S50000_S210000x1_S210000_n_0_0_1 : ScatterDims S50000 S210000x1 S210000 where
  updateWindowDims := []
  insertedWindowDims := [0]
  scatterDimsToOperandDims := [0]
  indexVectorDim := 1
  wf := scatter_S50000_S210000x1_S210000_n_0_0_1_wf
def gather_S50000_S210000x1_S210000_n_0_n_n_0_1_1 : GatherDims S50000 S210000x1 S210000 where
  offsetDims := []
  collapsedSliceDims := [0]
  operandBatchingDims := []
  startIndicesBatchingDims := []
  startIndexMap := [0]
  indexVectorDim := 1
  sliceSizes := ![1]
  wf := gather_S50000_S210000x1_S210000_n_0_n_n_0_1_1_wf
def gather_S50000x512_S210000x1_S210000x512_1_0_n_n_0_1_1512 : GatherDims S50000x512 S210000x1 S210000x512 where
  offsetDims := [1]
  collapsedSliceDims := [0]
  operandBatchingDims := []
  startIndicesBatchingDims := []
  startIndexMap := [0]
  indexVectorDim := 1
  sliceSizes := ![1, 512]
  wf := gather_S50000x512_S210000x1_S210000x512_1_0_n_n_0_1_1512_wf
def scatter_S50000x512_S210000x1_S210000x512_1_0_0_1 : ScatterDims S50000x512 S210000x1 S210000x512 where
  updateWindowDims := [1]
  insertedWindowDims := [0]
  scatterDimsToOperandDims := [0]
  indexVectorDim := 1
  wf := scatter_S50000x512_S210000x1_S210000x512_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x512_S50000x1_S50000x512_1_0_0_1 : ScatterDims S64x512 S50000x1 S50000x512 where
  updateWindowDims := [1]
  insertedWindowDims := [0]
  scatterDimsToOperandDims := [0]
  indexVectorDim := 1
  wf := scatter_S64x512_S50000x1_S50000x512_1_0_0_1_wf
def gather_S64x512_S50000x1_S50000x512_1_0_n_n_0_1_1512 : GatherDims S64x512 S50000x1 S50000x512 where
  offsetDims := [1]
  collapsedSliceDims := [0]
  operandBatchingDims := []
  startIndicesBatchingDims := []
  startIndexMap := [0]
  indexVectorDim := 1
  sliceSizes := ![1, 512]
  wf := gather_S64x512_S50000x1_S50000x512_1_0_n_n_0_1_1512_wf

class Facts : Prop extends Facts₀ where

variable [Facts]
-- ==== Proof.KV.Pay.lean ====
/-
  The kernel bodies' arithmetic read at one index, over the extended reals.

  Region 0 writes the matrix product of a block of rows with the weight matrix. Region 1 forms, per row p and
  column q, h(p,q) = x(p,q) + a(p,q) + b(q); the indicator e(p,g) of "row p belongs to group g"; and adds to two
  carried [64,512] tables the sums over the block's rows of e(p,g) * h(p,q) and of e(p,g) * (h(p,q) * h(p,q)), both
  tables starting at zero. Region 2 gathers a group's mean and inverse deviation for each row as a sum over the 64
  groups against the same indicator, centres, scales, shifts and clamps at zero. A change of float format is the
  identity here, and a product into the zero accumulator is the plain sum over the contracted axis.
-/
import proofs.«430542_j72688026518114_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

theorem pay1_zero (j : S64x512.Idx) : k1_pay1 (F := Ideal) j = 0 := by
  unfold k1_pay1
  rw [shapeCast_self]
  exact Ideal.ofBits_zero_f32

theorem pay2_zero (j : S64x512.Idx) : k1_pay2 (F := Ideal) j = 0 := by
  unfold k1_pay2
  rw [shapeCast_self]
  exact Ideal.ofBits_zero_f32

theorem pay3 (x a : Vec Ideal S1000x512 .f32) (b : Vec Ideal S1x512 .f32) (p : Fin 1000) (q : Fin 512) :
    k1_pay3 (F := Ideal) x a b (ix2 p q) = x (ix2 p q) + a (ix2 p q) + b (ix2 0 q) := by
  unfold k1_pay3
  rw [shapeCast_self, shapeCast_self]
  show x (ix2 p q) + a (ix2 p q) + broadcastTo S1000x512 b broadcasts_S1x512_S1000x512 (ix2 p q) = _
  rw [broadcastTo_1b_ab_apply]

/-- A column broadcast along the second axis reads the column at its row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The equality test of two words, widened and read as a signed integer, is the indicator of equality. -/
theorem onehot_word (x y : BitVec 32) :
    ((((IntOp.cmpi .eq x y).setWidth 32).toInt : ℝ) : EReal) = if x = y then (1 : EReal) else 0 := by
  by_cases h : x = y
  · subst h; simp [IntOp.cmpi]
  · have hb : (x == y) = false := beq_eq_false_iff_ne.mpr h
    simp [IntOp.cmpi, hb, h]

theorem pay4 (bt : Vec Ideal S1000x1 .i32) (p : Fin 1000) (g : Fin 64) :
    k1_pay4 (F := Ideal) bt (ix2 p g) = if bt (ix2 p 0) = BitVec.ofNat 32 g.val then (1 : EReal) else 0 := by
  unfold k1_pay4
  rw [shapeCast_self]
  show ((((IntOp.cmpi .eq (broadcastTo S1000x64 bt broadcasts_S1000x1_S1000x64 (ix2 p g))
      (iota .tc S1000x64 32 [1] iota_S1000x64_d1_w32 (ix2 p g))).setWidth 32).toInt : ℝ) : EReal) = _
  rw [broadcastTo_a1_ab_apply, iota_single_apply]
  exact onehot_word _ _

/-! The operand indices of the first product: row of the left factor, column of the right one. -/
theorem lhs_k0_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_k0_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_k0_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_k0_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

theorem pay0 (x : Vec Ideal S2000x512 .f32) (w : Vec Ideal S512x512 .f32) (p : Fin 2000) (q : Fin 512) :
    k0_pay1 (F := Ideal) x w (ix2 p q) = ∑ k : Fin 512, x (ix2 p k) * w (ix2 k q) := by
  unfold k0_pay1
  show FloatOps.matmul dot_S2000x512_S512x512_S2000x512_1_0_0_1_n_n none (truncf .bf16 x bitsLt_bf16_f32) (truncf .bf16 w bitsLt_bf16_f32)
      (constant (F := Ideal) S2000x512 .f32 0x00000000#32) (ix2 p q) = _
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_k0_0 _ _
    | ⟨1, _⟩ => exact (lhs_k0_1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_k0_0 _ _).trans hk
    | ⟨1, _⟩ => exact rhs_k0_1 _ _)
  rw [el, er]
  rfl

/-! The second region's products: a [64,1000] left factor against a [1000,512] right one. -/

theorem lhs_k1_0 (i : S64x512.Idx) (q : dot_S64x1000_S1000x512_S64x512_1_0_0_1_n_n.contr.Idx) :
    (dot_S64x1000_S1000x512_S64x512_1_0_0_1_n_n.lhsIdx i q 0).val = (i 0).val := by
  unfold DotDims.lhsIdx
  rw [dif_neg (show ¬(0 : Fin S64x1000.rank) ∈ dot_S64x1000_S1000x512_S64x512_1_0_0_1_n_n.lhsBatch by decide), dif_pos (show (0 : Fin S64x1000.rank) ∈ dot_S64x1000_S1000x512_S64x512_1_0_0_1_n_n.lhsNonContracting by decide)]
  rfl
theorem lhs_k1_1 (i : S64x512.Idx) (q : dot_S64x1000_S1000x512_S64x512_1_0_0_1_n_n.contr.Idx) :
    (dot_S64x1000_S1000x512_S64x512_1_0_0_1_n_n.lhsIdx i q 1).val = (q ⟨0, by decide⟩).val :=
  dot_S64x1000_S1000x512_S64x512_1_0_0_1_n_n.lhsIdx_val_of_single rfl i q
theorem rhs_k1_0 (i : S64x512.Idx) (q : dot_S64x1000_S1000x512_S64x512_1_0_0_1_n_n.contr.Idx) :
    (dot_S64x1000_S1000x512_S64x512_1_0_0_1_n_n.rhsIdx i q 0).val = (q ⟨0, by decide⟩).val :=
  dot_S64x1000_S1000x512_S64x512_1_0_0_1_n_n.rhsIdx_val_of_single rfl i q
theorem rhs_k1_1 (i : S64x512.Idx) (q : dot_S64x1000_S1000x512_S64x512_1_0_0_1_n_n.contr.Idx) :
    (dot_S64x1000_S1000x512_S64x512_1_0_0_1_n_n.rhsIdx i q 1).val = (i 1).val := by
  unfold DotDims.rhsIdx
  rw [dif_neg (show ¬(1 : Fin S1000x512.rank) ∈ dot_S64x1000_S1000x512_S64x512_1_0_0_1_n_n.rhsBatch by decide), dif_pos (show (1 : Fin S1000x512.rank) ∈ dot_S64x1000_S1000x512_S64x512_1_0_0_1_n_n.rhsNonContracting by decide)]
  rfl

/-- A [64,1000] by [1000,512] product into the zero accumulator is the sum over the 1000 rows. -/
theorem mm_k1 (prec : Option ContractPrecision) (L : FVec Ideal S64x1000 .f32) (R : FVec Ideal S1000x512 .f32) (r : Fin 64) (c : Fin 512) :
    FloatOps.matmul dot_S64x1000_S1000x512_S64x512_1_0_0_1_n_n prec L R (constant (F := Ideal) S64x512 .f32 0x00000000#32) (ix2 r c)
      = ∑ k : Fin 1000, L (ix2 r k) * R (ix2 k c) := by
  rw [Ideal.matmul_constant_zero_apply, ← Equiv.sum_comp (contrEquiv1 dot_S64x1000_S1000x512_S64x512_1_0_0_1_n_n 1000 rfl rfl).symm]
  refine Finset.sum_congr rfl fun k _ => ?_
  have hk := contrEquiv1_symm_val dot_S64x1000_S1000x512_S64x512_1_0_0_1_n_n 1000 rfl rfl k
  have el : dot_S64x1000_S1000x512_S64x512_1_0_0_1_n_n.lhsIdx (ix2 r c) ((contrEquiv1 dot_S64x1000_S1000x512_S64x512_1_0_0_1_n_n 1000 rfl rfl).symm k) = ix2 r k := funext fun a => Fin.ext (by
    match a with
    | ⟨0, _⟩ => exact lhs_k1_0 _ _
    | ⟨1, _⟩ => exact (lhs_k1_1 _ _).trans hk)
  have er : dot_S64x1000_S1000x512_S64x512_1_0_0_1_n_n.rhsIdx (ix2 r c) ((contrEquiv1 dot_S64x1000_S1000x512_S64x512_1_0_0_1_n_n 1000 rfl rfl).symm k) = ix2 k c := funext fun a => Fin.ext (by
    match a with
    | ⟨0, _⟩ => exact (rhs_k1_0 _ _).trans hk
    | ⟨1, _⟩ => exact rhs_k1_1 _ _)
  rw [el, er]

theorem pay5 (x a : Vec Ideal S1000x512 .f32) (b : Vec Ideal S1x512 .f32) (bt : Vec Ideal S1000x1 .i32)
    (acc : Vec Ideal S64x512 .f32) (g : Fin 64) (q : Fin 512) :
    k1_pay5 (F := Ideal) x a b bt acc (ix2 g q)
      = acc (ix2 g q) + ∑ p : Fin 1000, k1_pay4 (F := Ideal) bt (ix2 p g) * k1_pay3 (F := Ideal) x a b (ix2 p q) := by
  unfold k1_pay5
  rw [shapeCast_self]
  show acc (ix2 g q) + FloatOps.matmul dot_S64x1000_S1000x512_S64x512_1_0_0_1_n_n (some .fp32)
      (transpose S64x1000 [1, 0] (k1_pay4 (F := Ideal) bt) transposes_S1000x64_p1_0_S64x1000)
      (k1_pay3 (F := Ideal) x a b) (constant (F := Ideal) S64x512 .f32 0x00000000#32) (ix2 g q) = _
  rw [mm_k1]
  refine congrArg (acc (ix2 g q) + ·) (Finset.sum_congr rfl fun p _ => ?_)
  rw [transpose_ix2_apply]

theorem pay6 (x a : Vec Ideal S1000x512 .f32) (b : Vec Ideal S1x512 .f32) (bt : Vec Ideal S1000x1 .i32)
    (acc : Vec Ideal S64x512 .f32) (g : Fin 64) (q : Fin 512) :
    k1_pay6 (F := Ideal) x a b bt acc (ix2 g q)
      = acc (ix2 g q) + ∑ p : Fin 1000, k1_pay4 (F := Ideal) bt (ix2 p g)
          * (k1_pay3 (F := Ideal) x a b (ix2 p q) * k1_pay3 (F := Ideal) x a b (ix2 p q)) := by
  unfold k1_pay6
  rw [shapeCast_self]
  show acc (ix2 g q) + FloatOps.matmul dot_S64x1000_S1000x512_S64x512_1_0_0_1_n_n (some .fp32)
      (transpose S64x1000 [1, 0] (k1_pay4 (F := Ideal) bt) transposes_S1000x64_p1_0_S64x1000)
      (mulf (k1_pay3 (F := Ideal) x a b) (k1_pay3 (F := Ideal) x a b)) (constant (F := Ideal) S64x512 .f32 0x00000000#32) (ix2 g q) = _
  rw [mm_k1]
  refine congrArg (acc (ix2 g q) + ·) (Finset.sum_congr rfl fun p _ => ?_)
  rw [transpose_ix2_apply]
  rfl

/-! The third region's products: the [1000,64] indicator against a [64,512] table. -/

theorem lhs_k2_0 (i : S1000x512.Idx) (q : dot_S1000x64_S64x512_S1000x512_1_0_0_1_n_n.contr.Idx) :
    (dot_S1000x64_S64x512_S1000x512_1_0_0_1_n_n.lhsIdx i q 0).val = (i 0).val := by
  unfold DotDims.lhsIdx
  rw [dif_neg (show ¬(0 : Fin S1000x64.rank) ∈ dot_S1000x64_S64x512_S1000x512_1_0_0_1_n_n.lhsBatch by decide), dif_pos (show (0 : Fin S1000x64.rank) ∈ dot_S1000x64_S64x512_S1000x512_1_0_0_1_n_n.lhsNonContracting by decide)]
  rfl
theorem lhs_k2_1 (i : S1000x512.Idx) (q : dot_S1000x64_S64x512_S1000x512_1_0_0_1_n_n.contr.Idx) :
    (dot_S1000x64_S64x512_S1000x512_1_0_0_1_n_n.lhsIdx i q 1).val = (q ⟨0, by decide⟩).val :=
  dot_S1000x64_S64x512_S1000x512_1_0_0_1_n_n.lhsIdx_val_of_single rfl i q
theorem rhs_k2_0 (i : S1000x512.Idx) (q : dot_S1000x64_S64x512_S1000x512_1_0_0_1_n_n.contr.Idx) :
    (dot_S1000x64_S64x512_S1000x512_1_0_0_1_n_n.rhsIdx i q 0).val = (q ⟨0, by decide⟩).val :=
  dot_S1000x64_S64x512_S1000x512_1_0_0_1_n_n.rhsIdx_val_of_single rfl i q
theorem rhs_k2_1 (i : S1000x512.Idx) (q : dot_S1000x64_S64x512_S1000x512_1_0_0_1_n_n.contr.Idx) :
    (dot_S1000x64_S64x512_S1000x512_1_0_0_1_n_n.rhsIdx i q 1).val = (i 1).val := by
  unfold DotDims.rhsIdx
  rw [dif_neg (show ¬(1 : Fin S64x512.rank) ∈ dot_S1000x64_S64x512_S1000x512_1_0_0_1_n_n.rhsBatch by decide), dif_pos (show (1 : Fin S64x512.rank) ∈ dot_S1000x64_S64x512_S1000x512_1_0_0_1_n_n.rhsNonContracting by decide)]
  rfl

/-- A [1000,64] by [64,512] product into the zero accumulator is the sum over the 64 groups. -/
theorem mm_k2 (prec : Option ContractPrecision) (L : FVec Ideal S1000x64 .f32) (R : FVec Ideal S64x512 .f32) (r : Fin 1000) (c : Fin 512) :
    FloatOps.matmul dot_S1000x64_S64x512_S1000x512_1_0_0_1_n_n prec L R (constant (F := Ideal) S1000x512 .f32 0x00000000#32) (ix2 r c)
      = ∑ k : Fin 64, L (ix2 r k) * R (ix2 k c) := by
  rw [Ideal.matmul_constant_zero_apply, ← Equiv.sum_comp (contrEquiv1 dot_S1000x64_S64x512_S1000x512_1_0_0_1_n_n 64 rfl rfl).symm]
  refine Finset.sum_congr rfl fun k _ => ?_
  have hk := contrEquiv1_symm_val dot_S1000x64_S64x512_S1000x512_1_0_0_1_n_n 64 rfl rfl k
  have el : dot_S1000x64_S64x512_S1000x512_1_0_0_1_n_n.lhsIdx (ix2 r c) ((contrEquiv1 dot_S1000x64_S64x512_S1000x512_1_0_0_1_n_n 64 rfl rfl).symm k) = ix2 r k := funext fun a => Fin.ext (by
    match a with
    | ⟨0, _⟩ => exact lhs_k2_0 _ _
    | ⟨1, _⟩ => exact (lhs_k2_1 _ _).trans hk)
  have er : dot_S1000x64_S64x512_S1000x512_1_0_0_1_n_n.rhsIdx (ix2 r c) ((contrEquiv1 dot_S1000x64_S64x512_S1000x512_1_0_0_1_n_n 64 rfl rfl).symm k) = ix2 k c := funext fun a => Fin.ext (by
    match a with
    | ⟨0, _⟩ => exact (rhs_k2_0 _ _).trans hk
    | ⟨1, _⟩ => exact rhs_k2_1 _ _)
  rw [el, er]

theorem pay2_1 (h : Vec Ideal S1000x512 .f32) (bt : Vec Ideal S1000x1 .i32) (mean inv : Vec Ideal S64x512 .f32)
    (sc wt bs : Vec Ideal S1x512 .f32) (p : Fin 1000) (q : Fin 512) :
    k2_pay1 (F := Ideal) h bt mean inv sc wt bs (ix2 p q)
      = max (wt (ix2 0 q)
            * (h (ix2 p q)
                - (∑ g : Fin 64, (if bt (ix2 p 0) = BitVec.ofNat 32 g.val then (1 : EReal) else 0) * mean (ix2 g q))
                  * sc (ix2 0 q))
            * (∑ g : Fin 64, (if bt (ix2 p 0) = BitVec.ofNat 32 g.val then (1 : EReal) else 0) * inv (ix2 g q))
          + bs (ix2 0 q)) 0 := by
  unfold k2_pay1
  rw [shapeCast_self h, shapeCast_self mean, shapeCast_self inv, shapeCast_self sc, shapeCast_self wt, shapeCast_self bs]
  show max (broadcastTo S1000x512 wt broadcasts_S1x512_S1000x512 (ix2 p q)
        * (h (ix2 p q)
            - FloatOps.matmul dot_S1000x64_S64x512_S1000x512_1_0_0_1_n_n (some .fp32) (k1_pay4 (F := Ideal) bt) mean
                (constant (F := Ideal) S1000x512 .f32 0x00000000#32) (ix2 p q)
              * broadcastTo S1000x512 sc broadcasts_S1x512_S1000x512 (ix2 p q))
        * FloatOps.matmul dot_S1000x64_S64x512_S1000x512_1_0_0_1_n_n (some .fp32) (k1_pay4 (F := Ideal) bt) inv
            (constant (F := Ideal) S1000x512 .f32 0x00000000#32) (ix2 p q)
        + broadcastTo S1000x512 bs broadcasts_S1x512_S1000x512 (ix2 p q)) (Ideal.ofBits .f32 0x00000000#32) = _
  rw [mm_k2, mm_k2, broadcastTo_1b_ab_apply, broadcastTo_1b_ab_apply, broadcastTo_1b_ab_apply, Ideal.ofBits_zero_f32]
  simp only [pay4]

end Cert.KernelIdeal.Pay
-- ==== Proof.KV.Arr0.lean ====
/- The first region's output array as one function of its two argument arrays: entry (p, q) is the sum over k of
   x (p, k) * w (k, q). Each grid point t writes rows 2000 t … 2000 t + 1999; the 25 row blocks cover the 50000 rows. -/
import proofs.«430542_j72688026518114_3_alg».proof.Proof.KI.Reg0
import Idealize.ShloMosaic.Lib.Pipeline.Value
import Idealize.ShloMosaic.Lib.ValueIdx
import Idealize.ShloMosaic.PureOps.Ideal

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

/-- The product array: row p of x against column q of w. -/
def G0 (x : S50000x512.Idx → EReal) (w : S512x512.Idx → EReal) : S50000x512.Idx → EReal :=
  fun i => ∑ k : Fin 512, x (ix2 (i 0 : Fin 50000) k) * w (ix2 k (i 1 : Fin 512))

theorem G0_apply (x : S50000x512.Idx → EReal) (w : S512x512.Idx → EReal) (p : Fin 50000) (q : Fin 512) :
    G0 x w (ix2 p q) = ∑ k : Fin 512, x (ix2 p k) * w (ix2 k q) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks move with the point, the weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the row window is rows 2000 t … 2000 t + 1999 of its array. -/
theorem rows_block0 (c : Dev nD) (t : Fin cfg0.N) (p : Fin 2000) (k : Fin 512) (r : Fin 50000)
    (hr : r.val = t.val * 2000 + p.val) :
    (iblk0 V c 0 t : Vec Ideal S2000x512 .f32) (ix2 p k) = (V c main_arg0 : S50000x512.Idx → EReal) (ix2 r k) := by
  obtain ⟨e0, e1, -⟩ := idx_facts0 t
  unfold iblk0
  rw [View.read_apply]
  show (V c main_arg0 : S50000x512.Idx → EReal) _ = (V c main_arg0 : S50000x512.Idx → EReal) _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The weight window's one block is its whole array. -/
theorem weight_block0 (c : Dev nD) (t : Fin cfg0.N) (k : Fin 512) (q : Fin 512) :
    (iblk0 V c 1 t : Vec Ideal S512x512 .f32) (ix2 k q) = (V c main_arg2 : S512x512.Idx → EReal) (ix2 k q) := by
  obtain ⟨-, -, e2, e3, -⟩ := idx_facts0 t
  unfold iblk0
  rw [View.read_apply]
  show (V c main_arg2 : S512x512.Idx → EReal) _ = (V c main_arg2 : S512x512.Idx → EReal) _
  congr 1
  funext a
  apply Fin.ext
  match a with
  | ⟨0, _⟩ => show win0_1.index t (0 : Fin 2) * 512 + 1 * k.val = k.val; omega
  | ⟨1, _⟩ => show win0_1.index t (1 : Fin 2) * 512 + 1 * q.val = q.val; omega

/-- What point t writes back is block t of the product array. -/
theorem flushed0_eq
    (hpay0 : ∀ (x : Vec Ideal S2000x512 .f32) (w : Vec Ideal S512x512 .f32) (p : Fin 2000) (q : Fin 512),
      k0_pay1 (F := Ideal) x w (ix2 p q) = ∑ k : Fin 512, x (ix2 p k) * w (ix2 k q))
    (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  obtain ⟨-, -, -, -, e4, e5⟩ := idx_facts0 t
  funext j
  obtain ⟨p, q, rfl⟩ : ∃ (p : Fin 2000) (q : Fin 512), j = ix2 p q := ⟨j 0, j 1, eq_ix2 j⟩
  have hp : p.val < 2000 := p.isLt
  have ht : t.val < 25 := t.isLt
  have hrow : t.val * 2000 + p.val < 50000 := by omega
  show k0_pay1 (F := Ideal) (iblk0 V c 0 t) (iblk0 V c 1 t) (ix2 p q)
    = G0 (V c main_arg0) (V c main_arg2) (((cfg0.win 2).blk t).view.emb (ix2 p q))
  have hemb : ((cfg0.win 2).blk t).view.emb (ix2 p q)
      = (ix2 (⟨t.val * 2000 + p.val, hrow⟩ : Fin 50000) q : S50000x512.Idx) := by
    funext a
    apply Fin.ext
    match a with
    | ⟨0, _⟩ => show win0_2.index t (0 : Fin 2) * 2000 + 1 * p.val = t.val * 2000 + p.val; omega
    | ⟨1, _⟩ => show win0_2.index t (1 : Fin 2) * 512 + 1 * q.val = q.val; omega
  rw [hemb, G0_apply, hpay0]
  refine Finset.sum_congr rfl fun k _ => ?_
  rw [rows_block0 V c t p k ⟨_, hrow⟩ rfl, weight_block0 V c t k q]

/-- An index of the array is in point t's block iff each coordinate is in the block's range on its axis. -/
theorem mem_blk0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v0).slice (win0_2.rect t)).set ↔ _
  rw [View.set_slice_whole, Rect.mem_set_unit]
  exact Iff.rfl

/-- Row r lies in the block of point r / 2000. -/
theorem cover0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨-, -, -, -, e4, e5⟩ := idx_facts0 t
  have e4' : win0_2.index t (0 : Fin 2) = (i 0).val / 2000 := e4
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The array the first region leaves: the product array. -/
theorem arr0
    (hpay0 : ∀ (x : Vec Ideal S2000x512 .f32) (w : Vec Ideal S512x512 .f32) (p : Fin 2000) (q : Fin 512),
      k0_pay1 (F := Ideal) x w (ix2 p q) = ∑ k : Fin 512, x (ix2 p k) * w (ix2 k q))
    (c : Dev nD) :
    (dat0 (F := Ideal) V c).arrAt 2 cfg0.N = G0 (V c main_arg0) (V c main_arg2) :=
  (dat0 (F := Ideal) V c).arrAt_eq_of_cover 2 (G0 (V c main_arg0) (V c main_arg2))
    (fun t _ => flushed0_eq V hpay0 c t) cover0

end Cert.KernelIdeal.Arr
end
-- ==== Proof.KI.Reg1Pieces.lean ====
/- What each control case of region 1's body leaves in each buffer it stores, as a value: the pieces its run found,
   read back, are the skeleton's payloads of the whole input blocks (and, for the two accumulators, of what the point
   before left, or of the zero block at the first point). Generic in the float family. -/
import proofs.«430542_j72688026518114_3_alg».proof.Proof.KI.Reg1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the constant function. -/
theorem hz1 : (![0, 0] : Fin 2 → Nat) = fun _ => 0 := funext fun a => by fin_cases a <;> rfl

/-- Case A: output window 4's buffer ends at the one covering store's payload, the sum of the two row blocks and the bias row, read off the whole input buffers. -/
theorem out1_A_4_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : cond1_0 i) (hc1 : ¬cond1_1 i)
    (x0 : Vec F S1000x512 .f32) (x1 : Vec F S1000x512 .f32) (x2 : Vec F S1x512 .f32) (x3 : Vec F S1000x1 .i32) :
    out1_A_4 c i arg1 harg1 arg2 harg2 arg3 harg3 arg4 harg4 arg5 harg5 arg6 harg6 arg7 harg7 arg8 harg8 arg9 harg9 hc0 hc1 x0 x1 x2 x3 = k1_pay3 x0 x1 x2 := by
  unfold out1_A_4
  rw [View.read_writes_eq_canon _ _ _ (cover1_A_4 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_unit_zero (S := S1000x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case B: output window 4's buffer ends at the one covering store's payload, the sum of the two row blocks and the bias row, read off the whole input buffers. -/
theorem out1_B_4_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : ¬cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    out1_B_4 c i arg1 harg1 arg2 harg2 arg3 harg3 arg4 harg4 arg5 harg5 arg6 harg6 arg7 harg7 arg8 harg8 arg9 harg9 hc0 hc1 x0 x1 x2 x3 xs0 xs1 = k1_pay3 x0 x1 x2 := by
  unfold out1_B_4
  rw [View.read_writes_eq_canon _ _ _ (cover1_B_4 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero (S := S1000x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case C: output window 4's buffer ends at the one covering store's payload, the sum of the two row blocks and the bias row, read off the whole input buffers. -/
theorem out1_C_4_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    out1_C_4 c i arg1 harg1 arg2 harg2 arg3 harg3 arg4 harg4 arg5 harg5 arg6 harg6 arg7 harg7 arg8 harg8 arg9 harg9 hc0 hc1 x0 x1 x2 x3 xs0 xs1 = k1_pay3 x0 x1 x2 := by
  unfold out1_C_4
  rw [View.read_writes_eq_canon _ _ _ (cover1_C_4 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero (S := S1000x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case A: scratch 0 is reset to the zero block, read back, and ends at the update of the zero block by the point's rows. -/
theorem sout1_A_0_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : cond1_0 i) (hc1 : ¬cond1_1 i)
    (x0 : Vec F S1000x512 .f32) (x1 : Vec F S1000x512 .f32) (x2 : Vec F S1x512 .f32) (x3 : Vec F S1000x1 .i32) :
    sout1_A_0 c i arg1 harg1 arg2 harg2 arg3 harg3 arg4 harg4 arg5 harg5 arg6 harg6 arg7 harg7 arg8 harg8 arg9 harg9 hc0 hc1 x0 x1 x2 x3 = k1_pay5 x0 x1 x2 x3 (k1_pay1 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S64x512) hz1, View.readCov_unit_zero (S := S64x512) _ hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case A: scratch 1 is reset to the zero block, read back, and ends at the update of the zero block by the point's squared rows. -/
theorem sout1_A_1_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : cond1_0 i) (hc1 : ¬cond1_1 i)
    (x0 : Vec F S1000x512 .f32) (x1 : Vec F S1000x512 .f32) (x2 : Vec F S1x512 .f32) (x3 : Vec F S1000x1 .i32) :
    sout1_A_1 c i arg1 harg1 arg2 harg2 arg3 harg3 arg4 harg4 arg5 harg5 arg6 harg6 arg7 harg7 arg8 harg8 arg9 harg9 hc0 hc1 x0 x1 x2 x3 = k1_pay6 x0 x1 x2 x3 (k1_pay2 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S64x512) hz1, View.readCov_unit_zero (S := S64x512) _ hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case B: scratch 0 ends at the update, by the point's rows, of what the point before left in it. -/
theorem sout1_B_0_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : ¬cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    sout1_B_0 c i arg1 harg1 arg2 harg2 arg3 harg3 arg4 harg4 arg5 harg5 arg6 harg6 arg7 harg7 arg8 harg8 arg9 harg9 hc0 hc1 x0 x1 x2 x3 xs0 xs1 = k1_pay5 x0 x1 x2 x3 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case B: scratch 1 ends at the update, by the point's squared rows, of what the point before left in it. -/
theorem sout1_B_1_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : ¬cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    sout1_B_1 c i arg1 harg1 arg2 harg2 arg3 harg3 arg4 harg4 arg5 harg5 arg6 harg6 arg7 harg7 arg8 harg8 arg9 harg9 hc0 hc1 x0 x1 x2 x3 xs0 xs1 = k1_pay6 x0 x1 x2 x3 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case C: scratch 0 ends at the update, by the point's rows, of what the point before left in it. -/
theorem sout1_C_0_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    sout1_C_0 c i arg1 harg1 arg2 harg2 arg3 harg3 arg4 harg4 arg5 harg5 arg6 harg6 arg7 harg7 arg8 harg8 arg9 harg9 hc0 hc1 x0 x1 x2 x3 xs0 xs1 = k1_pay5 x0 x1 x2 x3 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case C: scratch 1 ends at the update, by the point's squared rows, of what the point before left in it. -/
theorem sout1_C_1_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    sout1_C_1 c i arg1 harg1 arg2 harg2 arg3 harg3 arg4 harg4 arg5 harg5 arg6 harg6 arg7 harg7 arg8 harg8 arg9 harg9 hc0 hc1 x0 x1 x2 x3 xs0 xs1 = k1_pay6 x0 x1 x2 x3 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case C: output window 5's buffer ends at scratch 0's final contents, read back after its update. -/
theorem out1_C_5_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    out1_C_5 c i arg1 harg1 arg2 harg2 arg3 harg3 arg4 harg4 arg5 harg5 arg6 harg6 arg7 harg7 arg8 harg8 arg9 harg9 hc0 hc1 x0 x1 x2 x3 xs0 xs1 = k1_pay5 x0 x1 x2 x3 xs0 := by
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

/-- Case C: output window 6's buffer ends at scratch 1's final contents, read back after its update. -/
theorem out1_C_6_eq (c : Dev nD) (i : grid1.Coords) (arg1 : Memref sig .tc .vmem S1000x512 .f32) (harg1 : arg1.IsWhole) (arg2 : Memref sig .tc .vmem S1000x512 .f32) (harg2 : arg2.IsWhole) (arg3 : Memref sig .tc .vmem S1x512 .f32) (harg3 : arg3.IsWhole) (arg4 : Memref sig .tc .vmem S1000x1 .i32) (harg4 : arg4.IsWhole) (arg5 : Memref sig .tc .vmem S1000x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (hc0 : ¬cond1_0 i) (hc1 : cond1_1 i)
    (x0 : Vec F S1000x512 .f32) (x1 : Vec F S1000x512 .f32) (x2 : Vec F S1x512 .f32) (x3 : Vec F S1000x1 .i32) (xs0 : Vec F S64x512 .f32) (xs1 : Vec F S64x512 .f32) :
    out1_C_6 c i arg1 harg1 arg2 harg2 arg3 harg3 arg4 harg4 arg5 harg5 arg6 harg6 arg7 harg7 arg8 harg8 arg9 harg9 hc0 hc1 x0 x1 x2 x3 xs0 xs1 = k1_pay6 x0 x1 x2 x3 xs1 := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero (S := S64x512) hz1]
  simp only [View.readAt_eq_ld, harg1.read_unread, harg2.read_unread, harg3.read_unread, harg4.read_unread, harg8.read_unread, harg9.read_unread,
    View.ld_unit_zero (S := S1000x512) hz1, View.ld_unit_zero (S := S1x512) hz1, View.ld_unit_zero (S := S1000x1) hz1, View.ld_unit_zero (S := S64x512) hz1,
    View.readCov_unit_zero (S := S64x512) _ hz1]

end Cert.KernelIdeal.Gen

end
-- ==== Proof.KV.Arr1.lean ====
/- What the second region (the residual and its per-segment statistics) leaves in its three output arrays, as
   functions of the four arrays it reads. Each grid point t handles rows 1000 t … 1000 t + 999: it writes back those
   rows of the residual h = x + a + b, and adds, for every segment g and column q, the rows' contributions
   [segment of the row = g] · h and [segment of the row = g] · h² into two accumulators that are zeroed at the first
   point and written back at the last. By induction on the point the accumulators hold, after point n, the sums over
   the rows below 1000 (n + 1); after the fiftieth point these are the sums over all fifty thousand rows. -/
import proofs.«430542_j72688026518114_3_alg».proof.Proof.KI.Reg1Pieces
import proofs.«430542_j72688026518114_3_alg».proof.Proof.KV.Pay
import Idealize.ShloMosaic.Lib.Pipeline.Value
import Idealize.ShloMosaic.Lib.ValueIdx
import Idealize.ShloMosaic.PureOps.Ideal

set_option maxRecDepth 16384

noncomputable section

open scoped BigOperators

namespace Cert.KernelIdeal.Arr1

open Cert.KernelIdeal Cert.KernelIdeal.Gen Idealize.ShloMosaic Idealize.ShloMosaic.TcCoe Idealize.SL.Sem
open Idealize.ShloMosaic.Pipeline (Dat)
open Idealize.ShloMosaic.ValueIdx

/-! ## The three arrays as functions of the region's four input arrays -/

/-- The residual array: entry (r, q) is x (r, q) + a (r, q) + b (0, q). -/
def H1 (x a : Vec Ideal S50000x512 .f32) (b : Vec Ideal S1x512 .f32) : S50000x512.Idx → EReal :=
  fun i => x (ix2 (i 0 : Fin 50000) (i 1 : Fin 512)) + a (ix2 (i 0 : Fin 50000) (i 1 : Fin 512))
    + b (ix2 (0 : Fin 1) (i 1 : Fin 512))

theorem H1_apply (x a : Vec Ideal S50000x512 .f32) (b : Vec Ideal S1x512 .f32) (r : Fin 50000) (q : Fin 512) :
    H1 x a b (ix2 r q) = x (ix2 r q) + a (ix2 r q) + b (ix2 0 q) := rfl

/-- Its entrywise square. -/
def H1sq (x a : Vec Ideal S50000x512 .f32) (b : Vec Ideal S1x512 .f32) : S50000x512.Idx → EReal :=
  fun i => H1 x a b i * H1 x a b i

theorem H1sq_apply (x a : Vec Ideal S50000x512 .f32) (b : Vec Ideal S1x512 .f32) (r : Fin 50000) (q : Fin 512) :
    H1sq x a b (ix2 r q) = H1 x a b (ix2 r q) * H1 x a b (ix2 r q) := rfl

/-- The segment sums of the residual: entry (g, q) adds H1 (i, q) over the rows i whose segment id is g. -/
def S1 (x a : Vec Ideal S50000x512 .f32) (b : Vec Ideal S1x512 .f32) (bt : Vec Ideal S50000x1 .i32) : S64x512.Idx → EReal :=
  fun j => ∑ i : Fin 50000, (if bt (ix2 i (0 : Fin 1)) = BitVec.ofNat 32 (j 0 : Fin 64).val then (1 : EReal) else 0)
    * H1 x a b (ix2 i (j 1 : Fin 512))

theorem S1_apply (x a : Vec Ideal S50000x512 .f32) (b : Vec Ideal S1x512 .f32) (bt : Vec Ideal S50000x1 .i32)
    (g : Fin 64) (q : Fin 512) :
    S1 x a b bt (ix2 g q)
      = ∑ i : Fin 50000, (if bt (ix2 i (0 : Fin 1)) = BitVec.ofNat 32 g.val then (1 : EReal) else 0) * H1 x a b (ix2 i q) := rfl

/-- The segment sums of its square. -/
def S2 (x a : Vec Ideal S50000x512 .f32) (b : Vec Ideal S1x512 .f32) (bt : Vec Ideal S50000x1 .i32) : S64x512.Idx → EReal :=
  fun j => ∑ i : Fin 50000, (if bt (ix2 i (0 : Fin 1)) = BitVec.ofNat 32 (j 0 : Fin 64).val then (1 : EReal) else 0)
    * (H1 x a b (ix2 i (j 1 : Fin 512)) * H1 x a b (ix2 i (j 1 : Fin 512)))

theorem S2_apply (x a : Vec Ideal S50000x512 .f32) (b : Vec Ideal S1x512 .f32) (bt : Vec Ideal S50000x1 .i32)
    (g : Fin 64) (q : Fin 512) :
    S2 x a b bt (ix2 g q)
      = ∑ i : Fin 50000, (if bt (ix2 i (0 : Fin 1)) = BitVec.ofNat 32 g.val then (1 : EReal) else 0)
          * (H1 x a b (ix2 i q) * H1 x a b (ix2 i q)) := rfl

theorem S2_apply_sq (x a : Vec Ideal S50000x512 .f32) (b : Vec Ideal S1x512 .f32) (bt : Vec Ideal S50000x1 .i32)
    (g : Fin 64) (q : Fin 512) :
    S2 x a b bt (ix2 g q)
      = ∑ i : Fin 50000, (if bt (ix2 i (0 : Fin 1)) = BitVec.ofNat 32 g.val then (1 : EReal) else 0)
          * H1sq x a b (ix2 i q) := rfl

/-! ## A sum over the rows, taken a thousand rows at a time -/

/-- Row k's term of the segment sum of a row-indexed array h at (g, q); zero past the last row. -/
def term (bt : Vec Ideal S50000x1 .i32) (h : S50000x512.Idx → EReal) (g : Fin 64) (q : Fin 512) (k : ℕ) : EReal :=
  if hk : k < 50000 then
    (if bt (ix2 (⟨k, hk⟩ : Fin 50000) (0 : Fin 1)) = BitVec.ofNat 32 g.val then (1 : EReal) else 0)
      * h (ix2 (⟨k, hk⟩ : Fin 50000) q)
  else 0

/-- All fifty thousand terms are the segment sum. -/
theorem sum_term (bt : Vec Ideal S50000x1 .i32) (h : S50000x512.Idx → EReal) (g : Fin 64) (q : Fin 512) :
    ∑ k ∈ Finset.range 50000, term bt h g q k
      = ∑ i : Fin 50000, (if bt (ix2 i (0 : Fin 1)) = BitVec.ofNat 32 g.val then (1 : EReal) else 0) * h (ix2 i q) := by
  rw [Finset.sum_range]
  refine Finset.sum_congr rfl fun i _ => ?_
  unfold term
  rw [dif_pos i.isLt]

/-- A quantity that starts at the first thousand terms of f and gains the next thousand at every step is, after step n,
    the sum of the first 1000 (n + 1) terms. -/
theorem acc_range (f : ℕ → EReal) (N : ℕ) (s : (n : ℕ) → n < N → EReal)
    (h0 : ∀ h : 0 < N, s 0 h = 0 + ∑ p : Fin 1000, f p.val)
    (hs : ∀ (n : ℕ) (h : n + 1 < N),
      s (n + 1) h = s n (Nat.lt_of_succ_lt h) + ∑ p : Fin 1000, f (1000 * (n + 1) + p.val)) :
    ∀ (n : ℕ) (h : n < N), s n h = ∑ k ∈ Finset.range (1000 * (n + 1)), f k
  | 0, h => by
    rw [h0 h, zero_add, show 1000 * (0 + 1) = 1000 from rfl, Finset.sum_range]
  | n + 1, h => by
    rw [hs n h, acc_range f N s h0 hs n (Nat.lt_of_succ_lt h),
      show 1000 * (n + 1 + 1) = 1000 * (n + 1) + 1000 from by omega, Finset.sum_range_add,
      Finset.sum_range (fun x => f (1000 * (n + 1) + x))]

/-! ## Region 1 at the contents V the TensorCore holds when the region is entered -/

section Region

variable (V : (c : Dev nD) → (b : Ref sig .tc) → Buf (Elt Ideal) ((c : Thread nD τ).loc b))

/-- The region's four input arrays, at their literal types: the node features, the aggregated messages, the bias row
    and the segment ids. -/
abbrev xarr (c : Dev nD) : Vec Ideal S50000x512 .f32 := V c main_arg0
abbrev aarr (c : Dev nD) : Vec Ideal S50000x512 .f32 := V c main_v45
abbrev barr (c : Dev nD) : Vec Ideal S1x512 .f32 := V c main_v47
abbrev tarr (c : Dev nD) : Vec Ideal S50000x1 .i32 := V c main_v46

/-- Their blocks at point t. -/
abbrev xblk (c : Dev nD) (t : Fin cfg1.N) : Vec Ideal S1000x512 .f32 := iblk1 V c 0 t
abbrev ablk (c : Dev nD) (t : Fin cfg1.N) : Vec Ideal S1000x512 .f32 := iblk1 V c 1 t
abbrev bblk (c : Dev nD) (t : Fin cfg1.N) : Vec Ideal S1x512 .f32 := iblk1 V c 2 t
abbrev tblk (c : Dev nD) (t : Fin cfg1.N) : Vec Ideal S1000x1 .i32 := iblk1 V c 3 t

theorem zero_offsets : (![0, 0] : Fin 2 → Nat) = fun _ => 0 := funext fun a => by fin_cases a <;> rfl

/-- The printed index maps over the grid: the row blocks (windows 0, 1, 3, 4) move with the point; the bias row and the
    two sum arrays (windows 2, 5, 6) stay at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ### The input blocks, read in their arrays -/

/-- Block t of the node features is rows 1000 t … 1000 t + 999. -/
theorem xblk_apply (c : Dev nD) (t : Fin cfg1.N) (p : Fin 1000) (q : Fin 512) (r : Fin 50000)
    (hr : r.val = 1000 * t.val + p.val) : xblk V c t (ix2 p q) = xarr V c (ix2 r q) := by
  obtain ⟨e0, e1, -⟩ := idx_facts1 t
  show iblk1 V c 0 t (ix2 p q) = _
  unfold iblk1
  rw [View.read_apply]
  show (V c main_arg0 : S50000x512.Idx → EReal) _ = (V c main_arg0 : S50000x512.Idx → EReal) _
  congr 1
  funext a
  apply Fin.ext
  match a with
  | ⟨0, _⟩ => show win1_0.index t (0 : Fin 2) * 1000 + 1 * p.val = r.val; omega
  | ⟨1, _⟩ => show win1_0.index t (1 : Fin 2) * 512 + 1 * q.val = q.val; omega

/-- Block t of the aggregated messages is the same rows. -/
theorem ablk_apply (c : Dev nD) (t : Fin cfg1.N) (p : Fin 1000) (q : Fin 512) (r : Fin 50000)
    (hr : r.val = 1000 * t.val + p.val) : ablk V c t (ix2 p q) = aarr V c (ix2 r q) := by
  obtain ⟨-, -, e0, e1, -⟩ := idx_facts1 t
  show iblk1 V c 1 t (ix2 p q) = _
  unfold iblk1
  rw [View.read_apply]
  show (V c main_v45 : S50000x512.Idx → EReal) _ = (V c main_v45 : S50000x512.Idx → EReal) _
  congr 1
  funext a
  apply Fin.ext
  match a with
  | ⟨0, _⟩ => show win1_1.index t (0 : Fin 2) * 1000 + 1 * p.val = r.val; omega
  | ⟨1, _⟩ => show win1_1.index t (1 : Fin 2) * 512 + 1 * q.val = q.val; omega

/-- The bias window's one block is its whole row. -/
theorem bblk_apply (c : Dev nD) (t : Fin cfg1.N) (q : Fin 512) :
    bblk V c t (ix2 (0 : Fin 1) q) = barr V c (ix2 (0 : Fin 1) q) := by
  obtain ⟨-, -, -, -, e0, e1, -⟩ := idx_facts1 t
  show iblk1 V c 2 t (ix2 (0 : Fin 1) q) = _
  unfold iblk1
  rw [View.read_apply]
  show (V c main_v47 : S1x512.Idx → EReal) _ = (V c main_v47 : S1x512.Idx → EReal) _
  congr 1
  funext a
  apply Fin.ext
  match a with
  | ⟨0, _⟩ => show win1_2.index t (0 : Fin 2) * 1 + 1 * 0 = 0; omega
  | ⟨1, _⟩ => show win1_2.index t (1 : Fin 2) * 512 + 1 * q.val = q.val; omega

/-- Block t of the segment ids is the same rows. -/
theorem tblk_apply (c : Dev nD) (t : Fin cfg1.N) (p : Fin 1000) (r : Fin 50000)
    (hr : r.val = 1000 * t.val + p.val) : tblk V c t (ix2 p (0 : Fin 1)) = tarr V c (ix2 r (0 : Fin 1)) := by
  obtain ⟨-, -, -, -, -, -, e0, e1, -⟩ := idx_facts1 t
  show iblk1 V c 3 t (ix2 p (0 : Fin 1)) = _
  unfold iblk1
  rw [View.read_apply]
  show (V c main_v46 : S50000x1.Idx → BitVec 32) _ = (V c main_v46 : S50000x1.Idx → BitVec 32) _
  congr 1
  funext a
  apply Fin.ext
  match a with
  | ⟨0, _⟩ => show win1_3.index t (0 : Fin 2) * 1000 + 1 * p.val = r.val; omega
  | ⟨1, _⟩ => show win1_3.index t (1 : Fin 2) * 1 + 1 * 0 = 0; omega

/-! ### What each point leaves, as payloads of the point's blocks -/

/-- At every point the body leaves, in window 4's buffer, the residual of the point's blocks. -/
theorem out4_eq (c : Dev nD) (t : Fin cfg1.N) :
    (outsAt1 V c t.val t.isLt).1 = k1_pay3 (F := Ideal) (xblk V c t) (ablk V c t) (bblk V c t) := by
  have ht : t.val < 50 := t.isLt
  by_cases h0 : t.val % 50 = 0
  · have h1 : ¬t.val % 50 = 49 := by omega
    rw [outsAt1_A V c t h0 h1]; dsimp only
    exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  · by_cases h1 : t.val % 50 = 49
    · rw [outsAt1_C V c t h0 h1]; dsimp only
      exact out1_C_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]; dsimp only
      exact out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- The first point resets the first scratch and adds its block's contribution. -/
theorem scr0_first (c : Dev nD) (t : Fin cfg1.N) (h0 : t.val % 50 = 0) :
    (outsAt1 V c t.val t.isLt).2.2.2.1
      = k1_pay5 (F := Ideal) (xblk V c t) (ablk V c t) (bblk V c t) (tblk V c t) (k1_pay1 (F := Ideal)) := by
  have h1 : ¬t.val % 50 = 49 := by omega
  rw [outsAt1_A V c t h0 h1]; dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

/-- Every later point adds its block's contribution to what the point before left in the first scratch. -/
theorem scr0_next (c : Dev nD) (t : Fin cfg1.N) (h0 : ¬t.val % 50 = 0) :
    (outsAt1 V c t.val t.isLt).2.2.2.1
      = k1_pay5 (F := Ideal) (xblk V c t) (ablk V c t) (bblk V c t) (tblk V c t) (outsAt1 V c (t.val - 1) (Nat.lt_of_le_of_lt (Nat.sub_le _ _) t.isLt)).2.2.2.1 := by
  by_cases h1 : t.val % 50 = 49
  · rw [outsAt1_C V c t h0 h1]; dsimp only
    exact sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]; dsimp only
    exact sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- The same for the second scratch, with the squared residual. -/
theorem scr1_first (c : Dev nD) (t : Fin cfg1.N) (h0 : t.val % 50 = 0) :
    (outsAt1 V c t.val t.isLt).2.2.2.2
      = k1_pay6 (F := Ideal) (xblk V c t) (ablk V c t) (bblk V c t) (tblk V c t) (k1_pay2 (F := Ideal)) := by
  have h1 : ¬t.val % 50 = 49 := by omega
  rw [outsAt1_A V c t h0 h1]; dsimp only
  exact sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

theorem scr1_next (c : Dev nD) (t : Fin cfg1.N) (h0 : ¬t.val % 50 = 0) :
    (outsAt1 V c t.val t.isLt).2.2.2.2
      = k1_pay6 (F := Ideal) (xblk V c t) (ablk V c t) (bblk V c t) (tblk V c t) (outsAt1 V c (t.val - 1) (Nat.lt_of_le_of_lt (Nat.sub_le _ _) t.isLt)).2.2.2.2 := by
  by_cases h1 : t.val % 50 = 49
  · rw [outsAt1_C V c t h0 h1]; dsimp only
    exact sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]; dsimp only
    exact sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At the last point what the body stores into window 5 is what it has just left in the first scratch, -/
theorem out5_eq (c : Dev nD) (t : Fin cfg1.N) (h1 : t.val % 50 = 49) :
    (outsAt1 V c t.val t.isLt).2.1 = (outsAt1 V c t.val t.isLt).2.2.2.1 := by
  have h0 : ¬t.val % 50 = 0 := by omega
  rw [outsAt1_C V c t h0 h1]; dsimp only
  exact (out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans
    (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm

/-- and into window 6 what it has just left in the second. -/
theorem out6_eq (c : Dev nD) (t : Fin cfg1.N) (h1 : t.val % 50 = 49) :
    (outsAt1 V c t.val t.isLt).2.2.1 = (outsAt1 V c t.val t.isLt).2.2.2.2 := by
  have h0 : ¬t.val % 50 = 0 := by omega
  rw [outsAt1_C V c t h0 h1]; dsimp only
  exact (out1_C_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans
    (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm

/-! ### The block's contribution is the next thousand terms of the segment sum -/

/-- Row p of block t, weighted by its membership in segment g, is term 1000 t + p of the segment sum of the residual. -/
theorem blk_term1 (c : Dev nD) (t : Fin cfg1.N) (g : Fin 64) (q : Fin 512) (p : Fin 1000) :
    k1_pay4 (F := Ideal) (tblk V c t) (ix2 p g)
        * k1_pay3 (F := Ideal) (xblk V c t) (ablk V c t) (bblk V c t) (ix2 p q)
      = term (tarr V c) (H1 (xarr V c) (aarr V c) (barr V c)) g q (1000 * t.val + p.val) := by
  have ht : t.val < 50 := t.isLt
  have hp : p.val < 1000 := p.isLt
  have hk : 1000 * t.val + p.val < 50000 := by omega
  unfold term
  rw [dif_pos hk, Pay.pay4, Pay.pay3, H1_apply, tblk_apply V c t p ⟨_, hk⟩ rfl, xblk_apply V c t p q ⟨_, hk⟩ rfl,
    ablk_apply V c t p q ⟨_, hk⟩ rfl, bblk_apply V c t q]

/-- The same with the squared residual. -/
theorem blk_term2 (c : Dev nD) (t : Fin cfg1.N) (g : Fin 64) (q : Fin 512) (p : Fin 1000) :
    k1_pay4 (F := Ideal) (tblk V c t) (ix2 p g)
        * (k1_pay3 (F := Ideal) (xblk V c t) (ablk V c t) (bblk V c t) (ix2 p q)
          * k1_pay3 (F := Ideal) (xblk V c t) (ablk V c t) (bblk V c t) (ix2 p q))
      = term (tarr V c) (H1sq (xarr V c) (aarr V c) (barr V c)) g q (1000 * t.val + p.val) := by
  have ht : t.val < 50 := t.isLt
  have hp : p.val < 1000 := p.isLt
  have hk : 1000 * t.val + p.val < 50000 := by omega
  unfold term
  rw [dif_pos hk, Pay.pay4, Pay.pay3, H1sq_apply, H1_apply, tblk_apply V c t p ⟨_, hk⟩ rfl,
    xblk_apply V c t p q ⟨_, hk⟩ rfl, ablk_apply V c t p q ⟨_, hk⟩ rfl, bblk_apply V c t q]

/-! ### The accumulation: after point n the scratches hold the sums over the rows below 1000 (n + 1) -/

theorem scr0_inv (c : Dev nD) (g : Fin 64) (q : Fin 512) (n : ℕ) (hn : n < cfg1.N) :
    (outsAt1 V c n hn).2.2.2.1 (ix2 g q)
      = ∑ k ∈ Finset.range (1000 * (n + 1)), term (tarr V c) (H1 (xarr V c) (aarr V c) (barr V c)) g q k := by
  refine acc_range (term (tarr V c) (H1 (xarr V c) (aarr V c) (barr V c)) g q) cfg1.N
    (fun n hn => (outsAt1 V c n hn).2.2.2.1 (ix2 g q)) (fun h => ?_) (fun n h => ?_) n hn
  · refine (congrFun (scr0_first V c ⟨0, h⟩ rfl) (ix2 g q)).trans ?_
    rw [Pay.pay5, Pay.pay1_zero]
    refine congrArg _ (Finset.sum_congr rfl fun p _ => ?_)
    rw [blk_term1 V c ⟨0, h⟩ g q p, Nat.mul_zero, Nat.zero_add]
  · have hN : n + 1 < 50 := h
    have h0 : ¬(⟨n + 1, h⟩ : Fin cfg1.N).val % 50 = 0 := by dsimp only; omega
    refine (congrFun (scr0_next V c ⟨n + 1, h⟩ h0) (ix2 g q)).trans ?_
    rw [Pay.pay5]
    exact congrArg _ (Finset.sum_congr rfl fun p _ => blk_term1 V c ⟨n + 1, h⟩ g q p)

theorem scr1_inv (c : Dev nD) (g : Fin 64) (q : Fin 512) (n : ℕ) (hn : n < cfg1.N) :
    (outsAt1 V c n hn).2.2.2.2 (ix2 g q)
      = ∑ k ∈ Finset.range (1000 * (n + 1)), term (tarr V c) (H1sq (xarr V c) (aarr V c) (barr V c)) g q k := by
  refine acc_range (term (tarr V c) (H1sq (xarr V c) (aarr V c) (barr V c)) g q) cfg1.N
    (fun n hn => (outsAt1 V c n hn).2.2.2.2 (ix2 g q)) (fun h => ?_) (fun n h => ?_) n hn
  · refine (congrFun (scr1_first V c ⟨0, h⟩ rfl) (ix2 g q)).trans ?_
    rw [Pay.pay6, Pay.pay2_zero]
    refine congrArg _ (Finset.sum_congr rfl fun p _ => ?_)
    rw [blk_term2 V c ⟨0, h⟩ g q p, Nat.mul_zero, Nat.zero_add]
  · have hN : n + 1 < 50 := h
    have h0 : ¬(⟨n + 1, h⟩ : Fin cfg1.N).val % 50 = 0 := by dsimp only; omega
    refine (congrFun (scr1_next V c ⟨n + 1, h⟩ h0) (ix2 g q)).trans ?_
    rw [Pay.pay6]
    exact congrArg _ (Finset.sum_congr rfl fun p _ => blk_term2 V c ⟨n + 1, h⟩ g q p)

/-! ### Window 4: every point writes back its thousand rows of the residual -/

/-- What point t writes back is block t of the residual array. -/
theorem flushed4_eq (c : Dev nD) (t : Fin cfg1.N) :
    (dat1 (F := Ideal) V c).flushed 4 t
      = ((cfg1.win 4).blk t).view.read (Elt Ideal) (H1 (xarr V c) (aarr V c) (barr V c)) := by
  show (cfg1.win 4).cut (grid1.coords t) ((dat1 V c).after 4 t) = _
  rw [after1_4, out4_eq V c t]
  obtain ⟨-, -, -, -, -, -, -, -, e0, e1, -⟩ := idx_facts1 t
  funext j
  obtain ⟨p, q, rfl⟩ : ∃ (p : Fin 1000) (q : Fin 512), j = ix2 p q := ⟨j 0, j 1, eq_ix2 j⟩
  have hp : p.val < 1000 := p.isLt
  have ht : t.val < 50 := t.isLt
  have hrow : 1000 * t.val + p.val < 50000 := by omega
  show k1_pay3 (F := Ideal) (xblk V c t) (ablk V c t) (bblk V c t) (ix2 p q)
    = H1 (xarr V c) (aarr V c) (barr V c) (((cfg1.win 4).blk t).view.emb (ix2 p q))
  have hemb : ((cfg1.win 4).blk t).view.emb (ix2 p q)
      = (ix2 (⟨1000 * t.val + p.val, hrow⟩ : Fin 50000) q : S50000x512.Idx) := by
    funext a
    apply Fin.ext
    match a with
    | ⟨0, _⟩ => show win1_4.index t (0 : Fin 2) * 1000 + 1 * p.val = 1000 * t.val + p.val; omega
    | ⟨1, _⟩ => show win1_4.index t (1 : Fin 2) * 512 + 1 * q.val = q.val; omega
  rw [hemb, H1_apply, Pay.pay3, xblk_apply V c t p q ⟨_, hrow⟩ rfl, ablk_apply V c t p q ⟨_, hrow⟩ rfl,
    bblk_apply V c t q]

/-- An index of the array is in point t's block iff each coordinate is in the block's range on its axis. -/
theorem mem_blk4 (t : Fin cfg1.N) (i : S50000x512.Idx) :
    i ∈ ((cfg1.win 4).blk t).view.set ↔ ∀ a : Fin 2, win1_4.index t a * S1000x512.size a ≤ (i a).val ∧ (i a).val < win1_4.index t a * S1000x512.size a + S1000x512.size a := by
  show i ∈ ((View.whole main_v48_0).slice (win1_4.rect t)).set ↔ _
  rw [View.set_slice_whole, Rect.mem_set_unit]
  exact Iff.rfl

/-- Row r lies in the block of point r / 1000. -/
theorem cover4 (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : cfg1.N = 50 := N_1
  let t : Fin cfg1.N := ⟨(i 0).val / 1000, by rw [hN]; omega⟩
  obtain ⟨-, -, -, -, -, -, -, -, e0, e1, -⟩ := idx_facts1 t
  have e0' : win1_4.index t (0 : Fin 2) = (i 0).val / 1000 := e0
  refine ⟨t, flush1_4 t, ?_⟩
  rw [mem_blk4]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 512 ≤ (i 1).val ∧ (i 1).val < win1_4.index t (1 : Fin 2) * 512 + 512; omega

/-- The residual array the region leaves in window 4's array. -/
theorem arr1_h (c : Dev nD) :
    (dat1 (F := Ideal) V c).arrAt 4 cfg1.N = H1 (xarr V c) (aarr V c) (barr V c) :=
  (dat1 (F := Ideal) V c).arrAt_eq_of_cover 4 (H1 (xarr V c) (aarr V c) (barr V c))
    (fun t _ => flushed4_eq V c t) cover4

/-! ### Windows 5 and 6: the last point writes back the two scratches, which hold the whole sums -/

/-- The one block of window 5 (and of window 6) is its whole array. -/
theorem mem_blk5 (t : Fin cfg1.N) (i : S64x512.Idx) :
    i ∈ ((cfg1.win 5).blk t).view.set ↔ ∀ a : Fin 2, win1_5.index t a * S64x512.size a ≤ (i a).val ∧ (i a).val < win1_5.index t a * S64x512.size a + S64x512.size a := by
  show i ∈ ((View.whole main_v48_1).slice (win1_5.rect t)).set ↔ _
  rw [View.set_slice_whole, Rect.mem_set_unit]
  exact Iff.rfl

theorem mem_blk6 (t : Fin cfg1.N) (i : S64x512.Idx) :
    i ∈ ((cfg1.win 6).blk t).view.set ↔ ∀ a : Fin 2, win1_6.index t a * S64x512.size a ≤ (i a).val ∧ (i a).val < win1_6.index t a * S64x512.size a + S64x512.size a := by
  show i ∈ ((View.whole main_v48_2).slice (win1_6.rect t)).set ↔ _
  rw [View.set_slice_whole, Rect.mem_set_unit]
  exact Iff.rfl

/-- Window 5's one block is its whole array: a buffer X whose entries are those of G is, cut to the block, the block of G. -/
theorem whole_block5 (t : Fin cfg1.N) (X : Vec Ideal S64x512 .f32) (G : S64x512.Idx → EReal)
    (h : ∀ (g : Fin 64) (q : Fin 512), X (ix2 g q) = G (ix2 g q)) :
    (cfg1.win 5).cut (grid1.coords t) X = ((cfg1.win 5).blk t).view.read (Elt Ideal) G := by
  obtain ⟨-, -, -, -, -, -, -, -, -, -, e0, e1, -⟩ := idx_facts1 t
  funext j
  obtain ⟨g, q, rfl⟩ : ∃ (g : Fin 64) (q : Fin 512), j = ix2 g q := ⟨j 0, j 1, eq_ix2 j⟩
  show X (ix2 g q) = G (((cfg1.win 5).blk t).view.emb (ix2 g q))
  have hemb : ((cfg1.win 5).blk t).view.emb (ix2 g q) = (ix2 g q : S64x512.Idx) := by
    funext a
    apply Fin.ext
    match a with
    | ⟨0, _⟩ => show win1_5.index t (0 : Fin 2) * 64 + 1 * g.val = g.val; omega
    | ⟨1, _⟩ => show win1_5.index t (1 : Fin 2) * 512 + 1 * q.val = q.val; omega
  rw [hemb, h g q]

/-- The same for window 6. -/
theorem whole_block6 (t : Fin cfg1.N) (X : Vec Ideal S64x512 .f32) (G : S64x512.Idx → EReal)
    (h : ∀ (g : Fin 64) (q : Fin 512), X (ix2 g q) = G (ix2 g q)) :
    (cfg1.win 6).cut (grid1.coords t) X = ((cfg1.win 6).blk t).view.read (Elt Ideal) G := by
  obtain ⟨-, -, -, -, -, -, -, -, -, -, -, -, e0, e1⟩ := idx_facts1 t
  funext j
  obtain ⟨g, q, rfl⟩ : ∃ (g : Fin 64) (q : Fin 512), j = ix2 g q := ⟨j 0, j 1, eq_ix2 j⟩
  show X (ix2 g q) = G (((cfg1.win 6).blk t).view.emb (ix2 g q))
  have hemb : ((cfg1.win 6).blk t).view.emb (ix2 g q) = (ix2 g q : S64x512.Idx) := by
    funext a
    apply Fin.ext
    match a with
    | ⟨0, _⟩ => show win1_6.index t (0 : Fin 2) * 64 + 1 * g.val = g.val; omega
    | ⟨1, _⟩ => show win1_6.index t (1 : Fin 2) * 512 + 1 * q.val = q.val; omega
  rw [hemb, h g q]

/-- What the last point writes back into window 5 is the segment sums of the residual. -/
theorem flushed5_eq (c : Dev nD) (t : Fin cfg1.N) (hf : (cfg1.win 5).flush t = true) :
    (dat1 (F := Ideal) V c).flushed 5 t
      = ((cfg1.win 5).blk t).view.read (Elt Ideal) (S1 (xarr V c) (aarr V c) (barr V c) (tarr V c)) := by
  have h49 : t.val % 50 = 49 := (flush1_5 t).mp hf
  have ht : t.val < 50 := t.isLt
  show (cfg1.win 5).cut (grid1.coords t) ((dat1 V c).after 5 t) = _
  rw [after1_5, out5_eq V c t h49]
  refine whole_block5 t (outsAt1 V c t.val t.isLt).2.2.2.1 (S1 (xarr V c) (aarr V c) (barr V c) (tarr V c)) fun g q => ?_
  rw [S1_apply, scr0_inv V c g q t.val t.isLt, show 1000 * (t.val + 1) = 50000 from by omega, sum_term]

/-- What the last point writes back into window 6 is the segment sums of the squared residual. -/
theorem flushed6_eq (c : Dev nD) (t : Fin cfg1.N) (hf : (cfg1.win 6).flush t = true) :
    (dat1 (F := Ideal) V c).flushed 6 t
      = ((cfg1.win 6).blk t).view.read (Elt Ideal) (S2 (xarr V c) (aarr V c) (barr V c) (tarr V c)) := by
  have h49 : t.val % 50 = 49 := (flush1_6 t).mp hf
  have ht : t.val < 50 := t.isLt
  show (cfg1.win 6).cut (grid1.coords t) ((dat1 V c).after 6 t) = _
  rw [after1_6, out6_eq V c t h49]
  refine whole_block6 t (outsAt1 V c t.val t.isLt).2.2.2.2 (S2 (xarr V c) (aarr V c) (barr V c) (tarr V c)) fun g q => ?_
  rw [S2_apply_sq, scr1_inv V c g q t.val t.isLt, show 1000 * (t.val + 1) = 50000 from by omega, sum_term]

/-- The last point's one block covers window 5's array, -/
theorem cover5 (i : S64x512.Idx) :
    ∃ t : Fin cfg1.N, (cfg1.win 5).flush t = true ∧ i ∈ ((cfg1.win 5).blk t).view.set := by
  have hi0 : (i 0).val < 64 := (i 0).isLt
  have hi1 : (i 1).val < 512 := (i 1).isLt
  have hN : cfg1.N = 50 := N_1
  let t : Fin cfg1.N := ⟨49, by rw [hN]; omega⟩
  obtain ⟨-, -, -, -, -, -, -, -, -, -, e0, e1, -⟩ := idx_facts1 t
  refine ⟨t, (flush1_5 t).mpr rfl, ?_⟩
  rw [mem_blk5]
  intro a
  match a with
  | ⟨0, _⟩ => show win1_5.index t (0 : Fin 2) * 64 ≤ (i 0).val ∧ (i 0).val < win1_5.index t (0 : Fin 2) * 64 + 64; omega
  | ⟨1, _⟩ => show win1_5.index t (1 : Fin 2) * 512 ≤ (i 1).val ∧ (i 1).val < win1_5.index t (1 : Fin 2) * 512 + 512; omega

/-- and window 6's. -/
theorem cover6 (i : S64x512.Idx) :
    ∃ t : Fin cfg1.N, (cfg1.win 6).flush t = true ∧ i ∈ ((cfg1.win 6).blk t).view.set := by
  have hi0 : (i 0).val < 64 := (i 0).isLt
  have hi1 : (i 1).val < 512 := (i 1).isLt
  have hN : cfg1.N = 50 := N_1
  let t : Fin cfg1.N := ⟨49, by rw [hN]; omega⟩
  obtain ⟨-, -, -, -, -, -, -, -, -, -, -, -, e0, e1⟩ := idx_facts1 t
  refine ⟨t, (flush1_6 t).mpr rfl, ?_⟩
  rw [mem_blk6]
  intro a
  match a with
  | ⟨0, _⟩ => show win1_6.index t (0 : Fin 2) * 64 ≤ (i 0).val ∧ (i 0).val < win1_6.index t (0 : Fin 2) * 64 + 64; omega
  | ⟨1, _⟩ => show win1_6.index t (1 : Fin 2) * 512 ≤ (i 1).val ∧ (i 1).val < win1_6.index t (1 : Fin 2) * 512 + 512; omega

/-- The segment sums of the residual, which the region leaves in window 5's array. -/
theorem arr1_sumh (c : Dev nD) :
    (dat1 (F := Ideal) V c).arrAt 5 cfg1.N = S1 (xarr V c) (aarr V c) (barr V c) (tarr V c) :=
  (dat1 (F := Ideal) V c).arrAt_eq_of_cover 5 (S1 (xarr V c) (aarr V c) (barr V c) (tarr V c))
    (fun t hf => flushed5_eq V c t hf) cover5

/-- The segment sums of the squared residual, which the region leaves in window 6's array. -/
theorem arr1_sumh2 (c : Dev nD) :
    (dat1 (F := Ideal) V c).arrAt 6 cfg1.N = S2 (xarr V c) (aarr V c) (barr V c) (tarr V c) :=
  (dat1 (F := Ideal) V c).arrAt_eq_of_cover 6 (S2 (xarr V c) (aarr V c) (barr V c) (tarr V c))
    (fun t hf => flushed6_eq V c t hf) cover6

end Region

end Cert.KernelIdeal.Arr1

end
-- ==== Proof.KV.Arr2.lean ====
/- The last region's output array as one function of its seven argument arrays: entry (r, q) centres h (r, q) at
   the mean of row r's group (a sum over the 64 groups against the indicator of the row's label) times a scale,
   multiplies by the group's inverse deviation and a weight, adds a shift and clamps at zero. Each grid point t writes
   rows 1000 t … 1000 t + 999; the 50 row blocks cover the 50000 rows. -/
import proofs.«430542_j72688026518114_3_alg».proof.Proof.KI.Reg2
import Idealize.ShloMosaic.Lib.Pipeline.Value
import Idealize.ShloMosaic.Lib.ValueIdx
import Idealize.ShloMosaic.PureOps.Ideal

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

/-- The normalised array: each row centred at its group's mean (taken through the indicator of the row's group
    over the 64 groups) times a scale, multiplied by its group's inverse deviation and a weight, shifted, clamped at 0. -/
def G2 (h : S50000x512.Idx → EReal) (bt : S50000x1.Idx → BitVec 32) (mean inv : S64x512.Idx → EReal)
    (sc wt bs : S1x512.Idx → EReal) : S50000x512.Idx → EReal := fun i =>
  max (wt (ix2 0 (i 1 : Fin 512)) * (h (ix2 (i 0 : Fin 50000) (i 1 : Fin 512)) - (∑ g : Fin 64, (if bt (ix2 (i 0 : Fin 50000) 0) = BitVec.ofNat 32 g.val then (1 : EReal) else 0) * mean (ix2 g (i 1 : Fin 512))) * sc (ix2 0 (i 1 : Fin 512))) * (∑ g : Fin 64, (if bt (ix2 (i 0 : Fin 50000) 0) = BitVec.ofNat 32 g.val then (1 : EReal) else 0) * inv (ix2 g (i 1 : Fin 512))) + bs (ix2 0 (i 1 : Fin 512))) 0

theorem G2_apply (h : S50000x512.Idx → EReal) (bt : S50000x1.Idx → BitVec 32) (mean inv : S64x512.Idx → EReal)
    (sc wt bs : S1x512.Idx → EReal) (r : Fin 50000) (q : Fin 512) :
    G2 h bt mean inv sc wt bs (ix2 r q) = max (wt (ix2 0 q) * (h (ix2 r q) - (∑ g : Fin 64, (if bt (ix2 r 0) = BitVec.ofNat 32 g.val then (1 : EReal) else 0) * mean (ix2 g q)) * sc (ix2 0 q)) * (∑ g : Fin 64, (if bt (ix2 r 0) = BitVec.ofNat 32 g.val then (1 : EReal) else 0) * inv (ix2 g q)) + bs (ix2 0 q)) 0 := rfl

variable (V : (c : Dev nD) → (b : Ref sig .tc) → Buf (Elt Ideal) ((c : Thread nD τ).loc b))

theorem zero_offsets2 : (![0, 0] : Fin 2 → Nat) = fun _ => 0 := funext fun a => by fin_cases a <;> rfl

/-! The printed index maps over the grid: the row windows move with the point, the tables and the rows of
    coefficients stay. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- Block t of the row window is rows 1000 t … 1000 t + 999 of its array. -/
theorem rows_block2 (c : Dev nD) (t : Fin cfg2.N) (p : Fin 1000) (q : Fin 512) (r : Fin 50000)
    (hr : r.val = t.val * 1000 + p.val) :
    (iblk2 V c 0 t : Vec Ideal S1000x512 .f32) (ix2 p q) = (V c main_v48_0 : S50000x512.Idx → EReal) (ix2 r q) := by
  obtain ⟨e0, e1⟩ := idx2_0 t
  unfold iblk2
  rw [View.read_apply]
  show (V c main_v48_0 : S50000x512.Idx → EReal) _ = (V c main_v48_0 : S50000x512.Idx → EReal) _
  congr 1
  funext a
  apply Fin.ext
  match a with
  | ⟨0, _⟩ => show win2_0.index t (0 : Fin 2) * 1000 + 1 * p.val = r.val; omega
  | ⟨1, _⟩ => show win2_0.index t (1 : Fin 2) * 512 + 1 * q.val = q.val; omega

/-- Block t of the group-label window is rows 1000 t … 1000 t + 999 of the label column. -/
theorem labels_block2 (c : Dev nD) (t : Fin cfg2.N) (p : Fin 1000) (r : Fin 50000)
    (hr : r.val = t.val * 1000 + p.val) :
    (iblk2 V c 1 t : Vec Ideal S1000x1 .i32) (ix2 p 0) = (V c main_v46 : S50000x1.Idx → BitVec 32) (ix2 r 0) := by
  obtain ⟨e0, e1⟩ := idx2_1 t
  unfold iblk2
  rw [View.read_apply]
  show (V c main_v46 : S50000x1.Idx → BitVec 32) _ = (V c main_v46 : S50000x1.Idx → BitVec 32) _
  congr 1
  funext a
  apply Fin.ext
  match a with
  | ⟨0, _⟩ => show win2_1.index t (0 : Fin 2) * 1000 + 1 * p.val = r.val; omega
  | ⟨1, _⟩ => show win2_1.index t (1 : Fin 2) * 1 + 1 * (0 : Fin 1).val = (0 : Fin 1).val; omega

/-- The table of means is read whole at every point. -/
theorem mean_block2 (c : Dev nD) (t : Fin cfg2.N) (g : Fin 64) (q : Fin 512) :
    (iblk2 V c 2 t : Vec Ideal S64x512 .f32) (ix2 g q) = (V c main_v57 : S64x512.Idx → EReal) (ix2 g q) := by
  obtain ⟨e0, e1⟩ := idx2_2 t
  unfold iblk2
  rw [View.read_apply]
  show (V c main_v57 : S64x512.Idx → EReal) _ = (V c main_v57 : S64x512.Idx → EReal) _
  congr 1
  funext a
  apply Fin.ext
  match a with
  | ⟨0, _⟩ => show win2_2.index t (0 : Fin 2) * 64 + 1 * g.val = g.val; omega
  | ⟨1, _⟩ => show win2_2.index t (1 : Fin 2) * 512 + 1 * q.val = q.val; omega

/-- The table of inverse deviations is read whole at every point. -/
theorem inv_block2 (c : Dev nD) (t : Fin cfg2.N) (g : Fin 64) (q : Fin 512) :
    (iblk2 V c 3 t : Vec Ideal S64x512 .f32) (ix2 g q) = (V c main_v73 : S64x512.Idx → EReal) (ix2 g q) := by
  obtain ⟨e0, e1⟩ := idx2_3 t
  unfold iblk2
  rw [View.read_apply]
  show (V c main_v73 : S64x512.Idx → EReal) _ = (V c main_v73 : S64x512.Idx → EReal) _
  congr 1
  funext a
  apply Fin.ext
  match a with
  | ⟨0, _⟩ => show win2_3.index t (0 : Fin 2) * 64 + 1 * g.val = g.val; omega
  | ⟨1, _⟩ => show win2_3.index t (1 : Fin 2) * 512 + 1 * q.val = q.val; omega

/-- The row of scales is read whole at every point. -/
theorem scale_block2 (c : Dev nD) (t : Fin cfg2.N) (g : Fin 1) (q : Fin 512) :
    (iblk2 V c 4 t : Vec Ideal S1x512 .f32) (ix2 g q) = (V c main_v74 : S1x512.Idx → EReal) (ix2 g q) := by
  obtain ⟨e0, e1⟩ := idx2_4 t
  unfold iblk2
  rw [View.read_apply]
  show (V c main_v74 : S1x512.Idx → EReal) _ = (V c main_v74 : S1x512.Idx → EReal) _
  congr 1
  funext a
  apply Fin.ext
  match a with
  | ⟨0, _⟩ => show win2_4.index t (0 : Fin 2) * 1 + 1 * g.val = g.val; omega
  | ⟨1, _⟩ => show win2_4.index t (1 : Fin 2) * 512 + 1 * q.val = q.val; omega

/-- The row of weights is read whole at every point. -/
theorem weight_block2 (c : Dev nD) (t : Fin cfg2.N) (g : Fin 1) (q : Fin 512) :
    (iblk2 V c 5 t : Vec Ideal S1x512 .f32) (ix2 g q) = (V c main_v75 : S1x512.Idx → EReal) (ix2 g q) := by
  obtain ⟨e0, e1⟩ := idx2_5 t
  unfold iblk2
  rw [View.read_apply]
  show (V c main_v75 : S1x512.Idx → EReal) _ = (V c main_v75 : S1x512.Idx → EReal) _
  congr 1
  funext a
  apply Fin.ext
  match a with
  | ⟨0, _⟩ => show win2_5.index t (0 : Fin 2) * 1 + 1 * g.val = g.val; omega
  | ⟨1, _⟩ => show win2_5.index t (1 : Fin 2) * 512 + 1 * q.val = q.val; omega

/-- The row of shifts is read whole at every point. -/
theorem bias_block2 (c : Dev nD) (t : Fin cfg2.N) (g : Fin 1) (q : Fin 512) :
    (iblk2 V c 6 t : Vec Ideal S1x512 .f32) (ix2 g q) = (V c main_v76 : S1x512.Idx → EReal) (ix2 g q) := by
  obtain ⟨e0, e1⟩ := idx2_6 t
  unfold iblk2
  rw [View.read_apply]
  show (V c main_v76 : S1x512.Idx → EReal) _ = (V c main_v76 : S1x512.Idx → EReal) _
  congr 1
  funext a
  apply Fin.ext
  match a with
  | ⟨0, _⟩ => show win2_6.index t (0 : Fin 2) * 1 + 1 * g.val = g.val; omega
  | ⟨1, _⟩ => show win2_6.index t (1 : Fin 2) * 512 + 1 * q.val = q.val; omega

/-- What point t writes back is block t of the normalised array. -/
theorem flushed2_eq
    (hpay2 : ∀ (h : Vec Ideal S1000x512 .f32) (bt : Vec Ideal S1000x1 .i32) (mean inv : Vec Ideal S64x512 .f32)
      (sc wt bs : Vec Ideal S1x512 .f32) (p : Fin 1000) (q : Fin 512),
      k2_pay1 (F := Ideal) h bt mean inv sc wt bs (ix2 p q) = max (wt (ix2 0 q) * (h (ix2 p q) - (∑ g : Fin 64, (if bt (ix2 p 0) = BitVec.ofNat 32 g.val then (1 : EReal) else 0) * mean (ix2 g q)) * sc (ix2 0 q)) * (∑ g : Fin 64, (if bt (ix2 p 0) = BitVec.ofNat 32 g.val then (1 : EReal) else 0) * inv (ix2 g q)) + bs (ix2 0 q)) 0)
    (c : Dev nD) (t : Fin cfg2.N) :
    (dat2 (F := Ideal) V c).flushed 7 t
      = ((cfg2.win 7).blk t).view.read (Elt Ideal) (G2 (V c main_v48_0) (V c main_v46) (V c main_v57) (V c main_v73) (V c main_v74) (V c main_v75) (V c main_v76)) := by
  show (cfg2.win 7).cut (grid2.coords t) ((dat2 V c).after 7 t) = _
  rw [after2_7]
  unfold out2_7
  rw [View.canon_unit_zero zero_offsets2]
  simp only [View.ld_unit_zero (S := S1000x512) zero_offsets2, View.ld_unit_zero (S := S1000x1) zero_offsets2,
    View.ld_unit_zero (S := S64x512) zero_offsets2, View.ld_unit_zero (S := S1x512) zero_offsets2]
  obtain ⟨e0, e1⟩ := idx2_7 t
  funext j
  obtain ⟨p, q, rfl⟩ : ∃ (p : Fin 1000) (q : Fin 512), j = ix2 p q := ⟨j 0, j 1, eq_ix2 j⟩
  have hp : p.val < 1000 := p.isLt
  have ht : t.val < 50 := t.isLt
  have hrow : t.val * 1000 + p.val < 50000 := by omega
  show k2_pay1 (F := Ideal) (iblk2 V c 0 t) (iblk2 V c 1 t) (iblk2 V c 2 t) (iblk2 V c 3 t) (iblk2 V c 4 t) (iblk2 V c 5 t) (iblk2 V c 6 t) (ix2 p q)
    = G2 (V c main_v48_0) (V c main_v46) (V c main_v57) (V c main_v73) (V c main_v74) (V c main_v75) (V c main_v76) (((cfg2.win 7).blk t).view.emb (ix2 p q))
  have hemb : ((cfg2.win 7).blk t).view.emb (ix2 p q)
      = (ix2 (⟨t.val * 1000 + p.val, hrow⟩ : Fin 50000) q : S50000x512.Idx) := by
    funext a
    apply Fin.ext
    match a with
    | ⟨0, _⟩ => show win2_7.index t (0 : Fin 2) * 1000 + 1 * p.val = t.val * 1000 + p.val; omega
    | ⟨1, _⟩ => show win2_7.index t (1 : Fin 2) * 512 + 1 * q.val = q.val; omega
  rw [hemb, G2_apply, hpay2]
  rw [rows_block2 V c t p q ⟨_, hrow⟩ rfl, labels_block2 V c t p ⟨_, hrow⟩ rfl, scale_block2 V c t 0 q,
    weight_block2 V c t 0 q, bias_block2 V c t 0 q]
  simp only [mean_block2 V c t, inv_block2 V c t]

/-- An index of the array is in point t's block iff each coordinate is in the block's range on its axis. -/
theorem mem_blk2 (t : Fin cfg2.N) (i : S50000x512.Idx) :
    i ∈ ((cfg2.win 7).blk t).view.set ↔ ∀ a : Fin 2, win2_7.index t a * S1000x512.size a ≤ (i a).val ∧ (i a).val < win2_7.index t a * S1000x512.size a + S1000x512.size a := by
  show i ∈ ((View.whole main_v77).slice (win2_7.rect t)).set ↔ _
  rw [View.set_slice_whole, Rect.mem_set_unit]
  exact Iff.rfl

/-- Row r lies in the block of point r / 1000. -/
theorem cover2 (i : S50000x512.Idx) :
    ∃ t : Fin cfg2.N, (cfg2.win 7).flush t = true ∧ i ∈ ((cfg2.win 7).blk t).view.set := by
  have hi0 : (i 0).val < 50000 := (i 0).isLt
  have hi1 : (i 1).val < 512 := (i 1).isLt
  have hN : cfg2.N = 50 := N_2
  let t : Fin cfg2.N := ⟨(i 0).val / 1000, by rw [hN]; omega⟩
  obtain ⟨e0, e1⟩ := idx2_7 t
  have e0' : win2_7.index t (0 : Fin 2) = (i 0).val / 1000 := e0
  refine ⟨t, flush2_7 t, ?_⟩
  rw [mem_blk2]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 512 ≤ (i 1).val ∧ (i 1).val < win2_7.index t (1 : Fin 2) * 512 + 512; omega

/-- The array the last region leaves: the normalised array. -/
theorem arr2
    (hpay2 : ∀ (h : Vec Ideal S1000x512 .f32) (bt : Vec Ideal S1000x1 .i32) (mean inv : Vec Ideal S64x512 .f32)
      (sc wt bs : Vec Ideal S1x512 .f32) (p : Fin 1000) (q : Fin 512),
      k2_pay1 (F := Ideal) h bt mean inv sc wt bs (ix2 p q) = max (wt (ix2 0 q) * (h (ix2 p q) - (∑ g : Fin 64, (if bt (ix2 p 0) = BitVec.ofNat 32 g.val then (1 : EReal) else 0) * mean (ix2 g q)) * sc (ix2 0 q)) * (∑ g : Fin 64, (if bt (ix2 p 0) = BitVec.ofNat 32 g.val then (1 : EReal) else 0) * inv (ix2 g q)) + bs (ix2 0 q)) 0)
    (c : Dev nD) :
    (dat2 (F := Ideal) V c).arrAt 7 cfg2.N = G2 (V c main_v48_0) (V c main_v46) (V c main_v57) (V c main_v73) (V c main_v74) (V c main_v75) (V c main_v76) :=
  (dat2 (F := Ideal) V c).arrAt_eq_of_cover 7 (G2 (V c main_v48_0) (V c main_v46) (V c main_v57) (V c main_v73) (V c main_v74) (V c main_v75) (V c main_v76))
    (fun t _ => flushed2_eq V hpay2 c t) cover2

end Cert.KernelIdeal.Arr
end
-- ==== Proof.KV.Host.lean ====
/- The host operations between the three regions, read back: for an arbitrary valuation of the buffers, what each
   stretch of host operations leaves in the buffers the later regions read, as the operations' composed term of the
   valuation's entries — the edge aggregation (self loops, symmetric normalisation, scatter-add), the per-graph node
   count, mean and reciprocal standard deviation, and the reshapes of the parameters. Generic in the float family. -/
import proofs.«430542_j72688026518114_3_alg».proof.Proof.Gen.KernelIdeal.Launch
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe

variable {F : FTy → Type} [FloatOps F]

/-- A feature vector as a row. -/
def row512 (x : FVec F S512 .f32) : FVec F S1x512 .f32 := shapeCast S1x512 x shapeCasts_S512_S1x512

/-! ## The stretches between the linear region and the statistics region

The edge aggregation with self loops and symmetric normalisation, as the printed operations compose it from the
linear region's result, the edge weights and the edge index. -/

/-- The edges' first row followed by one self loop per node. -/
def srcIdx (ei : IVec S2x160000 32) : IVec S210000 32 :=
  concatenate S210000 0
    [⟨S160000, shapeCast S160000 (extractStridedSlice S1x160000 ![0, 0] ei slices_S2x160000_S1x160000_0_0) shapeCasts_S1x160000_S160000⟩,
     ⟨S50000, iotaInDim S50000 32 0⟩] concatenates_S160000_S50000_S210000_d0

/-- The edges' second row followed by one self loop per node. -/
def dstIdx (ei : IVec S2x160000 32) : IVec S210000 32 :=
  concatenate S210000 0
    [⟨S160000, shapeCast S160000 (extractStridedSlice S1x160000 ![1, 0] ei slices_S2x160000_S1x160000_1_0) shapeCasts_S1x160000_S160000⟩,
     ⟨S50000, iotaInDim S50000 32 0⟩] concatenates_S160000_S50000_S210000_d0

/-- The edge weights followed by weight one per self loop. -/
def ewFull (ea : FVec F S160000 .f32) : FVec F S210000 .f32 :=
  concatenate S210000 0
    [⟨S160000, ea⟩, ⟨S50000, broadcastInDim S50000 ![] bcast_S_S50000 (constant S_ .f32 0x3F800000#32)⟩]
    concatenates_S160000_S50000_S210000_d0

/-- The weighted degree of each node: a scatter-add of the weights at the second row. -/
def deg (ea : FVec F S160000 .f32) (ei : IVec S2x160000 32) : FVec F S50000 .f32 :=
  Host.scatterAdd scatter_S50000_S210000x1_S210000_n_0_0_1
    (broadcastInDim S50000 ![] bcast_S_S50000 (constant S_ .f32 0x00000000#32))
    (broadcastInDim S210000x1 ![0] bcast_S210000_S210000x1_0 (dstIdx ei))
    (ewFull ea)

/-- Whether the degree is positive. -/
def degPos (ea : FVec F S160000 .f32) (ei : IVec S2x160000 32) : IVec S50000 1 :=
  cmpf .ogt (deg ea ei) (broadcastInDim S50000 ![] bcast_S_S50000 (constant S_ .f32 0x00000000#32))

/-- The degree to the power `-1/2` where it is positive, zero elsewhere. -/
def dinv (ea : FVec F S160000 .f32) (ei : IVec S2x160000 32) : FVec F S50000 .f32 :=
  select (degPos ea ei) (Host.rsqrt (deg ea ei))
    (broadcastInDim S50000 ![] bcast_S_S50000 (constant S_ .f32 0x00000000#32))

/-- A node index with a negative one wrapped around the node count. -/
def wrapIdx (x : IVec S210000 32) : IVec S210000 32 :=
  select (cmpi .slt x (broadcastInDim S210000 ![] bcast_S_S210000 (constantI S_ 32 0#32)))
    (addi x (broadcastInDim S210000 ![] bcast_S_S210000 (constantI S_ 32 50000#32))) x

/-- A node index vector as the gather's index column. -/
def idxCol (x : IVec S210000 32) : IVec S210000x1 32 :=
  broadcastInDim S210000x1 ![0] bcast_S210000_S210000x1_0 x

/-- The normalised weight of each edge: `dinv[src] · w · dinv[dst]`. -/
def normOf (dv : FVec F S50000 .f32) (src dst : IVec S210000 32) (ew : FVec F S210000 .f32) : FVec F S210000 .f32 :=
  mulf
    (mulf (Host.gather gather_S50000_S210000x1_S210000_n_0_n_n_0_1_1 dv (idxCol (wrapIdx src))) ew)
    (Host.gather gather_S50000_S210000x1_S210000_n_0_n_n_0_1_1 dv (idxCol (wrapIdx dst)))

/-- The aggregation: a scatter-add at the second row of the first row's features scaled by the normalised weight. -/
def aggOf (xlin : FVec F S50000x512 .f32) (src dst : IVec S210000 32) (nrm : FVec F S210000 .f32) : FVec F S50000x512 .f32 :=
  Host.scatterAdd scatter_S50000x512_S210000x1_S210000x512_1_0_0_1
    (broadcastInDim S50000x512 ![] bcast_S_S50000x512 (constant S_ .f32 0x00000000#32))
    (idxCol dst)
    (mulf (Host.gather gather_S50000x512_S210000x1_S210000x512_1_0_n_n_0_1_1512 xlin (idxCol (wrapIdx src)))
      (broadcastInDim S210000x512 ![0, 1] bcast_S210000x1_S210000x512_0_1
        (broadcastInDim S210000x1 ![0] bcast_S210000_S210000x1_0 nrm)))

/-- The edge aggregation of the linear region's result, from the edge weights and the edge index. -/
def agg (xlin : FVec F S50000x512 .f32) (ea : FVec F S160000 .f32) (ei : IVec S2x160000 32) : FVec F S50000x512 .f32 :=
  aggOf xlin (srcIdx ei) (dstIdx ei) (normOf (dinv ea ei) (srcIdx ei) (dstIdx ei) (ewFull ea))

/-- The graph index of each node as a column. -/
def batchCol (batch : IVec S50000 32) : IVec S50000x1 32 := shapeCast S50000x1 batch shapeCasts_S50000_S50000x1

/-! ### The first stretch -/

theorem glueA_v4 (W : Valuation τ sig (Elt F)) :
    StableHlo.after hostOps1 W (Proc.devRef .tc main_v4) = srcIdx (W (Proc.devRef .tc main_arg7)) := by
  after_results; rfl

theorem glueA_v7 (W : Valuation τ sig (Elt F)) :
    StableHlo.after hostOps1 W (Proc.devRef .tc main_v7) = dstIdx (W (Proc.devRef .tc main_arg7)) := by
  after_results; rfl

theorem glueA_v9 (W : Valuation τ sig (Elt F)) :
    StableHlo.after hostOps1 W (Proc.devRef .tc main_v9) = ewFull (W (Proc.devRef .tc main_arg1)) := by
  after_results; rfl

theorem glueA_v14 (W : Valuation τ sig (Elt F)) :
    StableHlo.after hostOps1 W (Proc.devRef .tc main_v14)
      = degPos (W (Proc.devRef .tc main_arg1)) (W (Proc.devRef .tc main_arg7)) := by
  after_results; rfl

theorem glueA_v15 (W : Valuation τ sig (Elt F)) :
    StableHlo.after hostOps1 W (Proc.devRef .tc main_v15)
      = Host.rsqrt (deg (W (Proc.devRef .tc main_arg1)) (W (Proc.devRef .tc main_arg7))) := by
  after_results; rfl

theorem glueA_cst_2 (W : Valuation τ sig (Elt F)) :
    StableHlo.after hostOps1 W (Proc.devRef .tc main_cst_2) = constant S_ .f32 0x00000000#32 := by
  after_results

/-- The first stretch writes none of these. -/
theorem glueA_v0 (W : Valuation τ sig (Elt F)) :
    StableHlo.after hostOps1 W (Proc.devRef .tc main_v0) = W (Proc.devRef .tc main_v0) := by
  after_results
theorem glueA_arg0 (W : Valuation τ sig (Elt F)) :
    StableHlo.after hostOps1 W (Proc.devRef .tc main_arg0) = W (Proc.devRef .tc main_arg0) := by
  after_results
theorem glueA_arg3 (W : Valuation τ sig (Elt F)) :
    StableHlo.after hostOps1 W (Proc.devRef .tc main_arg3) = W (Proc.devRef .tc main_arg3) := by
  after_results
theorem glueA_arg8 (W : Valuation τ sig (Elt F)) :
    StableHlo.after hostOps1 W (Proc.devRef .tc main_arg8) = W (Proc.devRef .tc main_arg8) := by
  after_results

/-! ### The second stretch (the inlined `where`) -/

theorem glueB_v16 (W : Valuation τ sig (Elt F)) :
    StableHlo.after hostOps1_1 W (Proc.devRef .tc main_v16)
      = select (W (Proc.devRef .tc main_v14)) (W (Proc.devRef .tc main_v15))
          (broadcastInDim S50000 ![] bcast_S_S50000 (W (Proc.devRef .tc main_cst_2))) := by
  after_results; rfl

/-- The second stretch writes none of these. -/
theorem glueB_v0 (W : Valuation τ sig (Elt F)) :
    StableHlo.after hostOps1_1 W (Proc.devRef .tc main_v0) = W (Proc.devRef .tc main_v0) := by
  after_results
theorem glueB_v4 (W : Valuation τ sig (Elt F)) :
    StableHlo.after hostOps1_1 W (Proc.devRef .tc main_v4) = W (Proc.devRef .tc main_v4) := by
  after_results
theorem glueB_v7 (W : Valuation τ sig (Elt F)) :
    StableHlo.after hostOps1_1 W (Proc.devRef .tc main_v7) = W (Proc.devRef .tc main_v7) := by
  after_results
theorem glueB_v9 (W : Valuation τ sig (Elt F)) :
    StableHlo.after hostOps1_1 W (Proc.devRef .tc main_v9) = W (Proc.devRef .tc main_v9) := by
  after_results
theorem glueB_arg0 (W : Valuation τ sig (Elt F)) :
    StableHlo.after hostOps1_1 W (Proc.devRef .tc main_arg0) = W (Proc.devRef .tc main_arg0) := by
  after_results
theorem glueB_arg3 (W : Valuation τ sig (Elt F)) :
    StableHlo.after hostOps1_1 W (Proc.devRef .tc main_arg3) = W (Proc.devRef .tc main_arg3) := by
  after_results
theorem glueB_arg8 (W : Valuation τ sig (Elt F)) :
    StableHlo.after hostOps1_1 W (Proc.devRef .tc main_arg8) = W (Proc.devRef .tc main_arg8) := by
  after_results

/-! ### The third stretch -/

set_option maxHeartbeats 2000000 in
theorem glueC_v45 (W : Valuation τ sig (Elt F)) :
    StableHlo.after hostOps1_2 W (Proc.devRef .tc main_v45)
      = aggOf (W (Proc.devRef .tc main_v0)) (W (Proc.devRef .tc main_v4)) (W (Proc.devRef .tc main_v7))
          (normOf (W (Proc.devRef .tc main_v16)) (W (Proc.devRef .tc main_v4)) (W (Proc.devRef .tc main_v7))
            (W (Proc.devRef .tc main_v9))) := by
  after_results_simp; rfl

theorem glueC_v46 (W : Valuation τ sig (Elt F)) :
    StableHlo.after hostOps1_2 W (Proc.devRef .tc main_v46) = batchCol (W (Proc.devRef .tc main_arg8)) := by
  after_results; rfl

theorem glueC_v47 (W : Valuation τ sig (Elt F)) :
    StableHlo.after hostOps1_2 W (Proc.devRef .tc main_v47) = row512 (W (Proc.devRef .tc main_arg3)) := by
  after_results; rfl

/-- The third stretch does not write the first argument. -/
theorem glueC_arg0 (W : Valuation τ sig (Elt F)) :
    StableHlo.after hostOps1_2 W (Proc.devRef .tc main_arg0) = W (Proc.devRef .tc main_arg0) := by
  after_results_simp

/-! ### The three stretches composed -/

theorem glue1_v45 (W : Valuation τ sig (Elt F)) :
    StableHlo.after hostOps1_2 (StableHlo.after hostOps1_1 (StableHlo.after hostOps1 W)) (Proc.devRef .tc main_v45)
      = agg (W (Proc.devRef .tc main_v0)) (W (Proc.devRef .tc main_arg1)) (W (Proc.devRef .tc main_arg7)) := by
  rw [glueC_v45, glueB_v0, glueB_v4, glueB_v7, glueB_v9, glueB_v16,
    glueA_v0, glueA_v4, glueA_v7, glueA_v9, glueA_v14, glueA_v15, glueA_cst_2]
  rfl

theorem glue1_v46 (W : Valuation τ sig (Elt F)) :
    StableHlo.after hostOps1_2 (StableHlo.after hostOps1_1 (StableHlo.after hostOps1 W)) (Proc.devRef .tc main_v46)
      = batchCol (W (Proc.devRef .tc main_arg8)) := by
  rw [glueC_v46, glueB_arg8, glueA_arg8]

theorem glue1_v47 (W : Valuation τ sig (Elt F)) :
    StableHlo.after hostOps1_2 (StableHlo.after hostOps1_1 (StableHlo.after hostOps1 W)) (Proc.devRef .tc main_v47)
      = row512 (W (Proc.devRef .tc main_arg3)) := by
  rw [glueC_v47, glueB_arg3, glueA_arg3]

theorem glue1_arg0 (W : Valuation τ sig (Elt F)) :
    StableHlo.after hostOps1_2 (StableHlo.after hostOps1_1 (StableHlo.after hostOps1 W)) (Proc.devRef .tc main_arg0)
      = W (Proc.devRef .tc main_arg0) := by
  rw [glueC_arg0, glueB_arg0, glueA_arg0]

/-! ## The stretch between the statistics region and the normalising region

The per-graph node count, the mean and the reciprocal standard deviation, as the printed operations compose them
from the two accumulated sums, the graph index of each node and the scale. -/

/-- The number of nodes of each graph, at least one: a scatter-add of ones at the nodes' graph indices. -/
def cnt (batch : IVec S50000 32) : FVec F S64 .f32 :=
  maximumf
    (Host.scatterAdd scatter_S64_S50000x1_S50000_n_0_0_1
      (broadcastInDim S64 ![] bcast_S_S64 (constant S_ .f32 0x00000000#32))
      (broadcastInDim S50000x1 ![0] bcast_S50000_S50000x1_0 batch)
      (broadcastInDim S50000 ![] bcast_S_S50000 (constant S_ .f32 0x3F800000#32)))
    (broadcastInDim S64 ![] bcast_S_S64 (constant S_ .f32 0x3F800000#32))

/-- The count broadcast along the features. -/
def cntB (batch : IVec S50000 32) : FVec F S64x512 .f32 :=
  broadcastInDim S64x512 ![0, 1] bcast_S64x1_S64x512_0_1 (broadcastInDim S64x1 ![0] bcast_S64_S64x1_0 (cnt batch))

/-- The mean of each graph: the sum over its nodes divided by their number. -/
def mean (sumh : FVec F S64x512 .f32) (batch : IVec S50000 32) : FVec F S64x512 .f32 :=
  Host.divf sumh (cntB batch)

/-- The factor `2·a − a·a` of the squared mean in the variance, `a` the scale, broadcast over the graphs. -/
def corr (scale : FVec F S512 .f32) : FVec F S64x512 .f32 :=
  broadcastInDim S64x512 ![0, 1] bcast_S1x512_S64x512_0_1
    (broadcastInDim S1x512 ![1] bcast_S512_S1x512_1
      (subf (mulf (broadcastInDim S512 ![] bcast_S_S512 (constant S_ .f32 0x40000000#32)) scale) (mulf scale scale)))

/-- The reciprocal standard deviation: `rsqrt (max (sumh2 / cnt − (2·a − a·a)·mean², 0) + ε)`. -/
def invstd (sumh sumh2 : FVec F S64x512 .f32) (scale : FVec F S512 .f32) (batch : IVec S50000 32) : FVec F S64x512 .f32 :=
  Host.rsqrt
    (addf
      (maximumf
        (subf (Host.divf sumh2 (cntB batch)) (mulf (corr scale) (mulf (mean sumh batch) (mean sumh batch))))
        (broadcastInDim S64x512 ![] bcast_S_S64x512 (constant S_ .f32 0x00000000#32)))
      (broadcastInDim S64x512 ![] bcast_S_S64x512 (constant S_ .f32 0x3727C5AC#32)))

theorem glue2_v57 (W : Valuation τ sig (Elt F)) :
    StableHlo.after hostOps2 W (Proc.devRef .tc main_v57)
      = mean (W (Proc.devRef .tc main_v48_1)) (W (Proc.devRef .tc main_arg8)) := by
  after_results; rfl

set_option maxHeartbeats 2000000 in
theorem glue2_v73 (W : Valuation τ sig (Elt F)) :
    StableHlo.after hostOps2 W (Proc.devRef .tc main_v73)
      = invstd (W (Proc.devRef .tc main_v48_1)) (W (Proc.devRef .tc main_v48_2)) (W (Proc.devRef .tc main_arg6))
          (W (Proc.devRef .tc main_arg8)) := by
  after_results_simp; rfl

theorem glue2_v74 (W : Valuation τ sig (Elt F)) :
    StableHlo.after hostOps2 W (Proc.devRef .tc main_v74) = row512 (W (Proc.devRef .tc main_arg6)) := by
  after_results; rfl

theorem glue2_v75 (W : Valuation τ sig (Elt F)) :
    StableHlo.after hostOps2 W (Proc.devRef .tc main_v75) = row512 (W (Proc.devRef .tc main_arg4)) := by
  after_results; rfl

theorem glue2_v76 (W : Valuation τ sig (Elt F)) :
    StableHlo.after hostOps2 W (Proc.devRef .tc main_v76) = row512 (W (Proc.devRef .tc main_arg5)) := by
  after_results; rfl

/-- The stretch writes neither the first region-1 result nor the graph indices as a column. -/
theorem glue2_v48_0 (W : Valuation τ sig (Elt F)) :
    StableHlo.after hostOps2 W (Proc.devRef .tc main_v48_0) = W (Proc.devRef .tc main_v48_0) := by
  after_results

theorem glue2_v46 (W : Valuation τ sig (Elt F)) :
    StableHlo.after hostOps2 W (Proc.devRef .tc main_v46) = W (Proc.devRef .tc main_v46) := by
  after_results

end Cert.KernelIdeal.HostGlue

end
-- ==== Proof.KV.Chain.lean ====
/- The values through @main over the extended reals: the last region's output array as one expression in the nine
   argument arrays. The fold of buffer contents is walked back boundary by boundary: the last region's array is a
   function of its seven input arrays; five of those are host functions of the middle region's outputs and of
   arguments; the middle region's outputs are functions of its four input arrays; three of those are host functions
   of the first region's output and of arguments; the first region's output is a function of two arguments. Every step
   is a rewrite with a named equation; no fold is unfolded. -/
import proofs.«430542_j72688026518114_3_alg».proof.Proof.KI.Run
import proofs.«430542_j72688026518114_3_alg».proof.Proof.KV.Pay
import proofs.«430542_j72688026518114_3_alg».proof.Proof.KV.Arr0
import proofs.«430542_j72688026518114_3_alg».proof.Proof.KV.Arr1
import proofs.«430542_j72688026518114_3_alg».proof.Proof.KV.Arr2
import proofs.«430542_j72688026518114_3_alg».proof.Proof.KV.Host
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

/-- The contents of a buffer of shape `S` and element type `e` over the extended reals. -/
abbrev T (S : Shape) (e : EltTy) : Type := (⟨S, e⟩ : BufTy).Contents (Elt Ideal)

/-! ## The second host stretch keeps the two arrays the last region reads unchanged from the middle region -/

section Keeps
variable {F : FTy → Type} [FloatOps F]
variable (m : (ℓ : Loc nD τ sig) → Buf (Elt F) ℓ) (ρ : Dev nD → PrngReg)

theorem W6_main_v48_0 (c : Dev nD) : W6 m ρ c (Proc.devRef .tc main_v48_0) = W5 m ρ c (Proc.devRef .tc main_v48_0) :=
  StableHlo.after_of_forall_not_mem (b := Proc.devRef .tc main_v48_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W6_main_v46 (c : Dev nD) : W6 m ρ c (Proc.devRef .tc main_v46) = W5 m ρ c (Proc.devRef .tc main_v46) :=
  StableHlo.after_of_forall_not_mem (b := Proc.devRef .tc main_v46) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Keeps

variable (m : (ℓ : Loc nD τ sig) → Buf (Elt Ideal) ℓ)

/-! ## The argument arrays at launch, on core `c` -/

abbrev x0 (c : Dev nD) : T S50000x512 .f32 := m ((c : Thread nD τ).loc main_arg0)
abbrev x1 (c : Dev nD) : T S160000 .f32 := m ((c : Thread nD τ).loc main_arg1)
abbrev x2 (c : Dev nD) : T S512x512 .f32 := m ((c : Thread nD τ).loc main_arg2)
abbrev x3 (c : Dev nD) : T S512 .f32 := m ((c : Thread nD τ).loc main_arg3)
abbrev x4 (c : Dev nD) : T S512 .f32 := m ((c : Thread nD τ).loc main_arg4)
abbrev x5 (c : Dev nD) : T S512 .f32 := m ((c : Thread nD τ).loc main_arg5)
abbrev x6 (c : Dev nD) : T S512 .f32 := m ((c : Thread nD τ).loc main_arg6)
abbrev x7 (c : Dev nD) : T S2x160000 .i32 := m ((c : Thread nD τ).loc main_arg7)
abbrev x8 (c : Dev nD) : T S50000 .i32 := m ((c : Thread nD τ).loc main_arg8)

/-! ## The chain, from what each region's output array is and what each host stretch computes -/

/-- GIVEN what each region leaves in its output arrays as a function of its input arrays (`harr…`, at any entry
    contents) and what the host stretches leave in the buffers the next region reads as functions of the buffers they
    read (`hv…`, from any contents): the last region's output array at the end of @main, in the nine arguments. -/
theorem chain_of
    {G0 : T S50000x512 .f32 → T S512x512 .f32 → T S50000x512 .f32}
    {agg : T S50000x512 .f32 → T S160000 .f32 → T S2x160000 .i32 → T S50000x512 .f32}
    {rs : T S512 .f32 → T S1x512 .f32}
    {rb : T S50000 .i32 → T S50000x1 .i32}
    {H1 : T S50000x512 .f32 → T S50000x512 .f32 → T S1x512 .f32 → T S50000x512 .f32}
    {S1 S2 : T S50000x512 .f32 → T S50000x512 .f32 → T S1x512 .f32 → T S50000x1 .i32 → T S64x512 .f32}
    {mean : T S64x512 .f32 → T S50000 .i32 → T S64x512 .f32}
    {invstd : T S64x512 .f32 → T S64x512 .f32 → T S512 .f32 → T S50000 .i32 → T S64x512 .f32}
    {G2 : T S50000x512 .f32 → T S50000x1 .i32 → T S64x512 .f32 → T S64x512 .f32 → T S1x512 .f32 → T S1x512 .f32 → T S1x512 .f32 → T S50000x512 .f32}
    (harr0 : ∀ (V : (c : Dev nD) → (b : Ref sig .tc) → Buf (Elt Ideal) ((c : Thread nD τ).loc b)) (c : Dev nD), (dat0 (F := Ideal) V c).arrAt 2 cfg0.N = G0 (V c main_arg0) (V c main_arg2))
    (harr1_h : ∀ (V : (c : Dev nD) → (b : Ref sig .tc) → Buf (Elt Ideal) ((c : Thread nD τ).loc b)) (c : Dev nD), (dat1 (F := Ideal) V c).arrAt 4 cfg1.N = H1 (V c main_arg0) (V c main_v45) (V c main_v47))
    (harr1_s1 : ∀ (V : (c : Dev nD) → (b : Ref sig .tc) → Buf (Elt Ideal) ((c : Thread nD τ).loc b)) (c : Dev nD), (dat1 (F := Ideal) V c).arrAt 5 cfg1.N = S1 (V c main_arg0) (V c main_v45) (V c main_v47) (V c main_v46))
    (harr1_s2 : ∀ (V : (c : Dev nD) → (b : Ref sig .tc) → Buf (Elt Ideal) ((c : Thread nD τ).loc b)) (c : Dev nD), (dat1 (F := Ideal) V c).arrAt 6 cfg1.N = S2 (V c main_arg0) (V c main_v45) (V c main_v47) (V c main_v46))
    (harr2 : ∀ (V : (c : Dev nD) → (b : Ref sig .tc) → Buf (Elt Ideal) ((c : Thread nD τ).loc b)) (c : Dev nD), (dat2 (F := Ideal) V c).arrAt 7 cfg2.N
      = G2 (V c main_v48_0) (V c main_v46) (V c main_v57) (V c main_v73) (V c main_v74) (V c main_v75) (V c main_v76))
    (hv45 : ∀ (W : Valuation τ sig (Elt Ideal)), StableHlo.after hostOps1_2 (StableHlo.after hostOps1_1 (StableHlo.after hostOps1 W)) (Proc.devRef .tc main_v45) = agg (W (Proc.devRef .tc main_v0)) (W (Proc.devRef .tc main_arg1)) (W (Proc.devRef .tc main_arg7)))
    (hv46 : ∀ (W : Valuation τ sig (Elt Ideal)), StableHlo.after hostOps1_2 (StableHlo.after hostOps1_1 (StableHlo.after hostOps1 W)) (Proc.devRef .tc main_v46) = rb (W (Proc.devRef .tc main_arg8)))
    (hv47 : ∀ (W : Valuation τ sig (Elt Ideal)), StableHlo.after hostOps1_2 (StableHlo.after hostOps1_1 (StableHlo.after hostOps1 W)) (Proc.devRef .tc main_v47) = rs (W (Proc.devRef .tc main_arg3)))
    (hv57 : ∀ (W : Valuation τ sig (Elt Ideal)), StableHlo.after hostOps2 W (Proc.devRef .tc main_v57) = mean (W (Proc.devRef .tc main_v48_1)) (W (Proc.devRef .tc main_arg8)))
    (hv73 : ∀ (W : Valuation τ sig (Elt Ideal)), StableHlo.after hostOps2 W (Proc.devRef .tc main_v73)
      = invstd (W (Proc.devRef .tc main_v48_1)) (W (Proc.devRef .tc main_v48_2)) (W (Proc.devRef .tc main_arg6)) (W (Proc.devRef .tc main_arg8)))
    (hv74 : ∀ (W : Valuation τ sig (Elt Ideal)), StableHlo.after hostOps2 W (Proc.devRef .tc main_v74) = rs (W (Proc.devRef .tc main_arg6)))
    (hv75 : ∀ (W : Valuation τ sig (Elt Ideal)), StableHlo.after hostOps2 W (Proc.devRef .tc main_v75) = rs (W (Proc.devRef .tc main_arg4)))
    (hv76 : ∀ (W : Valuation τ sig (Elt Ideal)), StableHlo.after hostOps2 W (Proc.devRef .tc main_v76) = rs (W (Proc.devRef .tc main_arg5)))
    (ρ : Dev nD → PrngReg) (c : Dev nD) :
    W7 m ρ c (Proc.devRef .tc main_v77)
      = G2 (H1 (x0 m c) (agg (G0 (x0 m c) (x2 m c)) (x1 m c) (x7 m c)) (rs (x3 m c))) (rb (x8 m c))
          (mean (S1 (x0 m c) (agg (G0 (x0 m c) (x2 m c)) (x1 m c) (x7 m c)) (rs (x3 m c)) (rb (x8 m c))) (x8 m c))
          (invstd (S1 (x0 m c) (agg (G0 (x0 m c) (x2 m c)) (x1 m c) (x7 m c)) (rs (x3 m c)) (rb (x8 m c))) (S2 (x0 m c) (agg (G0 (x0 m c) (x2 m c)) (x1 m c) (x7 m c)) (rs (x3 m c)) (rb (x8 m c))) (x6 m c) (x8 m c))
          (rs (x6 m c)) (rs (x4 m c)) (rs (x5 m c)) := by
  -- the first region's output array
  have e_v0 : W1 m ρ c (Proc.devRef .tc main_v0) = G0 (x0 m c) (x2 m c) :=
    (W1_arr m ρ c 2).trans (harr0 (V0 m ρ) c)
  -- the first host stretches, read at the first region's exit
  have e_v45 : W4 m ρ c (Proc.devRef .tc main_v45) = (agg (G0 (x0 m c) (x2 m c)) (x1 m c) (x7 m c)) := by
    refine (hv45 (W1 m ρ c)).trans ?_
    rw [e_v0, W1_main_arg1 m ρ c, W1_main_arg7 m ρ c]
  have e_v46 : W4 m ρ c (Proc.devRef .tc main_v46) = rb (x8 m c) := by
    refine (hv46 (W1 m ρ c)).trans ?_
    rw [W1_main_arg8 m ρ c]
  have e_v47 : W4 m ρ c (Proc.devRef .tc main_v47) = rs (x3 m c) := by
    refine (hv47 (W1 m ρ c)).trans ?_
    rw [W1_main_arg3 m ρ c]
  have e_a0 : W4 m ρ c (Proc.devRef .tc main_arg0) = (x0 m c) := W4_main_arg0 m ρ c
  -- the middle region's output arrays, its input arrays read at its entry
  have e_h : W5 m ρ c (Proc.devRef .tc main_v48_0) = (H1 (x0 m c) (agg (G0 (x0 m c) (x2 m c)) (x1 m c) (x7 m c)) (rs (x3 m c))) := by
    refine ((W5_arr m ρ c 4).trans (harr1_h (V4 m ρ) c)).trans ?_
    show H1 (W4 m ρ c (Proc.devRef .tc main_arg0)) (W4 m ρ c (Proc.devRef .tc main_v45)) (W4 m ρ c (Proc.devRef .tc main_v47)) = _
    rw [e_a0, e_v45, e_v47]
  have e_s1 : W5 m ρ c (Proc.devRef .tc main_v48_1) = (S1 (x0 m c) (agg (G0 (x0 m c) (x2 m c)) (x1 m c) (x7 m c)) (rs (x3 m c)) (rb (x8 m c))) := by
    refine ((W5_arr m ρ c 5).trans (harr1_s1 (V4 m ρ) c)).trans ?_
    show S1 (W4 m ρ c (Proc.devRef .tc main_arg0)) (W4 m ρ c (Proc.devRef .tc main_v45)) (W4 m ρ c (Proc.devRef .tc main_v47)) (W4 m ρ c (Proc.devRef .tc main_v46)) = _
    rw [e_a0, e_v45, e_v47, e_v46]
  have e_s2 : W5 m ρ c (Proc.devRef .tc main_v48_2) = (S2 (x0 m c) (agg (G0 (x0 m c) (x2 m c)) (x1 m c) (x7 m c)) (rs (x3 m c)) (rb (x8 m c))) := by
    refine ((W5_arr m ρ c 6).trans (harr1_s2 (V4 m ρ) c)).trans ?_
    show S2 (W4 m ρ c (Proc.devRef .tc main_arg0)) (W4 m ρ c (Proc.devRef .tc main_v45)) (W4 m ρ c (Proc.devRef .tc main_v47)) (W4 m ρ c (Proc.devRef .tc main_v46)) = _
    rw [e_a0, e_v45, e_v47, e_v46]
  -- an input array of the middle region leaves it as it entered
  have e5_v46 : W5 m ρ c (Proc.devRef .tc main_v46) = rb (x8 m c) :=
    ((W5_arr m ρ c 3).trans (((dat1 (V4 m ρ) c).arrAt_in 3 rfl _).trans (A_eq1 (V4 m ρ) c 3))).trans e_v46
  -- the last host stretch, read at the middle region's exit
  have e_v57 : W6 m ρ c (Proc.devRef .tc main_v57) = mean (S1 (x0 m c) (agg (G0 (x0 m c) (x2 m c)) (x1 m c) (x7 m c)) (rs (x3 m c)) (rb (x8 m c))) (x8 m c) := by
    refine (hv57 (W5 m ρ c)).trans ?_
    rw [e_s1, W5_main_arg8 m ρ c]
  have e_v73 : W6 m ρ c (Proc.devRef .tc main_v73) = invstd (S1 (x0 m c) (agg (G0 (x0 m c) (x2 m c)) (x1 m c) (x7 m c)) (rs (x3 m c)) (rb (x8 m c))) (S2 (x0 m c) (agg (G0 (x0 m c) (x2 m c)) (x1 m c) (x7 m c)) (rs (x3 m c)) (rb (x8 m c))) (x6 m c) (x8 m c) := by
    refine (hv73 (W5 m ρ c)).trans ?_
    rw [e_s1, e_s2, W5_main_arg6 m ρ c, W5_main_arg8 m ρ c]
  have e_v74 : W6 m ρ c (Proc.devRef .tc main_v74) = rs (x6 m c) := by
    refine (hv74 (W5 m ρ c)).trans ?_
    rw [W5_main_arg6 m ρ c]
  have e_v75 : W6 m ρ c (Proc.devRef .tc main_v75) = rs (x4 m c) := by
    refine (hv75 (W5 m ρ c)).trans ?_
    rw [W5_main_arg4 m ρ c]
  have e_v76 : W6 m ρ c (Proc.devRef .tc main_v76) = rs (x5 m c) := by
    refine (hv76 (W5 m ρ c)).trans ?_
    rw [W5_main_arg5 m ρ c]
  have e6_h : W6 m ρ c (Proc.devRef .tc main_v48_0) = (H1 (x0 m c) (agg (G0 (x0 m c) (x2 m c)) (x1 m c) (x7 m c)) (rs (x3 m c))) := (W6_main_v48_0 m ρ c).trans e_h
  have e6_v46 : W6 m ρ c (Proc.devRef .tc main_v46) = rb (x8 m c) := (W6_main_v46 m ρ c).trans e5_v46
  -- the last region's output array, its input arrays read at its entry
  refine ((W7_main_v77 m ρ c).trans (harr2 (V6 m ρ) c)).trans ?_
  show G2 (W6 m ρ c (Proc.devRef .tc main_v48_0)) (W6 m ρ c (Proc.devRef .tc main_v46)) (W6 m ρ c (Proc.devRef .tc main_v57)) (W6 m ρ c (Proc.devRef .tc main_v73))
    (W6 m ρ c (Proc.devRef .tc main_v74)) (W6 m ρ c (Proc.devRef .tc main_v75)) (W6 m ρ c (Proc.devRef .tc main_v76)) = _
  rw [e6_h, e6_v46, e_v57, e_v73, e_v74, e_v75, e_v76]

/-! ## The chain at the regions' and the host stretches' own functions -/

/-- The last region's output array at the end of @main, in the nine argument arrays: the normalised array of the
    residual (the node array plus the aggregate of the first region's product plus the row), its group labels, the
    group means and inverse deviations of the residual's group sums and group sums of squares, and the three rows. -/
theorem chain (ρ : Dev nD → PrngReg) (c : Dev nD) :
    W7 m ρ c (Proc.devRef .tc main_v77)
      = Arr.G2 (Arr1.H1 (x0 m c) (HostGlue.agg (F := Ideal) (Arr.G0 (x0 m c) (x2 m c)) (x1 m c) (x7 m c)) (HostGlue.row512 (F := Ideal) (x3 m c))) (HostGlue.batchCol (x8 m c))
          (HostGlue.mean (F := Ideal) (Arr1.S1 (x0 m c) (HostGlue.agg (F := Ideal) (Arr.G0 (x0 m c) (x2 m c)) (x1 m c) (x7 m c)) (HostGlue.row512 (F := Ideal) (x3 m c)) (HostGlue.batchCol (x8 m c))) (x8 m c))
          (HostGlue.invstd (F := Ideal) (Arr1.S1 (x0 m c) (HostGlue.agg (F := Ideal) (Arr.G0 (x0 m c) (x2 m c)) (x1 m c) (x7 m c)) (HostGlue.row512 (F := Ideal) (x3 m c)) (HostGlue.batchCol (x8 m c))) (Arr1.S2 (x0 m c) (HostGlue.agg (F := Ideal) (Arr.G0 (x0 m c) (x2 m c)) (x1 m c) (x7 m c)) (HostGlue.row512 (F := Ideal) (x3 m c)) (HostGlue.batchCol (x8 m c))) (x6 m c) (x8 m c))
          (HostGlue.row512 (F := Ideal) (x6 m c)) (HostGlue.row512 (F := Ideal) (x4 m c)) (HostGlue.row512 (F := Ideal) (x5 m c)) :=
  chain_of m
    (fun V c => Arr.arr0 V Pay.pay0 c)
    (fun V c => Arr1.arr1_h V c) (fun V c => Arr1.arr1_sumh V c) (fun V c => Arr1.arr1_sumh2 V c)
    (fun V c => Arr.arr2 V Pay.pay2_1 c)
    (fun W => HostGlue.glue1_v45 W) (fun W => HostGlue.glue1_v46 W) (fun W => HostGlue.glue1_v47 W)
    (fun W => HostGlue.glue2_v57 W) (fun W => HostGlue.glue2_v73 W) (fun W => HostGlue.glue2_v74 W)
    (fun W => HostGlue.glue2_v75 W) (fun W => HostGlue.glue2_v76 W) ρ c

end Cert.KernelIdeal.Chain

end
-- ==== Proof.KV.BridgeA.lean ====
/-
  The two programs meet. The first region's product array is the reference's dot_general, and the kernel's edge
  aggregation of it, the same host operations in the same order, is the reference's out_agg.
-/
import proofs.«430542_j72688026518114_3_alg».proof.Proof.Gen.ReferenceIdeal.Read
import proofs.«430542_j72688026518114_3_alg».proof.Proof.KV.Arr0
import proofs.«430542_j72688026518114_3_alg».proof.Proof.KV.Host

noncomputable section

open scoped BigOperators

namespace GcnBridge

open Idealize.ShloMosaic Idealize.ShloMosaic.ValueIdx
open Cert.ReferenceIdeal.Read

/-! ## The product array is the reference's x_lin -/

/-- Entry (p, q) of both is the sum over k of x0 (p, k) * x2 (k, q). -/
theorem G0_eq (x0 : (⟨Cert.ReferenceIdeal.S50000x512, .f32⟩ : BufTy).Contents (Elt Ideal))
    (x2 : (⟨Cert.ReferenceIdeal.S512x512, .f32⟩ : BufTy).Contents (Elt Ideal)) :
    Cert.KernelIdeal.Arr.G0 x0 x2 = val_main_v0 (F := Ideal) x0 x2 := by
  funext i
  obtain ⟨p, q, rfl⟩ : ∃ (p : Fin 50000) (q : Fin 512), i = ix2 p q := ⟨i 0, i 1, eq_ix2 i⟩
  rw [val_main_v0_apply]
  show ∑ k : Fin 512, x0 (ix2 p k) * x2 (ix2 k q) = _
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-! ## The kernel's edge aggregation is the reference's out_agg

Both programs print the same host operations in the same order: the edge rows with one self loop per node appended,
the weights with a 1 per self loop, the weighted degrees by a scatter-add, their reciprocal square roots where
positive, the normalised weight dinv[src] · w · dinv[dst] through gathers at the wrapped indices, and the scatter-add
of the gathered rows scaled by it. The two texts differ only in the names of their dimension records, whose fields are
equal, so each stage of one IS the stage of the other, over any float family. -/

section Agg

variable {F : FTy → Type} [FloatOps F]
variable (x0 : (⟨Cert.ReferenceIdeal.S50000x512, .f32⟩ : BufTy).Contents (Elt F))
  (x1 : (⟨Cert.ReferenceIdeal.S160000, .f32⟩ : BufTy).Contents (Elt F))
  (x2 : (⟨Cert.ReferenceIdeal.S512x512, .f32⟩ : BufTy).Contents (Elt F))
  (x7 : (⟨Cert.ReferenceIdeal.S2x160000, .i32⟩ : BufTy).Contents (Elt F))

open Cert.KernelIdeal.HostGlue in
/-- The source row with the self loops. -/
theorem srcIdx_eq : srcIdx x7 = val_main_v4 (F := F) x7 := rfl

open Cert.KernelIdeal.HostGlue in
/-- The destination row with the self loops. -/
theorem dstIdx_eq : dstIdx x7 = val_main_v7 (F := F) x7 := rfl

open Cert.KernelIdeal.HostGlue in
/-- The edge weights with the self loops' ones. -/
theorem ewFull_eq : ewFull (F := F) x1 = val_main_v9 (F := F) x1 := rfl

open Cert.KernelIdeal.HostGlue in
/-- The weighted degrees. -/
theorem deg_eq : deg (F := F) x1 x7 = val_main_v12 (F := F) x1 x7 := rfl

open Cert.KernelIdeal.HostGlue in
/-- The reciprocal square roots of the positive degrees, zero elsewhere. -/
theorem dinv_eq : dinv (F := F) x1 x7 = val_main_v16 (F := F) x1 x7 := rfl

open Cert.KernelIdeal.HostGlue in
/-- The wrapped source indices as a column (the reference computes this column twice). -/
theorem wrapSrc_eq : idxCol (wrapIdx (srcIdx x7)) = val_main_v22 (F := F) x7 := rfl
open Cert.KernelIdeal.HostGlue in
theorem wrapSrc_eq' : idxCol (wrapIdx (srcIdx x7)) = val_main_v38 (F := F) x7 := rfl

open Cert.KernelIdeal.HostGlue in
/-- The wrapped destination indices as a column. -/
theorem wrapDst_eq : idxCol (wrapIdx (dstIdx x7)) = val_main_v30 (F := F) x7 := rfl

open Cert.KernelIdeal.HostGlue in
/-- The normalised weight of each edge. -/
theorem norm_eq : normOf (dinv (F := F) x1 x7) (srcIdx x7) (dstIdx x7) (ewFull (F := F) x1) = val_main_v32 (F := F) x1 x7 := rfl

open Cert.KernelIdeal.HostGlue in
/-- The aggregation of any array of node rows is the reference's scatter-add of its gathered, scaled rows. -/
theorem aggOf_eq (xlin : (⟨Cert.ReferenceIdeal.S50000x512, .f32⟩ : BufTy).Contents (Elt F)) :
    agg (F := F) xlin x1 x7
      = Host.scatterAdd Cert.ReferenceIdeal.scatter_S50000x512_S210000x1_S210000x512_1_0_0_1 (val_main_v43 (F := F)) (val_main_v44 (F := F) x7)
          (mulf (Host.gather Cert.ReferenceIdeal.gather_S50000x512_S210000x1_S210000x512_1_0_n_n_0_1_1512 xlin (val_main_v38 (F := F) x7))
            (val_main_v41 (F := F) x1 x7)) := rfl

/-- THE EDGE AGGREGATION: the kernel's host operations applied to the reference's x_lin give the reference's out_agg. -/
theorem agg_eq :
    Cert.KernelIdeal.HostGlue.agg (F := F) (val_main_v0 (F := F) x0 x2) x1 x7 = val_main_v45 (F := F) x0 x1 x2 x7 := rfl

end Agg

end GcnBridge

end
-- ==== Proof.KV.BridgeB.lean ====
/-
  The structural bridge, second half. A vector cast to a column or to a row reads its one varying coordinate. The
  kernel's pre-normalisation array, node + aggregate + bias row, is the reference's node + (aggregate + bias), by
  associativity of addition on the extended reals; the reference spreads the bias over the rows by two broadcasts.
-/
import proofs.«430542_j72688026518114_3_alg».proof.Proof.Gen.ReferenceIdeal.Read
import proofs.«430542_j72688026518114_3_alg».proof.Proof.KV.Arr1
import proofs.«430542_j72688026518114_3_alg».proof.Proof.KV.Host
import Idealize.ShloMosaic.Lib.ValueIdx
import Idealize.ShloMosaic.Lib.ValueLayout
import Idealize.ShloMosaic.Lib.Pipeline.Value
import Idealize.ShloMosaic.PureOps.Ideal

noncomputable section

namespace GcnBridge

open Cert.ReferenceIdeal Cert.ReferenceIdeal.Gen Cert.ReferenceIdeal.Read Idealize.ShloMosaic Idealize.ShloMosaic.ValueIdx

/-! ## The reshapes read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The batch ids as a column read the id of the row. -/
theorem batchCol_apply (x8 : IVec Cert.KernelIdeal.S50000 32) (i : Fin 50000) :
    Cert.KernelIdeal.HostGlue.batchCol x8 (ix2 i 0) = x8 (ix1 i) :=
  shapeCast_a_a1_apply x8 _ i 0

/-- A feature vector as a row reads the feature. -/
theorem row512_apply (x : FVec Ideal Cert.KernelIdeal.S512 .f32) (q : Fin 512) :
    Cert.KernelIdeal.HostGlue.row512 (F := Ideal) x (ix2 0 q) = x (ix1 q) :=
  shapeCast_a_1a_apply x _ 0 q

/-! ## The pre-normalisation array -/

section H
variable (x0 : (⟨S50000x512, .f32⟩ : BufTy).Contents (Elt Ideal)) (x1 : (⟨S160000, .f32⟩ : BufTy).Contents (Elt Ideal))
  (x2 : (⟨S512x512, .f32⟩ : BufTy).Contents (Elt Ideal)) (x3 : (⟨S512, .f32⟩ : BufTy).Contents (Elt Ideal))
  (x7 : (⟨S2x160000, .i32⟩ : BufTy).Contents (Elt Ideal))

/-- The reference's bias spread over the rows reads the feature's bias. -/
theorem val_main_v47_ix (r : Fin 50000) (q : Fin 512) : val_main_v47 (F := Ideal) x3 (ix2 r q) = x3 (ix1 q) := by
  rw [val_main_v47_apply, val_main_v46_apply]
  exact congrArg x3 (funext fun a => match a with | ⟨0, _⟩ => rfl)

/-- node + aggregate + bias row is the reference's node + (aggregate + bias), for any row that reads the bias. -/
theorem h_eq_of (b : Vec Ideal Cert.KernelIdeal.S1x512 .f32) (hb : ∀ q : Fin 512, b (ix2 0 q) = x3 (ix1 q)) :
    Cert.KernelIdeal.Arr1.H1 x0 (val_main_v45 (F := Ideal) x0 x1 x2 x7) b = val_main_v49 (F := Ideal) x0 x1 x2 x3 x7 := by
  funext j
  obtain ⟨r, q, rfl⟩ : ∃ (r : Fin 50000) (q : Fin 512), j = ix2 r q := ⟨j 0, j 1, eq_ix2 j⟩
  rw [Cert.KernelIdeal.Arr1.H1_apply, val_main_v49_apply, val_main_v48_apply, val_main_v47_ix, hb, Ideal.addf_def, Ideal.addf_def]
  exact add_assoc _ _ _

/-- THE PRE-NORMALISATION ARRAY of the kernel, over the reference's aggregate and the bias as a row, is the reference's. -/
theorem h_eq :
    Cert.KernelIdeal.Arr1.H1 x0 (val_main_v45 (F := Ideal) x0 x1 x2 x7) (Cert.KernelIdeal.HostGlue.row512 (F := Ideal) x3)
      = val_main_v49 (F := Ideal) x0 x1 x2 x3 x7 :=
  h_eq_of x0 x1 x2 x3 x7 _ (row512_apply x3)

end H

end GcnBridge

end
-- ==== Proof.KV.Algebra.lean ====
import Idealize.ShloMosaic.PureOps.Ideal
import Mathlib.Data.EReal.Inv
import Mathlib.Algebra.BigOperators.Group.Finset.Basic
import Mathlib.Algebra.BigOperators.Ring.Finset
import Mathlib.Algebra.Order.BigOperators.Ring.Finset
import Mathlib.Tactic.Ring
import Mathlib.Tactic.FieldSimp
import Mathlib.Tactic.Linarith
import Mathlib.Tactic.Positivity

/-!
# Segment statistics over the extended reals

Algebra joining two ways of computing per-segment mean and variance:

* sums weighted by a 0/1 indicator are sums over the indicated subset (the indicator's
  `0 * x = 0` and `1 * x = x` hold at every extended real, the infinities included);
* a 0/1 row with exactly one `1` selects one entry of a vector;
* the one-pass variance `S₂/c - (2α - α²)·m²` equals the two-pass variance
  `(∑ (h - mα)²)/c` when `m = S₁/c` and `c = max (card) 1`, and is nonnegative.

Every statement is about `EReal`, `ℝ` and finite sums; `IsReal x` says that `x` is a real number.
-/

open scoped BigOperators

namespace GcnAlgebra

/-! ## One-hot sums -/

/-- A sum weighted by the indicator of `b i = g` is the sum over the indices with `b i = g`. -/
theorem sum_onehot_mul {ι β : Type*} [Fintype ι] [DecidableEq β] (b : ι → β) (g : β) (x : ι → EReal) :
    ∑ i, (if b i = g then (1 : EReal) else 0) * x i
      = ∑ i ∈ Finset.univ.filter (fun i => b i = g), x i := by
  rw [Finset.sum_filter]
  refine Finset.sum_congr rfl (fun i _ => ?_)
  by_cases hb : b i = g
  · rw [if_pos hb, if_pos hb, one_mul]
  · rw [if_neg hb, if_neg hb, zero_mul]

/-- The same over any decidable predicate on the index. -/
theorem sum_ind_mul {ι : Type*} [Fintype ι] (p : ι → Prop) [DecidablePred p] (x : ι → EReal) :
    ∑ i, (if p i then (1 : EReal) else 0) * x i = ∑ i ∈ Finset.univ.filter p, x i := by
  rw [Finset.sum_filter]
  refine Finset.sum_congr rfl (fun i _ => ?_)
  by_cases hb : p i
  · rw [if_pos hb, if_pos hb, one_mul]
  · rw [if_neg hb, if_neg hb, zero_mul]

/-- The indicator on the right of the product. -/
theorem sum_mul_onehot {ι β : Type*} [Fintype ι] [DecidableEq β] (b : ι → β) (g : β) (x : ι → EReal) :
    ∑ i, x i * (if b i = g then (1 : EReal) else 0)
      = ∑ i ∈ Finset.univ.filter (fun i => b i = g), x i := by
  rw [← sum_onehot_mul]
  exact Finset.sum_congr rfl (fun i _ => mul_comm _ _)

/-- A 0/1 row whose only `1` is at `k` selects the entry `m k` (any finite index type). -/
theorem sum_select {κ : Type*} [Fintype κ] (k : κ) (sel : κ → Prop) [DecidablePred sel]
    (hsel : ∀ g, sel g ↔ g = k) (m : κ → EReal) :
    ∑ g, (if sel g then (1 : EReal) else 0) * m g = m k := by
  classical
  rw [Finset.sum_eq_single k]
  · rw [if_pos ((hsel k).2 rfl), one_mul]
  · intro g _ hg
    rw [if_neg (fun h => hg ((hsel g).1 h)), zero_mul]
  · intro h
    exact absurd (Finset.mem_univ k) h

/-- A 0/1 row whose only `1` is at `k` selects the entry `m k`. -/
theorem sum_onehot_select {n : ℕ} (k : Fin n) (sel : Fin n → Prop) [DecidablePred sel]
    (hsel : ∀ g, sel g ↔ g = k) (m : Fin n → EReal) :
    ∑ g, (if sel g then (1 : EReal) else 0) * m g = m k :=
  sum_select k sel hsel m

/-- A row of zeros selects nothing (any finite index type). -/
theorem sum_select_none {κ : Type*} [Fintype κ] (sel : κ → Prop) [DecidablePred sel]
    (hsel : ∀ g, ¬ sel g) (m : κ → EReal) :
    ∑ g, (if sel g then (1 : EReal) else 0) * m g = 0 := by
  refine Finset.sum_eq_zero (fun g _ => ?_)
  rw [if_neg (hsel g), zero_mul]

/-- A row of zeros selects nothing. -/
theorem sum_onehot_select_none {n : ℕ} (sel : Fin n → Prop) [DecidablePred sel]
    (hsel : ∀ g, ¬ sel g) (m : Fin n → EReal) :
    ∑ g, (if sel g then (1 : EReal) else 0) * m g = 0 :=
  sum_select_none sel hsel m

/-- The indicator on the right: a row whose only `1` is at `k` selects `m k`. -/
theorem sum_select_right {κ : Type*} [Fintype κ] (k : κ) (sel : κ → Prop) [DecidablePred sel]
    (hsel : ∀ g, sel g ↔ g = k) (m : κ → EReal) :
    ∑ g, m g * (if sel g then (1 : EReal) else 0) = m k := by
  rw [← sum_select k sel hsel m]
  exact Finset.sum_congr rfl (fun g _ => mul_comm _ _)

/-! ## Associativity -/

/-- Addition of extended reals is associative (it is a commutative monoid, infinities included). -/
theorem add3 (x y z : EReal) : x + (y + z) = x + y + z := (add_assoc x y z).symm

/-! ## Casts of real sums and maxima -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals commutes with `max`. -/
theorem coe_max (x y : ℝ) : ((max x y : ℝ) : EReal) = max (x : EReal) (y : EReal) :=
  EReal.coe_strictMono.monotone.map_max

/-- The numeral `2` of the extended reals is the real `2`. -/
theorem two_eq_coe : (2 : EReal) = ((2 : ℝ) : EReal) := by norm_cast

/-- A sum of ones counts the set. -/
theorem sum_one_eq_card {ι : Type*} (s : Finset ι) : ∑ _i ∈ s, (1 : EReal) = ((s.card : ℝ) : EReal) := by
  have h : (s.card : ℝ) = ∑ _i ∈ s, (1 : ℝ) := by rw [Finset.sum_const, nsmul_eq_mul, mul_one]
  rw [h, coe_sum]
  simp only [EReal.coe_one]

/-! ## The variance identity over the reals -/

/-- With `c = max (card s) 1` and `m = S₁ / c`: the mean of the squared deviations from `m·α`
    is `S₂/c - (2α - α²)·m²`. On the empty set both sides are `0`; otherwise `c = card s`,
    `S₁ = c·m`, and `∑ (h - mα)² = S₂ - 2·mα·S₁ + card·(mα)²`. -/
theorem var_identity_real_aux {ι : Type*} (s : Finset ι) (h : ι → ℝ) (α c m : ℝ)
    (hc : c = max (s.card : ℝ) 1) (hm : m = (∑ i ∈ s, h i) / c) :
    (∑ i ∈ s, (h i - m * α) * (h i - m * α)) / c
      = (∑ i ∈ s, h i * h i) / c - (2 * α - α * α) * (m * m) := by
  have hcpos : 0 < c := by rw [hc]; exact lt_of_lt_of_le one_pos (le_max_right _ _)
  have hcne : c ≠ 0 := hcpos.ne'
  have hS1m : (∑ i ∈ s, h i) = c * m := by rw [hm]; field_simp
  have hcard : (s.card : ℝ) * (m * m) = c * (m * m) := by
    rcases s.eq_empty_or_nonempty with he | hne
    · have h0 : m = 0 := by rw [hm, he]; simp
      rw [h0]; ring
    · have h1 : (1 : ℝ) ≤ s.card := by exact_mod_cast hne.card_pos
      rw [hc, max_eq_left h1]
  have hexp : ∑ i ∈ s, (h i - m * α) * (h i - m * α)
      = (∑ i ∈ s, h i * h i) - 2 * (m * α) * (∑ i ∈ s, h i) + s.card * (m * α * (m * α)) := by
    have hpt : ∀ i, (h i - m * α) * (h i - m * α) = h i * h i - 2 * (m * α) * h i + m * α * (m * α) :=
      fun i => by ring
    rw [Finset.sum_congr rfl (fun i _ => hpt i), Finset.sum_add_distrib, Finset.sum_sub_distrib,
      ← Finset.mul_sum, Finset.sum_const, nsmul_eq_mul]
  have hcard' : (s.card : ℝ) * (m * α * (m * α)) = c * (m * m) * (α * α) := by
    rw [← hcard]; ring
  rw [hexp, hcard', hS1m]
  field_simp
  ring

/-- The variance identity with the mean written out. -/
theorem var_identity_real {ι : Type*} (s : Finset ι) (h : ι → ℝ) (α c : ℝ) (hc : c = max (s.card : ℝ) 1) :
    (∑ i ∈ s, (h i - (∑ i ∈ s, h i) / c * α) * (h i - (∑ i ∈ s, h i) / c * α)) / c
      = (∑ i ∈ s, h i * h i) / c
        - (2 * α - α * α) * ((∑ i ∈ s, h i) / c * ((∑ i ∈ s, h i) / c)) :=
  var_identity_real_aux s h α c _ hc rfl

/-- The mean of squared deviations is nonnegative. -/
theorem var_nonneg_real {ι : Type*} (s : Finset ι) (h : ι → ℝ) (α c m : ℝ) (hc : c = max (s.card : ℝ) 1) :
    0 ≤ (∑ i ∈ s, (h i - m * α) * (h i - m * α)) / c := by
  have hcpos : 0 < c := by rw [hc]; exact lt_of_lt_of_le one_pos (le_max_right _ _)
  exact div_nonneg (Finset.sum_nonneg (fun i _ => mul_self_nonneg _)) hcpos.le

/-- The one-pass variance, clamped at `0`, is the two-pass variance: the clamp is idle. -/
theorem var_identity_real_max {ι : Type*} (s : Finset ι) (h : ι → ℝ) (α c m : ℝ)
    (hc : c = max (s.card : ℝ) 1) (hm : m = (∑ i ∈ s, h i) / c) :
    max ((∑ i ∈ s, h i * h i) / c - (2 * α - α * α) * (m * m)) 0
      = (∑ i ∈ s, (h i - m * α) * (h i - m * α)) / c := by
  rw [← var_identity_real_aux s h α c m hc hm]
  exact max_eq_left (var_nonneg_real s h α c m hc)

/-! ## The variance identity over the extended reals -/

/-- The variance identity for extended-real data that happen to be real: the count
    `c = max (0 + ∑ 1) 1`, the sums `S₁ = 0 + ∑ h`, `S₂ = 0 + ∑ h·h` and the mean `m = S₁ / c`
    enter through equations, so that any spelling of them can be supplied. -/
theorem var_identity_gen {ι : Type*} (s : Finset ι) (h : ι → EReal) (hh : ∀ i ∈ s, ∃ r : ℝ, h i = r)
    (α : EReal) (hα : ∃ r : ℝ, α = r) (cE S1E S2E mE : EReal)
    (hcE : cE = max ((0 : EReal) + ∑ _i ∈ s, (1 : EReal)) 1)
    (hS1 : S1E = (0 : EReal) + ∑ i ∈ s, h i) (hS2 : S2E = (0 : EReal) + ∑ i ∈ s, h i * h i)
    (hmE : mE = S1E / cE) :
    max (S2E / cE - (2 * α - α * α) * (mE * mE)) 0
      = ((0 : EReal) + ∑ i ∈ s, (h i - mE * α) * (h i - mE * α)) / cE := by
  obtain ⟨a, rfl⟩ := hα
  have hcoe : ∀ i ∈ s, h i = (((h i).toReal : ℝ) : EReal) := by
    intro i hi
    obtain ⟨r, hr⟩ := hh i hi
    rw [hr, EReal.toReal_coe]
  have hc' : cE = ((max (s.card : ℝ) 1 : ℝ) : EReal) := by
    rw [hcE, zero_add, sum_one_eq_card, coe_max, EReal.coe_one]
  have hS1' : S1E = ((∑ i ∈ s, (h i).toReal : ℝ) : EReal) := by
    rw [hS1, zero_add, coe_sum]
    exact Finset.sum_congr rfl hcoe
  have hS2' : S2E = ((∑ i ∈ s, (h i).toReal * (h i).toReal : ℝ) : EReal) := by
    rw [hS2, zero_add, coe_sum]
    refine Finset.sum_congr rfl (fun i hi => ?_)
    rw [EReal.coe_mul, ← hcoe i hi]
  have hm' : mE = (((∑ i ∈ s, (h i).toReal) / max (s.card : ℝ) 1 : ℝ) : EReal) := by
    rw [hmE, hS1', hc', EReal.coe_div]
  have hsum : (0 : EReal) + ∑ i ∈ s, (h i - mE * (a : EReal)) * (h i - mE * (a : EReal))
      = ((∑ i ∈ s, ((h i).toReal - (∑ i ∈ s, (h i).toReal) / max (s.card : ℝ) 1 * a)
            * ((h i).toReal - (∑ i ∈ s, (h i).toReal) / max (s.card : ℝ) 1 * a) : ℝ) : EReal) := by
    rw [zero_add, coe_sum]
    refine Finset.sum_congr rfl (fun i hi => ?_)
    rw [EReal.coe_mul, EReal.coe_sub, EReal.coe_mul, ← hcoe i hi, ← hm']
  rw [hsum, hS2', hc', hm', two_eq_coe, ← EReal.coe_div, ← EReal.coe_div, ← EReal.coe_mul (2 : ℝ) a,
    ← EReal.coe_mul a a, ← EReal.coe_sub, ← EReal.coe_mul (_ / _) (_ / _), ← EReal.coe_mul, ← EReal.coe_sub,
    ← EReal.coe_zero, ← coe_max,
    var_identity_real_max s (fun i => (h i).toReal) a _ _ rfl rfl]

/-- The variance identity with every quantity written out: count `max (0 + ∑ 1) 1`, mean
    `(0 + ∑ h) / count`. -/
theorem var_identity {ι : Type*} (s : Finset ι) (h : ι → EReal) (hh : ∀ i ∈ s, ∃ r : ℝ, h i = r)
    (α : EReal) (hα : ∃ r : ℝ, α = r) :
    max (((0 : EReal) + ∑ i ∈ s, h i * h i) / max ((0 : EReal) + ∑ _i ∈ s, (1 : EReal)) 1
        - (2 * α - α * α)
          * ((((0 : EReal) + ∑ i ∈ s, h i) / max ((0 : EReal) + ∑ _i ∈ s, (1 : EReal)) 1)
            * (((0 : EReal) + ∑ i ∈ s, h i) / max ((0 : EReal) + ∑ _i ∈ s, (1 : EReal)) 1))) 0
      = ((0 : EReal) + ∑ i ∈ s,
          (h i - ((0 : EReal) + ∑ i ∈ s, h i) / max ((0 : EReal) + ∑ _i ∈ s, (1 : EReal)) 1 * α)
          * (h i - ((0 : EReal) + ∑ i ∈ s, h i) / max ((0 : EReal) + ∑ _i ∈ s, (1 : EReal)) 1 * α))
        / max ((0 : EReal) + ∑ _i ∈ s, (1 : EReal)) 1 :=
  var_identity_gen s h hh α hα _ _ _ _ rfl rfl rfl rfl

/-! ## Division with the zero-divisor corner -/

open Idealize.ShloMosaic in
/-- Off a zero divisor, the division with corners is the extended reals' `x * y⁻¹`. -/
theorem idealDiv_eq_div {x y : EReal} (hy : y ≠ 0) : Ideal.div x y = x / y := by
  rw [Ideal.div, if_neg hy, div_eq_mul_inv]

/-- The clamped count is at least one, hence not zero. -/
theorem count_ne_zero (n : EReal) : max n 1 ≠ 0 :=
  ne_of_gt (lt_of_lt_of_le zero_lt_one (le_max_right n 1))

open Idealize.ShloMosaic in
/-- The variance identity with the division with corners (the count is never zero). -/
theorem var_identity_idealDiv {ι : Type*} (s : Finset ι) (h : ι → EReal)
    (hh : ∀ i ∈ s, ∃ r : ℝ, h i = r) (α : EReal) (hα : ∃ r : ℝ, α = r) (cE S1E S2E mE : EReal)
    (hcE : cE = max ((0 : EReal) + ∑ _i ∈ s, (1 : EReal)) 1)
    (hS1 : S1E = (0 : EReal) + ∑ i ∈ s, h i) (hS2 : S2E = (0 : EReal) + ∑ i ∈ s, h i * h i)
    (hmE : mE = Ideal.div S1E cE) :
    max (Ideal.div S2E cE - (2 * α - α * α) * (mE * mE)) 0
      = Ideal.div ((0 : EReal) + ∑ i ∈ s, (h i - mE * α) * (h i - mE * α)) cE := by
  have hne : cE ≠ 0 := by rw [hcE]; exact count_ne_zero _
  rw [idealDiv_eq_div hne] at hmE
  rw [idealDiv_eq_div hne, idealDiv_eq_div hne]
  exact var_identity_gen s h hh α hα cE S1E S2E mE hcE hS1 hS2 hmE

/-! ## Realness

`IsReal x`: the extended real `x` is a real number. Closed under the field operations, finite
sums, `max`/`min`, division by a nonzero real, and the reciprocal square root of a positive real. -/

/-- An extended real that is a real number. -/
abbrev IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩
theorem isReal_two : IsReal (2 : EReal) := ⟨2, two_eq_coe⟩
theorem isReal_natCast (n : ℕ) : IsReal (n : EReal) := ⟨n, rfl⟩

theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.ne_top {x : EReal} (hx : IsReal x) : x ≠ ⊤ := (isReal_iff.1 hx).1
theorem IsReal.ne_bot {x : EReal} (hx : IsReal x) : x ≠ ⊥ := (isReal_iff.1 hx).2

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_neg {x : EReal} (hx : IsReal x) : IsReal (-x) := by
  obtain ⟨a, rfl⟩ := hx
  exact ⟨-a, (EReal.coe_neg a).symm⟩

theorem isReal_max {x y : EReal} (hx : IsReal x) (hy : IsReal y) : IsReal (max x y) := by
  obtain ⟨a, rfl⟩ := hx
  obtain ⟨b, rfl⟩ := hy
  exact ⟨max a b, (coe_max a b).symm⟩

theorem isReal_min {x y : EReal} (hx : IsReal x) (hy : IsReal y) : IsReal (min x y) := by
  obtain ⟨a, rfl⟩ := hx
  obtain ⟨b, rfl⟩ := hy
  exact ⟨min a b, (EReal.coe_strictMono.monotone.map_min).symm⟩

theorem isReal_ite {p : Prop} [Decidable p] {x y : EReal} (hx : IsReal x) (hy : IsReal y) :
    IsReal (if p then x else y) := by
  by_cases hp : p
  · rw [if_pos hp]; exact hx
  · rw [if_neg hp]; exact hy

/-- A 0/1 indicator is real. -/
theorem isReal_ind (p : Prop) [Decidable p] : IsReal (if p then (1 : EReal) else 0) :=
  isReal_ite isReal_one isReal_zero

theorem isReal_sum {ι : Type*} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact isReal_add (hf a (Finset.mem_insert_self a s))
      (ih (fun i hi => hf i (Finset.mem_insert_of_mem hi)))

theorem isReal_sum_univ {ι : Type*} [Fintype ι] (f : ι → EReal) (hf : ∀ i, IsReal (f i)) :
    IsReal (∑ i, f i) :=
  isReal_sum _ f (fun i _ => hf i)

theorem isReal_sum_mul {ι : Type*} (s : Finset ι) (f g : ι → EReal) (hf : ∀ i ∈ s, IsReal (f i))
    (hg : ∀ i ∈ s, IsReal (g i)) : IsReal (∑ i ∈ s, f i * g i) :=
  isReal_sum s _ (fun i hi => isReal_mul (hf i hi) (hg i hi))

theorem isReal_sum_univ_mul {ι : Type*} [Fintype ι] (f g : ι → EReal) (hf : ∀ i, IsReal (f i))
    (hg : ∀ i, IsReal (g i)) : IsReal (∑ i, f i * g i) :=
  isReal_sum_univ _ (fun i => isReal_mul (hf i) (hg i))

/-- An accumulator plus a finite sum of products (a matrix product's entry) is real. -/
theorem isReal_acc_sum_mul {ι : Type*} [Fintype ι] {acc : EReal} (f g : ι → EReal) (hacc : IsReal acc)
    (hf : ∀ i, IsReal (f i)) (hg : ∀ i, IsReal (g i)) : IsReal (acc + ∑ i, f i * g i) :=
  isReal_add hacc (isReal_sum_univ_mul f g hf hg)

/-- The extended reals' quotient of two reals is real (by `0` it is `0`). -/
theorem isReal_div {x y : EReal} (hx : IsReal x) (hy : IsReal y) : IsReal (x / y) := by
  obtain ⟨a, rfl⟩ := hx
  obtain ⟨b, rfl⟩ := hy
  exact ⟨a / b, (EReal.coe_div a b).symm⟩

open Idealize.ShloMosaic in
/-- The division with corners of two reals is real when the divisor is not zero. -/
theorem isReal_idealDiv {x y : EReal} (hx : IsReal x) (hy : IsReal y) (hy0 : y ≠ 0) :
    IsReal (Ideal.div x y) := by
  rw [idealDiv_eq_div hy0]
  exact isReal_div hx hy

/-- The clamped count of a finite set is real. -/
theorem isReal_count {ι : Type*} (s : Finset ι) :
    IsReal (max ((0 : EReal) + ∑ _i ∈ s, (1 : EReal)) 1) :=
  isReal_max (isReal_add isReal_zero (isReal_sum s _ (fun _ _ => isReal_one))) isReal_one

open Idealize.ShloMosaic in
/-- The reciprocal square root of a positive real is real. -/
theorem isReal_rsqrt {x : EReal} (hx : IsReal x) (hpos : 0 < x) : IsReal (Ideal.rsqrt x) := by
  obtain ⟨r, rfl⟩ := hx
  have hr : 0 < r := EReal.coe_pos.1 hpos
  refine ⟨(Real.sqrt r)⁻¹, ?_⟩
  rw [Ideal.rsqrt_coe, if_neg (not_lt.2 hr.le), if_neg hr.ne']

open Idealize.ShloMosaic in
/-- The reciprocal square root of a nonnegative real plus a positive real is real. -/
theorem isReal_rsqrt_add {v e : EReal} (hv : IsReal v) (h0 : 0 ≤ v) (he : IsReal e) (hepos : 0 < e) :
    IsReal (Ideal.rsqrt (v + e)) := by
  refine isReal_rsqrt (isReal_add hv he) ?_
  calc (0 : EReal) < e := hepos
    _ = 0 + e := (zero_add e).symm
    _ ≤ v + e := add_le_add h0 le_rfl

end GcnAlgebra
-- ==== Proof.KV.RefRead.lean ====
/-
  The reference's scatter-adds and gathers read at an index, at the ideal instance (floats are extended reals,
  operations exact). A scatter-add into rows: element (g, q) of the result is the operand's element plus the sum of
  the updates' column q over the rows whose index is g. A row gather whose start index is the in-range g reads the
  operand's row g. Stated for every size, then at the program's records.
-/
import proofs.«430542_j72688026518114_3_alg».proof.Proof.Gen.ReferenceIdeal.Read
import Idealize.ShloMosaic.Lib.ValueIdx
import Idealize.ShloMosaic.PureOps.Ideal
import Idealize.ShloMosaic.PureOps.Ideal.Laws
import Idealize.ShloMosaic.Lib.IdealHost

noncomputable section

open scoped BigOperators

namespace Cert.ReferenceIdeal.RefRead

open Cert.ReferenceIdeal Cert.ReferenceIdeal.Gen Cert.ReferenceIdeal.Read Idealize.ShloMosaic Idealize.ShloMosaic.ValueIdx

/-! ## A row scatter-add read at an index -/

section Rows
variable {G Q N : Nat}

/-- The dimension numbers of a row scatter: operand `[G, Q]`, scatter indices `[N, 1]`, updates `[N, Q]`; update row
    `i` is added to operand row `idx[i, 0]`. -/
abbrev rowsDims (wf : ScatterDims.WF ⟨2, ![G, Q]⟩ ⟨2, ![N, 1]⟩ ⟨2, ![N, Q]⟩ [1] [0] [0] 1) :
    ScatterDims ⟨2, ![G, Q]⟩ ⟨2, ![N, 1]⟩ ⟨2, ![N, Q]⟩ where
  updateWindowDims := [1]
  insertedWindowDims := [0]
  scatterDimsToOperandDims := [0]
  indexVectorDim := 1
  wf := wf

variable (wf : ScatterDims.WF ⟨2, ![G, Q]⟩ ⟨2, ![N, 1]⟩ ⟨2, ![N, Q]⟩ [1] [0] [0] 1)

theorem rowsDims_start0 {w : Nat} (idx : IVec ⟨2, ![N, 1]⟩ w) (i : Fin N) (q' : Fin Q) :
    (rowsDims wf).start (ix2 i q') idx 0 = (idx (ix2 i 0)).toInt := by
  unfold ScatterDims.start
  rw [dif_pos (show (0 : Fin 2) ∈ (rowsDims wf).scatterDimsToOperandDims from List.mem_singleton.mpr rfl)]
  have hsi : (rowsDims wf).siIdx (ix2 i q') ⟨List.idxOf (0 : Fin 2) (rowsDims wf).scatterDimsToOperandDims,
      List.idxOf_lt_length_iff.2 (List.mem_singleton.mpr rfl)⟩ = ix2 i 0 := by
    funext b; refine Fin.ext ?_
    match b with
    | ⟨0, _⟩ => rfl
    | ⟨1, _⟩ => rfl
  rw [hsi]

theorem rowsDims_start1 {w : Nat} (idx : IVec ⟨2, ![N, 1]⟩ w) (i : Fin N) (q' : Fin Q) :
    (rowsDims wf).start (ix2 i q') idx 1 = 0 := by
  unfold ScatterDims.start
  rw [dif_neg (fun h => absurd (List.mem_singleton.mp h) (show ¬((1 : Fin 2) = 0) by decide))]

theorem rowsDims_sKept : (rowsDims wf).sKept = [(1 : Fin 2)] := rfl

theorem rowsDims_window0 (i : Fin N) (q' : Fin Q) : (rowsDims wf).window (ix2 i q') 0 = 0 := by
  unfold ScatterDims.window
  rw [dif_neg (by rw [rowsDims_sKept]; exact fun h => absurd (List.mem_singleton.mp h) (show ¬((0 : Fin 2) = 1) by decide))]

theorem rowsDims_window1 (i : Fin N) (q' : Fin Q) : (rowsDims wf).window (ix2 i q') 1 = q'.val := by
  unfold ScatterDims.window
  rw [dif_pos (by rw [rowsDims_sKept]; exact List.mem_singleton.mpr rfl)]
  rfl

end Rows

/-- A signed 32-bit word reads as the natural `g` below `2^31` exactly when it is the word of `g`. -/
theorem toInt_eq_iff (x : BitVec 32) (g : Nat) (hg : g < 2147483648) : x.toInt = (g : Int) ↔ x = BitVec.ofNat 32 g := by
  constructor
  · intro h
    apply BitVec.eq_of_toNat_eq
    rw [BitVec.toNat_ofNat]
    rw [BitVec.toInt_eq_toNat_cond] at h
    have := x.isLt
    split at h <;> omega
  · rintro rfl
    rw [BitVec.toInt_eq_toNat_cond, BitVec.toNat_ofNat]
    split <;> omega

/-- An update lands at operand index `r` exactly when, on every axis, start plus window coordinate is `r`'s coordinate. -/
theorem resultIdx?_eq_some_iff {s si u : Shape} (d : ScatterDims s si u) {w : Nat} (j : u.Idx) (idx : IVec si w) (r : s.Idx) :
    d.resultIdx? j idx = some r ↔ ∀ a, d.start j idx a + (d.window j a : Int) = ((r a).val : Int) := by
  unfold ScatterDims.resultIdx?
  constructor
  · intro h
    split at h
    · rename_i hc
      intro a
      have h' := Option.some.inj h
      subst h'
      have := hc a
      show _ = (((d.start j idx a + (d.window j a : Int)).toNat : Nat) : Int)
      omega
    · exact absurd h (by simp)
  · intro h
    have hc : ∀ a, 0 ≤ d.start j idx a + (d.window j a : Int) ∧ d.start j idx a + (d.window j a : Int) < s.size a := by
      intro a
      rw [h a]
      exact ⟨Int.natCast_nonneg _, by exact_mod_cast (r a).isLt⟩
    rw [dif_pos hc]
    congr 1
    funext a
    apply Fin.ext
    show (d.start j idx a + (d.window j a : Int)).toNat = (r a).val
    rw [h a]
    exact Int.toNat_natCast _

section Rows2
variable {G Q N : Nat} (wf : ScatterDims.WF ⟨2, ![G, Q]⟩ ⟨2, ![N, 1]⟩ ⟨2, ![N, Q]⟩ [1] [0] [0] 1)

/-- Update element `(i, q')` lands at operand element `(g, q)` exactly when row `i`'s index is `g` and `q' = q`. -/
theorem rowsDims_resultIdx (hG : G ≤ 2147483648) (idx : IVec ⟨2, ![N, 1]⟩ 32) (i : Fin N) (q' : Fin Q) (g : Fin G) (q : Fin Q) :
    (rowsDims wf).resultIdx? (ix2 i q') idx = some (ix2 g q) ↔ idx (ix2 i 0) = BitVec.ofNat 32 g.val ∧ q' = q := by
  rw [resultIdx?_eq_some_iff, Fin.forall_fin_two]
  have e0 := rowsDims_start0 wf idx i q'
  have e1 := rowsDims_start1 wf idx i q'
  have w0 := rowsDims_window0 wf i q'
  have w1 := rowsDims_window1 wf i q'
  rw [e0, e1, w0, w1]
  have hg : g.val < 2147483648 := lt_of_lt_of_le g.isLt hG
  rw [← toInt_eq_iff _ _ hg]
  show (idx (ix2 i 0)).toInt + ((0 : Nat) : Int) = (g.val : Int) ∧ (0 : Int) + (q'.val : Int) = (q.val : Int) ↔ _
  constructor
  · rintro ⟨h0, h1⟩
    exact ⟨by omega, Fin.ext (by omega)⟩
  · rintro ⟨h0, rfl⟩
    exact ⟨by omega, by omega⟩

/-- THE ROW SCATTER-ADD READ AT `(g, q)`: the operand's element plus the updates' column `q` summed over the rows whose
    index is `g`. -/
theorem scatterAdd_rowsDims (hG : G ≤ 2147483648) (x : FVec Ideal ⟨2, ![G, Q]⟩ .f32) (idx : IVec ⟨2, ![N, 1]⟩ 32)
    (u : FVec Ideal ⟨2, ![N, Q]⟩ .f32) (g : Fin G) (q : Fin Q) :
    Host.scatterAdd (F := Ideal) (rowsDims wf) x idx u (ix2 g q)
      = x (ix2 g q) + ∑ i ∈ Finset.univ.filter (fun i : Fin N => idx (ix2 i 0) = BitVec.ofNat 32 g.val), u (ix2 i q) := by
  show x (ix2 g q) + ∑ j ∈ Finset.univ.filter (fun j => (rowsDims wf).resultIdx? j idx = some (ix2 g q)), u j = _
  congr 1
  rw [Finset.sum_filter, sum_idx2, Finset.sum_filter]
  refine Finset.sum_congr rfl fun a _ => ?_
  rw [Finset.sum_eq_single q]
  · exact if_congr ((rowsDims_resultIdx wf hG idx a q g q).trans (and_iff_left rfl)) rfl rfl
  · intro b _ hb
    exact if_neg (fun h => hb ((rowsDims_resultIdx wf hG idx a b g q).mp h).2)
  · intro h; exact absurd (Finset.mem_univ q) h

end Rows2

/-! ## A rank-1 scatter-add (a count) read at an index -/

section Count
variable {G N : Nat}

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a rank-1 scatter: operand `[G]`, scatter indices `[N, 1]`, updates `[N]`; update `i` is
    added to operand element `idx[i, 0]`. -/
abbrev countDims (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable (wf : ScatterDims.WF ⟨1, ![G]⟩ ⟨2, ![N, 1]⟩ ⟨1, ![N]⟩ [] [0] [0] 1)

theorem countDims_start0 {w : Nat} (idx : IVec ⟨2, ![N, 1]⟩ w) (i : Fin N) :
    (countDims wf).start (ix1 i) idx 0 = (idx (ix2 i 0)).toInt := by
  unfold ScatterDims.start
  rw [dif_pos (show (0 : Fin 1) ∈ (countDims wf).scatterDimsToOperandDims from List.mem_singleton.mpr rfl)]
  have hsi : (countDims wf).siIdx (ix1 i) ⟨List.idxOf (0 : Fin 1) (countDims wf).scatterDimsToOperandDims,
      List.idxOf_lt_length_iff.2 (List.mem_singleton.mpr rfl)⟩ = ix2 i 0 := by
    funext b; refine Fin.ext ?_
    match b with
    | ⟨0, _⟩ => rfl
    | ⟨1, _⟩ => rfl
  rw [hsi]

theorem countDims_sKept : (countDims wf).sKept = ([] : List (Fin 1)) := rfl

theorem countDims_window0 (i : Fin N) : (countDims wf).window (ix1 i) 0 = 0 := by
  unfold ScatterDims.window
  rw [dif_neg (by rw [countDims_sKept]; exact List.not_mem_nil)]

/-- Update element `i` lands at operand element `g` exactly when its index is `g`. -/
theorem countDims_resultIdx (hG : G ≤ 2147483648) (idx : IVec ⟨2, ![N, 1]⟩ 32) (i : Fin N) (g : Fin G) :
    (countDims wf).resultIdx? (ix1 i) idx = some (ix1 g) ↔ idx (ix2 i 0) = BitVec.ofNat 32 g.val := by
  rw [resultIdx?_eq_some_iff, Fin.forall_fin_one]
  have e0 := countDims_start0 wf idx i
  have w0 := countDims_window0 wf i
  rw [e0, w0]
  have hg : g.val < 2147483648 := lt_of_lt_of_le g.isLt hG
  rw [← toInt_eq_iff _ _ hg]
  show (idx (ix2 i 0)).toInt + ((0 : Nat) : Int) = (g.val : Int) ↔ _
  constructor
  · intro h0; omega
  · intro h0; omega

/-- THE RANK-1 SCATTER-ADD READ AT `g`: the operand's element plus the updates summed over the positions whose index
    is `g`. -/
theorem scatterAdd_countDims (hG : G ≤ 2147483648) (x : FVec Ideal ⟨1, ![G]⟩ .f32) (idx : IVec ⟨2, ![N, 1]⟩ 32)
    (u : FVec Ideal ⟨1, ![N]⟩ .f32) (g : Fin G) :
    Host.scatterAdd (F := Ideal) (countDims wf) x idx u (ix1 g)
      = x (ix1 g) + ∑ i ∈ Finset.univ.filter (fun i : Fin N => idx (ix2 i 0) = BitVec.ofNat 32 g.val), u (ix1 i) := by
  show x (ix1 g) + ∑ j ∈ Finset.univ.filter (fun j => (countDims wf).resultIdx? j idx = some (ix1 g)), u j = _
  congr 1
  rw [Finset.sum_filter, sum_idx1, Finset.sum_filter]
  refine Finset.sum_congr rfl fun a _ => ?_
  exact if_congr (countDims_resultIdx wf hG idx a g) rfl rfl

end Count

/-! ## A row gather read at an index whose start index is in range -/

section Gather
variable {α : Type} {G Q N : Nat}

/-- The dimension numbers of a row gather: operand `[G, Q]`, start indices `[N, 1]`, result `[N, Q]`; result row `i`
    is operand row `idx[i, 0]`. -/
abbrev gatherRowsDims (wf : GatherDims.WF ⟨2, ![G, Q]⟩ ⟨2, ![N, 1]⟩ ⟨2, ![N, Q]⟩ [1] [0] [] [0] [] 1 ![1, Q]) :
    GatherDims ⟨2, ![G, Q]⟩ ⟨2, ![N, 1]⟩ ⟨2, ![N, Q]⟩ where
  offsetDims := [1]
  collapsedSliceDims := [0]
  operandBatchingDims := []
  startIndicesBatchingDims := []
  startIndexMap := [0]
  indexVectorDim := 1
  sliceSizes := ![1, Q]
  wf := wf

variable (wf : GatherDims.WF ⟨2, ![G, Q]⟩ ⟨2, ![N, 1]⟩ ⟨2, ![N, Q]⟩ [1] [0] [] [0] [] 1 ![1, Q])

theorem gatherRowsDims_sKept : (gatherRowsDims wf).sKept = [(1 : Fin 2)] := rfl

/-- THE ROW GATHER READ AT `(i, q)` when row `i`'s start index is the in-range `g`: the operand at `(g, q)`. -/
theorem gather_rowsDims (hG : G ≤ 2147483648) (x : (⟨2, ![G, Q]⟩ : Shape).Idx → α) (idx : IVec ⟨2, ![N, 1]⟩ 32)
    (i : Fin N) (q : Fin Q) (g : Fin G) (h : idx (ix2 i 0) = BitVec.ofNat 32 g.val) :
    Host.gather (gatherRowsDims wf) x idx (ix2 i q) = x (ix2 g q) := by
  unfold Host.gather
  congr 1
  funext a
  refine Fin.ext ?_
  have hg : g.val < 2147483648 := lt_of_lt_of_le g.isLt hG
  match a with
  | ⟨0, _⟩ =>
    show (gatherRowsDims wf).start (ix2 i q) idx 0 + (gatherRowsDims wf).batchCoord (ix2 i q) 0
      + (gatherRowsDims wf).offCoord (ix2 i q) 0 = g.val
    rw [GatherDims.batchCoord_eq_zero _ _ _ List.not_mem_nil,
      GatherDims.offCoord_eq_zero _ _ _ (by rw [gatherRowsDims_sKept]; exact fun h => absurd (List.mem_singleton.mp h) (show ¬((0 : Fin 2) = 1) by decide))]
    simp only [Nat.add_zero]
    unfold GatherDims.start
    rw [dif_pos (show (0 : Fin 2) ∈ (gatherRowsDims wf).startIndexMap from List.mem_singleton.mpr rfl)]
    have hsi : (gatherRowsDims wf).siIdx (ix2 i q) ⟨List.idxOf (0 : Fin 2) (gatherRowsDims wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi, h, (toInt_eq_iff _ _ hg).mpr rfl]
    show min ((g.val : Int)).toNat (G - 1) = g.val
    have := g.isLt
    rw [Int.toNat_natCast]
    omega
  | ⟨1, _⟩ =>
    show (gatherRowsDims wf).start (ix2 i q) idx 1 + (gatherRowsDims wf).batchCoord (ix2 i q) 1
      + (gatherRowsDims wf).offCoord (ix2 i q) 1 = q.val
    rw [GatherDims.batchCoord_eq_zero _ _ _ List.not_mem_nil]
    have hs : (gatherRowsDims wf).start (ix2 i q) idx 1 = 0 := by
      unfold GatherDims.start
      rw [dif_neg (fun h => absurd (List.mem_singleton.mp h) (show ¬((1 : Fin 2) = 0) by decide))]
    have ho : (gatherRowsDims wf).offCoord (ix2 i q) 1 = q.val := by
      unfold GatherDims.offCoord
      rw [dif_pos (by rw [gatherRowsDims_sKept]; exact List.mem_singleton.mpr rfl)]
      rfl
    rw [hs, ho]
    omega

end Gather

/-! ## At the program's records -/

/-- The row scatter-add of the program at `(g, q)`. -/
theorem scatterAdd_rows (x : FVec Ideal S64x512 .f32) (idx : IVec S50000x1 32) (u : FVec Ideal S50000x512 .f32)
    (g : Fin 64) (q : Fin 512) :
    Host.scatterAdd (F := Ideal) scatter_S64x512_S50000x1_S50000x512_1_0_0_1 x idx u (ix2 g q)
      = x (ix2 g q) + ∑ i ∈ Finset.univ.filter (fun i : Fin 50000 => idx (ix2 i 0) = BitVec.ofNat 32 g.val), u (ix2 i q) :=
  scatterAdd_rowsDims _ (by omega) x idx u g q

/-- The count scatter-add of the program at `g`. -/
theorem scatterAdd_count (x : FVec Ideal S64 .f32) (idx : IVec S50000x1 32) (u : FVec Ideal S50000 .f32) (g : Fin 64) :
    Host.scatterAdd (F := Ideal) scatter_S64_S50000x1_S50000_n_0_0_1 x idx u (ix1 g)
      = x (ix1 g) + ∑ i ∈ Finset.univ.filter (fun i : Fin 50000 => idx (ix2 i 0) = BitVec.ofNat 32 g.val), u (ix1 i) :=
  scatterAdd_countDims _ (by omega) x idx u g

/-- The row gather of the program at `(i, q)` when row `i`'s start index is the in-range `g`. -/
theorem gather_rows {α : Type} (x : S64x512.Idx → α) (idx : IVec S50000x1 32) (i : Fin 50000) (q : Fin 512) (g : Fin 64)
    (h : idx (ix2 i 0) = BitVec.ofNat 32 g.val) :
    Host.gather gather_S64x512_S50000x1_S50000x512_1_0_n_n_0_1_1512 x idx (ix2 i q) = x (ix2 g q) :=
  gather_rowsDims _ (by omega) x idx i q g h

/-! ## The normalised ids: an id in range is kept -/

/-- A word below 64 is not negative. -/
theorem slt_zero_of_small : ∀ g : Fin 64, IntOp.cmpi .slt (BitVec.ofNat 32 g.val) 0#32 = 0#1 := by decide

/-- The ids the first gather reads are the batch ids where those are in range. -/
theorem val_main_v67_in_range (x8 : (⟨S50000, .i32⟩ : BufTy).Contents (Elt Ideal)) (i : Fin 50000) (g : Fin 64)
    (hb : x8 (ix1 i) = BitVec.ofNat 32 g.val) : val_main_v67 (F := Ideal) x8 (ix2 i 0) = x8 (ix1 i) := by
  rw [val_main_v67_apply]
  have hi : idx_main_v67 (ix2 i 0) = ix1 i := by
    funext a; match a with | ⟨0, _⟩ => rfl
  rw [hi, val_main_v66_apply, val_main_v63_apply, val_main_v62_apply, val_main_c_13_apply, hb, slt_zero_of_small g]
  exact select_zero _ _

/-- The ids the second gather reads are the batch ids where those are in range. -/
theorem val_main_v90_in_range (x8 : (⟨S50000, .i32⟩ : BufTy).Contents (Elt Ideal)) (i : Fin 50000) (g : Fin 64)
    (hb : x8 (ix1 i) = BitVec.ofNat 32 g.val) : val_main_v90 (F := Ideal) x8 (ix2 i 0) = x8 (ix1 i) := by
  rw [val_main_v90_apply]
  have hi : idx_main_v90 (ix2 i 0) = ix1 i := by
    funext a; match a with | ⟨0, _⟩ => rfl
  rw [hi, val_main_v89_apply, val_main_v86_apply, val_main_v85_apply, val_main_c_17_apply, hb, slt_zero_of_small g]
  exact select_zero _ _

/-! ## The reference's normalisation read at an index -/

section Stages
variable (x0 : (⟨S50000x512, .f32⟩ : BufTy).Contents (Elt Ideal)) (x1 : (⟨S160000, .f32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S2x160000, .i32⟩ : BufTy).Contents (Elt Ideal)) (x8 : (⟨S50000, .i32⟩ : BufTy).Contents (Elt Ideal))

/-- The per-feature vectors broadcast to rows read their feature. -/
theorem val_main_v70_ix (i : Fin 50000) (q : Fin 512) : val_main_v70 (F := Ideal) x6 (ix2 i q) = x6 (ix1 q) := by
  rw [val_main_v70_apply, val_main_v69_apply]
  exact congrArg x6 (funext fun a => match a with | ⟨0, _⟩ => rfl)
theorem val_main_v83_ix (i : Fin 50000) (q : Fin 512) : val_main_v83 (F := Ideal) x4 (ix2 i q) = x4 (ix1 q) := by
  rw [val_main_v83_apply, val_main_v82_apply]
  exact congrArg x4 (funext fun a => match a with | ⟨0, _⟩ => rfl)
theorem val_main_v94_ix (i : Fin 50000) (q : Fin 512) : val_main_v94 (F := Ideal) x5 (ix2 i q) = x5 (ix1 q) := by
  rw [val_main_v94_apply, val_main_v93_apply]
  exact congrArg x5 (funext fun a => match a with | ⟨0, _⟩ => rfl)

/-- The scatter indices are the batch ids as a column. -/
theorem val_main_v52_ix (i : Fin 50000) : val_main_v52 (F := Ideal) x8 (ix2 i 0) = x8 (ix1 i) := by
  rw [val_main_v52_apply]
  exact congrArg x8 (funext fun a => match a with | ⟨0, _⟩ => rfl)
theorem val_main_v58_ix (i : Fin 50000) : val_main_v58 (F := Ideal) x8 (ix2 i 0) = x8 (ix1 i) := by
  rw [val_main_v58_apply]
  exact congrArg x8 (funext fun a => match a with | ⟨0, _⟩ => rfl)
theorem val_main_v75_ix (i : Fin 50000) : val_main_v75 (F := Ideal) x8 (ix2 i 0) = x8 (ix1 i) := by
  rw [val_main_v75_apply]
  exact congrArg x8 (funext fun a => match a with | ⟨0, _⟩ => rfl)

/-- The count broadcast to `[64, 512]` reads the group's count. -/
theorem val_main_v60_ix (g : Fin 64) (q : Fin 512) : val_main_v60 (F := Ideal) x8 (ix2 g q) = val_main_v55 (F := Ideal) x8 (ix1 g) := by
  rw [val_main_v60_apply, val_main_v56_apply]
  exact congrArg (val_main_v55 (F := Ideal) x8) (funext fun a => match a with | ⟨0, _⟩ => rfl)
theorem val_main_v77_ix (g : Fin 64) (q : Fin 512) : val_main_v77 (F := Ideal) x8 (ix2 g q) = val_main_v55 (F := Ideal) x8 (ix1 g) := by
  rw [val_main_v77_apply, val_main_v56_apply]
  exact congrArg (val_main_v55 (F := Ideal) x8) (funext fun a => match a with | ⟨0, _⟩ => rfl)

/-- THE COUNT of group `g`: the number of rows whose id is `g`, at least one. -/
theorem ref_cnt_apply (g : Fin 64) :
    val_main_v55 (F := Ideal) x8 (ix1 g)
      = max (0 + ∑ i ∈ Finset.univ.filter (fun i : Fin 50000 => x8 (ix1 i) = BitVec.ofNat 32 g.val), (1 : EReal)) 1 := by
  rw [val_main_v55_apply, val_main_v54_apply, val_main_cst_11_apply]
  have h53 : val_main_v53 (F := Ideal) x8 (ix1 g)
      = val_main_v51 (F := Ideal) (ix1 g) + ∑ i ∈ Finset.univ.filter (fun i : Fin 50000 => val_main_v52 (F := Ideal) x8 (ix2 i 0) = BitVec.ofNat 32 g.val), val_main_v50 (F := Ideal) (ix1 i) :=
    scatterAdd_count _ _ _ g
  rw [h53, val_main_v51_apply, val_main_cst_10_apply]
  simp only [val_main_v52_ix, val_main_v50_apply, val_main_cst_9_apply]
  rw [Ideal.maximumf_def, Ideal.ofBits_def, Ideal.ofBits_def, Ideal.ofBits_zero_f32, Ideal.ofBits_one_f32]

/-- The centered value of row `i`, feature `q`, when row `i`'s id is the in-range `g`. -/
theorem ref_centered_apply (i : Fin 50000) (q : Fin 512) (g : Fin 64) (hb : x8 (ix1 i) = BitVec.ofNat 32 g.val) :
    val_main_v72 (F := Ideal) x0 x1 x2 x3 x6 x7 x8 (ix2 i q)
      = val_main_v49 (F := Ideal) x0 x1 x2 x3 x7 (ix2 i q)
        - val_main_v61 (F := Ideal) x0 x1 x2 x3 x7 x8 (ix2 g q) * x6 (ix1 q) := by
  have h68 : val_main_v68 (F := Ideal) x0 x1 x2 x3 x7 x8 (ix2 i q) = val_main_v61 (F := Ideal) x0 x1 x2 x3 x7 x8 (ix2 g q) :=
    gather_rows _ _ i q g ((val_main_v67_in_range x8 i g hb).trans hb)
  rw [val_main_v72_apply, val_main_v71_apply, h68, val_main_v70_ix]
  rfl

/-- THE RESULT of the reference at row `i`, feature `q`, when row `i`'s id is the in-range `g`. -/
theorem ref_result_apply (i : Fin 50000) (q : Fin 512) (g : Fin 64) (hb : x8 (ix1 i) = BitVec.ofNat 32 g.val) :
    val_main_v96 (F := Ideal) x0 x1 x2 x3 x4 x5 x6 x7 x8 (ix2 i q)
      = max (x4 (ix1 q) * (val_main_v49 (F := Ideal) x0 x1 x2 x3 x7 (ix2 i q)
          - val_main_v61 (F := Ideal) x0 x1 x2 x3 x7 x8 (ix2 g q) * x6 (ix1 q))
          * val_main_v81 (F := Ideal) x0 x1 x2 x3 x6 x7 x8 (ix2 g q) + x5 (ix1 q)) 0 := by
  have h91 : val_main_v91 (F := Ideal) x0 x1 x2 x3 x6 x7 x8 (ix2 i q) = val_main_v81 (F := Ideal) x0 x1 x2 x3 x6 x7 x8 (ix2 g q) :=
    gather_rows _ _ i q g ((val_main_v90_in_range x8 i g hb).trans hb)
  have h0 : val_main_call1_v0 (F := Ideal) (ix2 i q) = 0 := by
    rw [val_main_call1_v0_apply, val_main_call1_cst_apply, Ideal.ofBits_def, Ideal.ofBits_zero_f32]
  rw [val_main_v96_apply, val_main_v95_apply, val_main_v92_apply, val_main_v84_apply,
    ref_centered_apply x0 x1 x2 x3 x6 x7 x8 i q g hb, h91, val_main_v83_ix, val_main_v94_ix, h0]
  rfl

/-- THE MEAN of group `g`, feature `q`: the sum of the rows of the group over the count. -/
theorem ref_mean_apply (g : Fin 64) (q : Fin 512) :
    val_main_v61 (F := Ideal) x0 x1 x2 x3 x7 x8 (ix2 g q)
      = Ideal.div (0 + ∑ i ∈ Finset.univ.filter (fun i : Fin 50000 => x8 (ix1 i) = BitVec.ofNat 32 g.val),
          val_main_v49 (F := Ideal) x0 x1 x2 x3 x7 (ix2 i q)) (val_main_v55 (F := Ideal) x8 (ix1 g)) := by
  rw [val_main_v61_apply, val_main_v60_ix]
  have h59 : val_main_v59 (F := Ideal) x0 x1 x2 x3 x7 x8 (ix2 g q)
      = val_main_v57 (F := Ideal) (ix2 g q) + ∑ i ∈ Finset.univ.filter (fun i : Fin 50000 => val_main_v58 (F := Ideal) x8 (ix2 i 0) = BitVec.ofNat 32 g.val), val_main_v49 (F := Ideal) x0 x1 x2 x3 x7 (ix2 i q) :=
    scatterAdd_rows _ _ _ g q
  rw [h59, val_main_v57_apply, val_main_cst_12_apply]
  simp only [val_main_v58_ix]
  rw [Ideal.hostDivf_def, Ideal.ofBits_def, Ideal.ofBits_zero_f32]

/-- THE VARIANCE of group `g`, feature `q`: the sum of the squared centered rows of the group over the count. -/
theorem ref_var_apply (g : Fin 64) (q : Fin 512) :
    val_main_v78 (F := Ideal) x0 x1 x2 x3 x6 x7 x8 (ix2 g q)
      = Ideal.div (0 + ∑ i ∈ Finset.univ.filter (fun i : Fin 50000 => x8 (ix1 i) = BitVec.ofNat 32 g.val),
          (val_main_v49 (F := Ideal) x0 x1 x2 x3 x7 (ix2 i q) - val_main_v61 (F := Ideal) x0 x1 x2 x3 x7 x8 (ix2 g q) * x6 (ix1 q))
          * (val_main_v49 (F := Ideal) x0 x1 x2 x3 x7 (ix2 i q) - val_main_v61 (F := Ideal) x0 x1 x2 x3 x7 x8 (ix2 g q) * x6 (ix1 q)))
          (val_main_v55 (F := Ideal) x8 (ix1 g)) := by
  rw [val_main_v78_apply, val_main_v77_ix]
  have h76 : val_main_v76 (F := Ideal) x0 x1 x2 x3 x6 x7 x8 (ix2 g q)
      = val_main_v74 (F := Ideal) (ix2 g q) + ∑ i ∈ Finset.univ.filter (fun i : Fin 50000 => val_main_v75 (F := Ideal) x8 (ix2 i 0) = BitVec.ofNat 32 g.val), val_main_v73 (F := Ideal) x0 x1 x2 x3 x6 x7 x8 (ix2 i q) :=
    scatterAdd_rows _ _ _ g q
  rw [h76, val_main_v74_apply, val_main_cst_15_apply]
  simp only [val_main_v75_ix]
  rw [Ideal.hostDivf_def, Ideal.ofBits_def, Ideal.ofBits_zero_f32]
  refine congrArg (fun s => Ideal.div (0 + s) (val_main_v55 (F := Ideal) x8 (ix1 g))) ?_
  refine Finset.sum_congr rfl fun i hi => ?_
  have hb := (Finset.mem_filter.mp hi).2
  rw [val_main_v73_apply, ref_centered_apply x0 x1 x2 x3 x6 x7 x8 i q g hb]
  rfl

/-- THE INVERSE DEVIATION of group `g`, feature `q`: the reciprocal square root of the variance plus the program's
    epsilon, kept as the word the program states. -/
theorem ref_inv_apply (g : Fin 64) (q : Fin 512) :
    val_main_v81 (F := Ideal) x0 x1 x2 x3 x6 x7 x8 (ix2 g q)
      = Ideal.rsqrt (val_main_v78 (F := Ideal) x0 x1 x2 x3 x6 x7 x8 (ix2 g q) + Ideal.ofBits .f32 0x3727C5AC#32) := by
  rw [val_main_v81_apply, val_main_v80_apply, val_main_v79_apply, val_main_cst_16_apply, Ideal.hostUnary_rsqrt_def,
    Ideal.addf_def, Ideal.ofBits_def]

end Stages

end Cert.ReferenceIdeal.RefRead

end
-- ==== Proof.KV.Stats.lean ====
/-
  The per-graph statistics of the two programs agree, pointwise, over the extended reals. For real-valued
  pre-normalisation activations h and a real scale a, with c the clamped node count of graph g:
  the kernel sums h and h·h against the one-hot rows of the graph indices and forms the mean m = S₁/c and the one-pass
  variance max (S₂/c − (2a − a²)·m², 0); the reference scatter-adds h into segments for the mean and then the squared
  deviations (h − m·a)² for the two-pass variance. A one-hot sum is the sum over the graph's nodes, the one-pass and
  the two-pass variances coincide (and are not negative, so the clamp is idle), hence the means and the reciprocal
  standard deviations coincide; in the last region a one-hot row over the 64 graphs selects the entry of the node's own
  graph, which is what the reference's row gather reads when the graph index is in range.
-/
import proofs.«430542_j72688026518114_3_alg».proof.Proof.KV.Algebra
import proofs.«430542_j72688026518114_3_alg».proof.Proof.KV.RefRead
import proofs.«430542_j72688026518114_3_alg».proof.Proof.KV.Host
import Idealize.ShloMosaic.Lib.ValueIdx
import Idealize.ShloMosaic.Lib.IdealHost

noncomputable section

open scoped BigOperators

namespace GcnStats

open Cert.ReferenceIdeal Cert.ReferenceIdeal.Gen Cert.ReferenceIdeal.Read Cert.ReferenceIdeal.RefRead
open Idealize.ShloMosaic Idealize.ShloMosaic.ValueIdx GcnAlgebra
open Cert.KernelIdeal.HostGlue

/-- The nodes of graph `g`: the positions whose graph index is the word of `g`. -/
abbrev seg (x8 : IVec S50000 32) (g : Fin 64) : Finset (Fin 50000) :=
  Finset.univ.filter (fun i : Fin 50000 => x8 (ix1 i) = BitVec.ofNat 32 g.val)

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- Distinct graph numbers below 64 have distinct 32-bit words. -/
theorem ofNat_inj64 (g g' : Fin 64) (h : BitVec.ofNat 32 g.val = BitVec.ofNat 32 g'.val) : g = g' := by
  have h1 := congrArg BitVec.toNat h
  rw [BitVec.toNat_ofNat, BitVec.toNat_ofNat] at h1
  have := g.isLt
  have := g'.isLt
  apply Fin.ext
  omega

section
variable (x0 : (⟨S50000x512, .f32⟩ : BufTy).Contents (Elt Ideal)) (x1 : (⟨S160000, .f32⟩ : BufTy).Contents (Elt Ideal))
  (x2 : (⟨S512x512, .f32⟩ : BufTy).Contents (Elt Ideal)) (x3 x4 x5 x6 : (⟨S512, .f32⟩ : BufTy).Contents (Elt Ideal))
  (x7 : (⟨S2x160000, .i32⟩ : BufTy).Contents (Elt Ideal)) (x8 : (⟨S50000, .i32⟩ : BufTy).Contents (Elt Ideal))

/-! ## (1) The count -/

/-- The kernel's count and the reference's are the same operations on the same operands. -/
theorem cnt_eq : cnt (F := Ideal) x8 = val_main_v55 (F := Ideal) x8 := rfl

theorem cntB_eq : cntB (F := Ideal) x8 = val_main_v60 (F := Ideal) x8 := rfl

theorem cnt_count (g : Fin 64) : cnt (F := Ideal) x8 (ix1 g) = val_main_v55 (F := Ideal) x8 (ix1 g) := rfl

/-- The count of graph `g`: the number of its nodes, at least one. -/
theorem cnt_apply (g : Fin 64) :
    cnt (F := Ideal) x8 (ix1 g) = max ((0 : EReal) + ∑ _i ∈ seg x8 g, (1 : EReal)) 1 :=
  ref_cnt_apply x8 g

theorem cnt_isReal (g : Fin 64) : IsReal (cnt (F := Ideal) x8 (ix1 g)) := by
  rw [cnt_apply]; exact isReal_count _

theorem cnt_ne_zero (g : Fin 64) : cnt (F := Ideal) x8 (ix1 g) ≠ 0 := by
  rw [cnt_apply]; exact count_ne_zero _

theorem one_le_cnt (g : Fin 64) : 1 ≤ cnt (F := Ideal) x8 (ix1 g) := by
  rw [cnt_apply]; exact le_max_right _ _

theorem cntB_apply (g : Fin 64) (q : Fin 512) : cntB (F := Ideal) x8 (ix2 g q) = cnt (F := Ideal) x8 (ix1 g) := by
  rw [cntB_eq, cnt_eq]; exact val_main_v60_ix x8 g q

/-! ## (2) The mean -/

/-- The kernel's mean at `(g, q)`: its sum divided by the count of `g`. -/
theorem mean_apply (sumh : FVec Ideal S64x512 .f32) (g : Fin 64) (q : Fin 512) :
    mean (F := Ideal) sumh x8 (ix2 g q) = Ideal.div (sumh (ix2 g q)) (cnt (F := Ideal) x8 (ix1 g)) := by
  unfold mean
  rw [hostDivf_apply, cntB_apply]

/-- A one-hot sum over the nodes is the sum over the nodes of graph `g`. -/
theorem onehot_sum_seg (bt : IVec S50000x1 32) (hbt : ∀ i : Fin 50000, bt (ix2 i 0) = x8 (ix1 i)) (g : Fin 64)
    (f : Fin 50000 → EReal) :
    ∑ i : Fin 50000, (if bt (ix2 i 0) = BitVec.ofNat 32 g.val then (1 : EReal) else 0) * f i
      = (0 : EReal) + ∑ i ∈ seg x8 g, f i := by
  rw [zero_add]
  simp only [hbt]
  exact sum_onehot_mul (fun i : Fin 50000 => x8 (ix1 i)) (BitVec.ofNat 32 g.val) f

/-- THE MEAN: the kernel's one-hot sum of `h` divided by the count is the reference's segment mean. -/
theorem mean_bridge (h : S50000x512.Idx → EReal) (hh49 : val_main_v49 (F := Ideal) x0 x1 x2 x3 x7 = h)
    (sumh : FVec Ideal S64x512 .f32) (bt : IVec S50000x1 32) (hbt : ∀ i : Fin 50000, bt (ix2 i 0) = x8 (ix1 i))
    (g : Fin 64) (q : Fin 512)
    (hsum : sumh (ix2 g q)
      = ∑ i : Fin 50000, (if bt (ix2 i 0) = BitVec.ofNat 32 g.val then (1 : EReal) else 0) * h (ix2 i q)) :
    mean (F := Ideal) sumh x8 (ix2 g q) = val_main_v61 (F := Ideal) x0 x1 x2 x3 x7 x8 (ix2 g q) := by
  subst hh49
  rw [mean_apply, ref_mean_apply, cnt_count, hsum,
    onehot_sum_seg x8 bt hbt g (fun i => val_main_v49 (F := Ideal) x0 x1 x2 x3 x7 (ix2 i q))]

/-! ## (3) The reciprocal standard deviation -/

/-- The host's reciprocal square root at an index is the ideal instance's at the element. -/
theorem hostRsqrt_apply {s : Shape} {φ : FTy} (a : FVec Ideal s φ) (i : s.Idx) : Host.rsqrt a i = Ideal.rsqrt (a i) := rfl

/-- The correction factor at `(g, q)`: `2·a − a·a` at the scale's entry `q`. -/
theorem corr_apply (g : Fin 64) (q : Fin 512) :
    corr (F := Ideal) x6 (ix2 g q) = 2 * x6 (ix1 q) - x6 (ix1 q) * x6 (ix1 q) := by
  unfold corr
  rw [broadcastInDim_apply _ _ _ (ix2 g q) (ix2 (0 : Fin 1) q) (fun a => match a with
      | ⟨0, _⟩ => by show 0 = if (1 : Nat) = 1 then 0 else g.val; rw [if_pos rfl]
      | ⟨1, _⟩ => by show q.val = if (512 : Nat) = 1 then 0 else q.val; rw [if_neg (by decide)]),
    broadcastInDim_apply _ _ _ (ix2 (0 : Fin 1) q) (ix1 q) (fun a => match a with
      | ⟨0, _⟩ => by show q.val = if (512 : Nat) = 1 then 0 else q.val; rw [if_neg (by decide)])]
  rw [subf_apply, mulf_apply, mulf_apply, broadcastInDim_scalar_apply, constant_apply, ofBits_two_f32]

/-- The kernel's reciprocal standard deviation at `(g, q)`. -/
theorem invstd_apply (sumh sumh2 : FVec Ideal S64x512 .f32) (g : Fin 64) (q : Fin 512) :
    invstd (F := Ideal) sumh sumh2 x6 x8 (ix2 g q)
      = Ideal.rsqrt (max (Ideal.div (sumh2 (ix2 g q)) (cnt (F := Ideal) x8 (ix1 g))
            - (2 * x6 (ix1 q) - x6 (ix1 q) * x6 (ix1 q))
              * (mean (F := Ideal) sumh x8 (ix2 g q) * mean (F := Ideal) sumh x8 (ix2 g q))) 0
          + Ideal.ofBits .f32 0x3727C5AC#32) := by
  unfold invstd
  rw [hostRsqrt_apply, addf_apply, maximumf_apply, subf_apply, hostDivf_apply, mulf_apply, mulf_apply,
    broadcastInDim_scalar_apply, broadcastInDim_scalar_apply, constant_apply, constant_apply, cntB_apply, corr_apply,
    Ideal.ofBits_zero_f32]

/-- THE RECIPROCAL STANDARD DEVIATION: the kernel's one-pass variance `S₂/c − (2a − a²)·m²`, clamped at zero, is the
    reference's two-pass variance `(∑ (h − m·a)²)/c` over the nodes of graph `g`, for real-valued `h` and scale. -/
theorem invstd_bridge (h : S50000x512.Idx → EReal) (hh49 : val_main_v49 (F := Ideal) x0 x1 x2 x3 x7 = h)
    (hh : ∀ j, IsReal (h j)) (h6 : ∀ q : Fin 512, IsReal (x6 (ix1 q)))
    (sumh sumh2 : FVec Ideal S64x512 .f32) (bt : IVec S50000x1 32) (hbt : ∀ i : Fin 50000, bt (ix2 i 0) = x8 (ix1 i))
    (g : Fin 64) (q : Fin 512)
    (hsum : sumh (ix2 g q)
      = ∑ i : Fin 50000, (if bt (ix2 i 0) = BitVec.ofNat 32 g.val then (1 : EReal) else 0) * h (ix2 i q))
    (hsum2 : sumh2 (ix2 g q)
      = ∑ i : Fin 50000, (if bt (ix2 i 0) = BitVec.ofNat 32 g.val then (1 : EReal) else 0) * (h (ix2 i q) * h (ix2 i q))) :
    invstd (F := Ideal) sumh sumh2 x6 x8 (ix2 g q) = val_main_v81 (F := Ideal) x0 x1 x2 x3 x6 x7 x8 (ix2 g q) := by
  have hm := mean_bridge x0 x1 x2 x3 x7 x8 h hh49 sumh bt hbt g q hsum
  subst hh49
  rw [invstd_apply, ref_inv_apply, ref_var_apply, ← hm, ← cnt_count]
  rw [var_identity_idealDiv (seg x8 g) (fun i => val_main_v49 (F := Ideal) x0 x1 x2 x3 x7 (ix2 i q))
    (fun i _ => hh (ix2 i q)) (x6 (ix1 q)) (h6 q) (cnt (F := Ideal) x8 (ix1 g)) (sumh (ix2 g q)) (sumh2 (ix2 g q))
    (mean (F := Ideal) sumh x8 (ix2 g q)) (cnt_apply x8 g)
    (hsum.trans (onehot_sum_seg x8 bt hbt g _)) (hsum2.trans (onehot_sum_seg x8 bt hbt g _))
    (mean_apply x8 sumh g q)]

/-! ## (4) The result -/

/-- THE RESULT at node `i` of an in-range graph, feature `q`: the kernel's normalisation, with the mean and the
    reciprocal standard deviation of the node's graph selected by one-hot rows, is the reference's result. -/
theorem result_bridge (h : S50000x512.Idx → EReal) (hh49 : val_main_v49 (F := Ideal) x0 x1 x2 x3 x7 = h)
    (meanK invK : S64x512.Idx → EReal)
    (hmean : ∀ (g : Fin 64) (q : Fin 512), meanK (ix2 g q) = val_main_v61 (F := Ideal) x0 x1 x2 x3 x7 x8 (ix2 g q))
    (hinv : ∀ (g : Fin 64) (q : Fin 512), invK (ix2 g q) = val_main_v81 (F := Ideal) x0 x1 x2 x3 x6 x7 x8 (ix2 g q))
    (bt : IVec S50000x1 32) (hbt : ∀ i : Fin 50000, bt (ix2 i 0) = x8 (ix1 i))
    (x4' x5' x6' : S1x512.Idx → EReal) (h4 : ∀ q : Fin 512, x4' (ix2 (0 : Fin 1) q) = x4 (ix1 q))
    (h5 : ∀ q : Fin 512, x5' (ix2 (0 : Fin 1) q) = x5 (ix1 q)) (h6' : ∀ q : Fin 512, x6' (ix2 (0 : Fin 1) q) = x6 (ix1 q))
    (i : Fin 50000) (q : Fin 512) (hr : ∃ g : Fin 64, x8 (ix1 i) = BitVec.ofNat 32 g.val) :
    max (x4' (ix2 (0 : Fin 1) q)
          * (h (ix2 i q)
              - (∑ g : Fin 64, (if bt (ix2 i 0) = BitVec.ofNat 32 g.val then (1 : EReal) else 0) * meanK (ix2 g q))
                * x6' (ix2 (0 : Fin 1) q))
          * (∑ g : Fin 64, (if bt (ix2 i 0) = BitVec.ofNat 32 g.val then (1 : EReal) else 0) * invK (ix2 g q))
        + x5' (ix2 (0 : Fin 1) q)) 0
      = val_main_v96 (F := Ideal) x0 x1 x2 x3 x4 x5 x6 x7 x8 (ix2 i q) := by
  obtain ⟨g, hg⟩ := hr
  subst hh49
  have hsel : ∀ g' : Fin 64, bt (ix2 i 0) = BitVec.ofNat 32 g'.val ↔ g' = g := by
    intro g'
    rw [hbt, hg]
    exact ⟨fun e => (ofNat_inj64 g g' e).symm, fun e => by rw [e]⟩
  rw [sum_select g _ hsel (fun g' => meanK (ix2 g' q)), sum_select g _ hsel (fun g' => invK (ix2 g' q)),
    hmean, hinv, h4, h5, h6', ref_result_apply x0 x1 x2 x3 x4 x5 x6 x7 x8 i q g hg]

/-- THE RESULT from the kernel's own statistics: with the mean and the reciprocal standard deviation the kernel's host
    operations form from its one-hot sums of `h` and `h·h`, the kernel's normalisation at node `i`, feature `q` is the
    reference's result, for real-valued `h` and scale and an in-range graph index. -/
theorem result_full (h : S50000x512.Idx → EReal) (hh49 : val_main_v49 (F := Ideal) x0 x1 x2 x3 x7 = h)
    (hh : ∀ j, IsReal (h j)) (h6 : ∀ q : Fin 512, IsReal (x6 (ix1 q)))
    (sumh sumh2 : FVec Ideal S64x512 .f32) (bt : IVec S50000x1 32) (hbt : ∀ i : Fin 50000, bt (ix2 i 0) = x8 (ix1 i))
    (hsum : ∀ (g : Fin 64) (q : Fin 512), sumh (ix2 g q)
      = ∑ i : Fin 50000, (if bt (ix2 i 0) = BitVec.ofNat 32 g.val then (1 : EReal) else 0) * h (ix2 i q))
    (hsum2 : ∀ (g : Fin 64) (q : Fin 512), sumh2 (ix2 g q)
      = ∑ i : Fin 50000, (if bt (ix2 i 0) = BitVec.ofNat 32 g.val then (1 : EReal) else 0) * (h (ix2 i q) * h (ix2 i q)))
    (x4' x5' x6' : S1x512.Idx → EReal) (h4 : ∀ q : Fin 512, x4' (ix2 (0 : Fin 1) q) = x4 (ix1 q))
    (h5 : ∀ q : Fin 512, x5' (ix2 (0 : Fin 1) q) = x5 (ix1 q)) (h6' : ∀ q : Fin 512, x6' (ix2 (0 : Fin 1) q) = x6 (ix1 q))
    (i : Fin 50000) (q : Fin 512) (hr : ∃ g : Fin 64, x8 (ix1 i) = BitVec.ofNat 32 g.val) :
    max (x4' (ix2 (0 : Fin 1) q)
          * (h (ix2 i q)
              - (∑ g : Fin 64, (if bt (ix2 i 0) = BitVec.ofNat 32 g.val then (1 : EReal) else 0)
                    * mean (F := Ideal) sumh x8 (ix2 g q))
                * x6' (ix2 (0 : Fin 1) q))
          * (∑ g : Fin 64, (if bt (ix2 i 0) = BitVec.ofNat 32 g.val then (1 : EReal) else 0)
                * invstd (F := Ideal) sumh sumh2 x6 x8 (ix2 g q))
        + x5' (ix2 (0 : Fin 1) q)) 0
      = val_main_v96 (F := Ideal) x0 x1 x2 x3 x4 x5 x6 x7 x8 (ix2 i q) :=
  result_bridge x0 x1 x2 x3 x4 x5 x6 x7 x8 h hh49 (mean (F := Ideal) sumh x8) (invstd (F := Ideal) sumh sumh2 x6 x8)
    (fun g q => mean_bridge x0 x1 x2 x3 x7 x8 h hh49 sumh bt hbt g q (hsum g q))
    (fun g q => invstd_bridge x0 x1 x2 x3 x6 x7 x8 h hh49 hh h6 sumh sumh2 bt hbt g q (hsum g q) (hsum2 g q))
    bt hbt x4' x5' x6' h4 h5 h6' i q hr

end
end GcnStats

end
-- ==== Proof.KV.Finite.lean ====
/-
  The reference's pre-normalisation activations are real-valued. With real-valued node features, edge weights,
  weight matrix and bias, and ANY integer edge table, every stage up to h = node + (out_agg + b) has real entries:
  a finite sum or a product of reals is real; a gather reads an entry of its operand; a concatenation's entry is an
  entry of one of its pieces; an accumulating scatter adds finitely many update entries to an operand entry; and the
  normalisation vector dis = select(deg > 0, rsqrt deg, 0) is the reciprocal square root of a POSITIVE real where
  the comparison holds and the literal 0 elsewhere.
-/
import proofs.«430542_j72688026518114_3_alg».proof.Proof.Gen.ReferenceIdeal.Read

noncomputable section

namespace Cert.ReferenceIdeal.Finite

open Cert.ReferenceIdeal Cert.ReferenceIdeal.Gen Cert.ReferenceIdeal.Read Idealize.ShloMosaic
open scoped BigOperators

/-! ## Real numbers inside the extended reals -/

/-- x is a real number. -/
def Real1 (x : EReal) : Prop := ∃ r : ℝ, x = (r : EReal)

theorem real1_coe (r : ℝ) : Real1 (r : EReal) := ⟨r, rfl⟩
theorem real1_zero : Real1 0 := ⟨0, rfl⟩

theorem real1_add {a b : EReal} (ha : Real1 a) (hb : Real1 b) : Real1 (a + b) := by
  obtain ⟨r, rfl⟩ := ha; obtain ⟨s, rfl⟩ := hb; exact ⟨r + s, (EReal.coe_add r s).symm⟩

theorem real1_mul {a b : EReal} (ha : Real1 a) (hb : Real1 b) : Real1 (a * b) := by
  obtain ⟨r, rfl⟩ := ha; obtain ⟨s, rfl⟩ := hb; exact ⟨r * s, (EReal.coe_mul r s).symm⟩

theorem real1_sum {ι : Type} (S : Finset ι) (f : ι → EReal) (hf : ∀ i ∈ S, Real1 (f i)) : Real1 (∑ i ∈ S, f i) := by
  classical
  induction S using Finset.induction_on with
  | empty => rw [Finset.sum_empty]; exact real1_zero
  | insert a S ha ih =>
    rw [Finset.sum_insert ha]
    exact real1_add (hf a (Finset.mem_insert_self a S)) (ih fun i hi => hf i (Finset.mem_insert_of_mem hi))

/-- The reciprocal square root of a positive real is real. -/
theorem real1_rsqrt {a : EReal} (ha : Real1 a) (hpos : 0 < a) : Real1 (Ideal.rsqrt a) := by
  obtain ⟨r, rfl⟩ := ha
  have hr : 0 < r := by exact_mod_cast hpos
  rw [Ideal.rsqrt_coe, if_neg (not_lt.2 hr.le), if_neg hr.ne']
  exact ⟨_, rfl⟩

/-- The f32 literals 0.0 and 1.0 are real. -/
theorem real1_lit_zero : Real1 (FloatOps.ofBits (F := Ideal) .f32 0x00000000#32) := by
  show Real1 (Ideal.ofBits .f32 0x00000000#32)
  rw [Ideal.ofBits_zero_f32]; exact real1_zero
theorem real1_lit_one : Real1 (FloatOps.ofBits (F := Ideal) .f32 0x3F800000#32) := by
  show Real1 (Ideal.ofBits .f32 0x3F800000#32)
  refine ⟨1, ?_⟩
  simp [Ideal.ofBits, Ideal.ieee, -EReal.coe_mul]; norm_num

theorem ofBool_eq_one (b : Bool) : BitVec.ofBool b = 1#1 ↔ b = true := by cases b <;> decide

/-- select(d > 0, rsqrt d, 0) of a real d is real: the reciprocal square root of a positive real, or the literal 0. -/
theorem dis_real (d : EReal) (hd : Real1 d) :
    Real1 (Scalar.select (FloatOps.cmpf (F := Ideal) (φ := .f32) .ogt d (FloatOps.ofBits (F := Ideal) .f32 0x00000000#32))
      (FloatOps.hostUnary (F := Ideal) (φ := .f32) .rsqrt d) (FloatOps.ofBits (F := Ideal) .f32 0x00000000#32)) := by
  show Real1 (if Ideal.cmp .ogt d (Ideal.ofBits .f32 0x00000000#32) = 1 then Ideal.rsqrt d else Ideal.ofBits .f32 0x00000000#32)
  rw [Ideal.ofBits_zero_f32]
  split
  · next hc => exact real1_rsqrt hd (of_decide_eq_true ((ofBool_eq_one _).1 hc))
  · exact real1_zero

/-! ## Real-valued vectors, and the operations that keep them so -/

/-- Every entry is a real number. -/
def IsReal {S : Shape} (v : S.Idx → EReal) : Prop := ∀ j, Real1 (v j)

variable {S T U : Shape}

theorem isReal_mulf {a b : FVec Ideal S .f32} (ha : IsReal a) (hb : IsReal b) : IsReal (mulf a b) :=
  fun j => real1_mul (ha j) (hb j)

theorem isReal_addf {a b : FVec Ideal S .f32} (ha : IsReal a) (hb : IsReal b) : IsReal (addf a b) :=
  fun j => real1_add (ha j) (hb j)

theorem isReal_broadcastInDim {x : S.Idx → EReal} (hx : IsReal x) (dims : Fin S.rank → Fin T.rank) (h : S.BroadcastsInDim T dims) :
    IsReal (broadcastInDim T dims h x) := fun j => hx _

theorem isReal_gather {si : Shape} {w : Nat} {x : S.Idx → EReal} (hx : IsReal x) (d : GatherDims S si T) (idx : IVec si w) :
    IsReal (Host.gather d x idx) := fun j => hx _

theorem isReal_scatterAdd {si : Shape} {w : Nat} {x : FVec Ideal S .f32} {upd : FVec Ideal U .f32} (hx : IsReal x) (hu : IsReal upd)
    (d : ScatterDims S si U) (idx : IVec si w) : IsReal (Host.scatterAdd d x idx upd) := fun i => by
  show Real1 (x i + ∑ j ∈ Finset.univ.filter (fun j => d.resultIdx? j idx = some i), upd j)
  exact real1_add (hx i) (real1_sum _ _ fun j _ => hu j)

/-- An entry of a concatenation is an entry of one of the pieces. -/
theorem concatenate_mem {α : Type} (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem isReal_concatenate_pair {s₁ s₂ t : Shape} (a : Fin t.rank) {x₁ : s₁.Idx → EReal} {x₂ : s₂.Idx → EReal}
    (h₁ : IsReal x₁) (h₂ : IsReal x₂)
    (h : Shape.Concatenates (([⟨s₁, x₁⟩, ⟨s₂, x₂⟩] : List ((s : Shape) × (s.Idx → EReal))).map (·.1)) t a) :
    IsReal (concatenate t a [⟨s₁, x₁⟩, ⟨s₂, x₂⟩] h) := fun j => by
  obtain ⟨p, hp, i, e⟩ := concatenate_mem t a [⟨s₁, x₁⟩, ⟨s₂, x₂⟩] h j
  rw [e]
  rcases List.mem_cons.1 hp with rfl | hp
  · exact h₁ i
  · rcases List.mem_cons.1 hp with rfl | hp
    · exact h₂ i
    · exact absurd hp List.not_mem_nil

/-! ## The stages of the reference, up to h -/

section Stages

variable (x0 : (⟨S50000x512, .f32⟩ : BufTy).Contents (Elt Ideal)) (x1 : (⟨S160000, .f32⟩ : BufTy).Contents (Elt Ideal))
  (x2 : (⟨S512x512, .f32⟩ : BufTy).Contents (Elt Ideal)) (x3 : (⟨S512, .f32⟩ : BufTy).Contents (Elt Ideal))
  (x7 : (⟨S2x160000, .i32⟩ : BufTy).Contents (Elt Ideal))

/-- x_lin = node · W: a finite sum of products of reals. -/
theorem xlin_real (h0 : IsReal x0) (h2 : IsReal x2) : IsReal (val_main_v0 (F := Ideal) x0 x2) := fun j => by
  rw [val_main_v0_apply]
  exact real1_sum _ _ fun k _ => real1_mul (h0 _) (h2 _)

/-- The edge weights with the self-loop weights 1 appended. -/
theorem v9_real (h1 : IsReal x1) : IsReal (val_main_v9 (F := Ideal) x1) :=
  isReal_concatenate_pair _ h1 (isReal_broadcastInDim (fun _ => real1_lit_one) _ _) _

/-- The weighted degrees: a scatter of the weights into zeros. -/
theorem v12_real (h1 : IsReal x1) : IsReal (val_main_v12 (F := Ideal) x1 x7) :=
  isReal_scatterAdd (isReal_broadcastInDim (fun _ => real1_lit_zero) _ _) (v9_real x1 h1) _ _

/-- dis = select(deg > 0, rsqrt deg, 0): the reciprocal square root of a positive real, or 0. -/
theorem v16_real (h1 : IsReal x1) : IsReal (val_main_v16 (F := Ideal) x1 x7) := fun i => by
  rw [val_main_v16_apply, val_main_v14_apply, val_main_v15_apply, val_main_v13_apply, val_main_cst_1_apply,
    val_main_call0_v1_apply, val_main_call0_v0_apply, val_main_cst_2_apply]
  have hd := v12_real x1 x7 h1 i
  generalize val_main_v12 (F := Ideal) x1 x7 i = d at hd ⊢
  exact dis_real d hd

/-- norm = (dis[row] · w) · dis[col]. -/
theorem v32_real (h1 : IsReal x1) : IsReal (val_main_v32 (F := Ideal) x1 x7) :=
  isReal_mulf (isReal_mulf (isReal_gather (v16_real x1 x7 h1) _ _) (v9_real x1 h1)) (isReal_gather (v16_real x1 x7 h1) _ _)

/-- msgs = x_lin[row] · norm. -/
theorem v42_real (h0 : IsReal x0) (h1 : IsReal x1) (h2 : IsReal x2) : IsReal (val_main_v42 (F := Ideal) x0 x1 x2 x7) :=
  isReal_mulf (isReal_gather (xlin_real x0 x2 h0 h2) _ _)
    (isReal_broadcastInDim (isReal_broadcastInDim (v32_real x1 x7 h1) _ _) _ _)

/-- out_agg: the messages scattered into zeros. -/
theorem v45_real (h0 : IsReal x0) (h1 : IsReal x1) (h2 : IsReal x2) : IsReal (val_main_v45 (F := Ideal) x0 x1 x2 x7) :=
  isReal_scatterAdd (isReal_broadcastInDim (fun _ => real1_lit_zero) _ _) (v42_real x0 x1 x2 x7 h0 h1 h2) _ _

/-- h = node + (out_agg + b) is real-valued. -/
theorem h_real (h0 : IsReal x0) (h1 : IsReal x1) (h2 : IsReal x2) (h3 : IsReal x3) :
    ∀ j : S50000x512.Idx, ∃ r : ℝ, val_main_v49 (F := Ideal) x0 x1 x2 x3 x7 j = (r : EReal) :=
  isReal_addf h0 (isReal_addf (v45_real x0 x1 x2 x7 h0 h1 h2) (isReal_broadcastInDim (isReal_broadcastInDim h3 _ _) _ _))

end Stages

end Cert.ReferenceIdeal.Finite

end
-- ==== Proof.KV.Pre.lean ====
/-
  The finiteness and index-range precondition, decoded. The printed predicate is the conjunction of seven
  statements "every entry x of a float input has |x| < +∞" and one statement "every entry b of the integer
  batch vector has 0 ≤ b and b < 64 as signed words". Over the extended reals |x| = max x (-x) < ⊤ says that
  x is neither ⊤ nor ⊥, that is, a real number; a signed 32-bit word in [0, 64) is the word of a natural
  number below 64.
-/
import proofs.«430542_j72688026518114_3_alg».proof.Pre_finite_inputs
import proofs.«430542_j72688026518114_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx

/-- The scalar shape has one index. -/
instance subsingleton_S_ : Subsingleton S_.Idx := ⟨fun a b => funext fun d => d.elim0⟩

/-- |x| < +∞ over the extended reals: x is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => exact ⟨r, rfl⟩
  | top => simp at h

/-- One conjunct "every entry x has |x| < +∞", at any shape: every entry of x is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
      (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt_top (x i) (Host.reduce_andi_all _ _ hr hu ix0 e i)

/-- A signed 32-bit word in [0, 64) is the word of a natural number below 64. -/
theorem word_of_range (w : BitVec 32) (h0 : IntOp.cmpi .sge w (0#32) = 1#1) (h1 : IntOp.cmpi .slt w (64#32) = 1#1) :
    ∃ g : Fin 64, w = BitVec.ofNat 32 g.val := by
  unfold IntOp.cmpi at h0 h1
  rw [StableHlo.Predicate.ofBool_eq_one_iff] at h0 h1
  simp only [BitVec.slt, BitVec.sle, decide_eq_true_eq] at h0 h1
  have h32 := w.isLt
  have hlt : w.toNat < 64 := by
    unfold BitVec.toInt at h0 h1
    split at h1 <;> simp at h0 h1 <;> omega
  exact ⟨⟨w.toNat, hlt⟩, by apply BitVec.eq_of_toNat_eq; simp only [BitVec.toNat_ofNat]; omega⟩

variable [Cert.Pre_finite_inputs.Facts]

/-- THE PRECONDITION DECODED: the seven float inputs are real-valued and every batch entry is a group in [0, 64). -/
theorem decode (a0 : FVec Ideal S50000x512 .f32) (a1 : FVec Ideal S160000 .f32) (a2 : FVec Ideal S512x512 .f32)
    (a3 : FVec Ideal S512 .f32) (a4 : FVec Ideal S512 .f32) (a5 : FVec Ideal S512 .f32) (a6 : FVec Ideal S512 .f32)
    (a7 : IVec S2x160000 32) (a8 : IVec S50000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i : Fin 50000, ∃ g : Fin 64, a8 (ix1 i) = BitVec.ofNat 32 g.val) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨e0, e1⟩, e2⟩, e3⟩, e4⟩, e5⟩, e6⟩, e8⟩ := e
  refine ⟨all_real a0 _ _ _ e0, all_real a1 _ _ _ e1, all_real a2 _ _ _ e2, all_real a3 _ _ _ e3,
    all_real a4 _ _ _ e4, all_real a5 _ _ _ e5, all_real a6 _ _ _ e6, fun i => ?_⟩
  have b := Host.reduce_andi_all _ _ _ _ ix0 e8 (ix1 i)
  simp only [andi, cmpi, IntOp.andi_eq_one] at b
  exact word_of_range _ b.1 b.2

end Cert.Pre_finite_inputs.Decode

end
-- ==== Proof.KV.Final.lean ====
/-
  The value of the kernel program over the extended reals: the array its last region leaves is, index by index, the
  reference's result. The chain through the program gives that array as the normalisation of the residual by the
  one-hot selected group means and inverse deviations; the product array and the aggregation are the reference's; the
  residual is the reference's by associativity; the group statistics agree because every float input is real-valued;
  and the one-hot selection reads the row the reference gathers because every graph id is in range.
-/
import proofs.«430542_j72688026518114_3_alg».proof.Proof.KV.Chain
import proofs.«430542_j72688026518114_3_alg».proof.Proof.KV.BridgeA
import proofs.«430542_j72688026518114_3_alg».proof.Proof.KV.BridgeB
import proofs.«430542_j72688026518114_3_alg».proof.Proof.KV.Stats
import proofs.«430542_j72688026518114_3_alg».proof.Proof.KV.Finite
import proofs.«430542_j72688026518114_3_alg».proof.Proof.KV.Pre
import Idealize.ShloMosaic.Lib.ValueIdx
import Idealize.ShloMosaic.PureOps.Ideal

set_option maxRecDepth 16384

noncomputable section

open scoped BigOperators

/-! ## The composition -/

namespace GcnFinal

open Idealize.ShloMosaic Idealize.ShloMosaic.ValueIdx Idealize.SL.Sem
open Cert.ReferenceIdeal Cert.ReferenceIdeal.Read

section Core
variable (x0 : (⟨S50000x512, .f32⟩ : BufTy).Contents (Elt Ideal)) (x1 : (⟨S160000, .f32⟩ : BufTy).Contents (Elt Ideal))
  (x2 : (⟨S512x512, .f32⟩ : BufTy).Contents (Elt Ideal)) (x3 x4 x5 x6 : (⟨S512, .f32⟩ : BufTy).Contents (Elt Ideal))
  (x7 : (⟨S2x160000, .i32⟩ : BufTy).Contents (Elt Ideal)) (x8 : (⟨S50000, .i32⟩ : BufTy).Contents (Elt Ideal))

/-- Over the reference's aggregate: the kernel's normalised array, from the residual node + aggregate + bias row, the
    one-hot segment sums of the residual and of its square, their means and inverse deviations, and the three rows of
    coefficients, is the reference's result, when the float inputs are real-valued and the graph ids are in range. -/
theorem value_core_agg
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h6 : ∀ i, ∃ r : ℝ, x6 i = (r : EReal))
    (h8 : ∀ i : Fin 50000, ∃ g : Fin 64, x8 (ix1 i) = BitVec.ofNat 32 g.val) :
    Cert.KernelIdeal.Arr.G2
        (Cert.KernelIdeal.Arr1.H1 x0 (val_main_v45 (F := Ideal) x0 x1 x2 x7) (Cert.KernelIdeal.HostGlue.row512 (F := Ideal) x3))
        (Cert.KernelIdeal.HostGlue.batchCol x8)
        (Cert.KernelIdeal.HostGlue.mean (F := Ideal)
          (Cert.KernelIdeal.Arr1.S1 x0 (val_main_v45 (F := Ideal) x0 x1 x2 x7) (Cert.KernelIdeal.HostGlue.row512 (F := Ideal) x3) (Cert.KernelIdeal.HostGlue.batchCol x8)) x8)
        (Cert.KernelIdeal.HostGlue.invstd (F := Ideal)
          (Cert.KernelIdeal.Arr1.S1 x0 (val_main_v45 (F := Ideal) x0 x1 x2 x7) (Cert.KernelIdeal.HostGlue.row512 (F := Ideal) x3) (Cert.KernelIdeal.HostGlue.batchCol x8))
          (Cert.KernelIdeal.Arr1.S2 x0 (val_main_v45 (F := Ideal) x0 x1 x2 x7) (Cert.KernelIdeal.HostGlue.row512 (F := Ideal) x3) (Cert.KernelIdeal.HostGlue.batchCol x8)) x6 x8)
        (Cert.KernelIdeal.HostGlue.row512 (F := Ideal) x6) (Cert.KernelIdeal.HostGlue.row512 (F := Ideal) x4)
        (Cert.KernelIdeal.HostGlue.row512 (F := Ideal) x5)
      = val_main_v96 (F := Ideal) x0 x1 x2 x3 x4 x5 x6 x7 x8 := by
  have hh49 : val_main_v49 (F := Ideal) x0 x1 x2 x3 x7
      = Cert.KernelIdeal.Arr1.H1 x0 (val_main_v45 (F := Ideal) x0 x1 x2 x7) (Cert.KernelIdeal.HostGlue.row512 (F := Ideal) x3) :=
    (GcnBridge.h_eq x0 x1 x2 x3 x7).symm
  have hh : ∀ j, ∃ r : ℝ, Cert.KernelIdeal.Arr1.H1 x0 (val_main_v45 (F := Ideal) x0 x1 x2 x7)
      (Cert.KernelIdeal.HostGlue.row512 (F := Ideal) x3) j = (r : EReal) := by
    intro j
    rw [← hh49]
    exact Cert.ReferenceIdeal.Finite.h_real x0 x1 x2 x3 x7 h0 h1 h2 h3 j
  have hbt := GcnBridge.batchCol_apply x8
  have hmean : ∀ (g : Fin 64) (q : Fin 512),
      Cert.KernelIdeal.HostGlue.mean (F := Ideal)
          (Cert.KernelIdeal.Arr1.S1 x0 (val_main_v45 (F := Ideal) x0 x1 x2 x7) (Cert.KernelIdeal.HostGlue.row512 (F := Ideal) x3) (Cert.KernelIdeal.HostGlue.batchCol x8)) x8 (ix2 g q)
        = val_main_v61 (F := Ideal) x0 x1 x2 x3 x7 x8 (ix2 g q) := fun g q =>
    GcnStats.mean_bridge x0 x1 x2 x3 x7 x8 _ hh49 _ (Cert.KernelIdeal.HostGlue.batchCol x8) hbt g q
      (Cert.KernelIdeal.Arr1.S1_apply x0 (val_main_v45 (F := Ideal) x0 x1 x2 x7) (Cert.KernelIdeal.HostGlue.row512 (F := Ideal) x3) (Cert.KernelIdeal.HostGlue.batchCol x8) g q)
  have hinv : ∀ (g : Fin 64) (q : Fin 512),
      Cert.KernelIdeal.HostGlue.invstd (F := Ideal)
          (Cert.KernelIdeal.Arr1.S1 x0 (val_main_v45 (F := Ideal) x0 x1 x2 x7) (Cert.KernelIdeal.HostGlue.row512 (F := Ideal) x3) (Cert.KernelIdeal.HostGlue.batchCol x8))
          (Cert.KernelIdeal.Arr1.S2 x0 (val_main_v45 (F := Ideal) x0 x1 x2 x7) (Cert.KernelIdeal.HostGlue.row512 (F := Ideal) x3) (Cert.KernelIdeal.HostGlue.batchCol x8)) x6 x8 (ix2 g q)
        = val_main_v81 (F := Ideal) x0 x1 x2 x3 x6 x7 x8 (ix2 g q) := fun g q =>
    GcnStats.invstd_bridge x0 x1 x2 x3 x6 x7 x8 _ hh49 hh (fun q => h6 (ix1 q)) _ _ (Cert.KernelIdeal.HostGlue.batchCol x8) hbt g q
      (Cert.KernelIdeal.Arr1.S1_apply x0 (val_main_v45 (F := Ideal) x0 x1 x2 x7) (Cert.KernelIdeal.HostGlue.row512 (F := Ideal) x3) (Cert.KernelIdeal.HostGlue.batchCol x8) g q)
      (Cert.KernelIdeal.Arr1.S2_apply x0 (val_main_v45 (F := Ideal) x0 x1 x2 x7) (Cert.KernelIdeal.HostGlue.row512 (F := Ideal) x3) (Cert.KernelIdeal.HostGlue.batchCol x8) g q)
  funext j
  obtain ⟨i, q, rfl⟩ : ∃ (i : Fin 50000) (q : Fin 512), j = ix2 i q := ⟨j 0, j 1, eq_ix2 j⟩
  rw [Cert.KernelIdeal.Arr.G2_apply]
  exact GcnStats.result_bridge x0 x1 x2 x3 x4 x5 x6 x7 x8 _ hh49 _ _ hmean hinv (Cert.KernelIdeal.HostGlue.batchCol x8) hbt
    (Cert.KernelIdeal.HostGlue.row512 (F := Ideal) x4) (Cert.KernelIdeal.HostGlue.row512 (F := Ideal) x5)
    (Cert.KernelIdeal.HostGlue.row512 (F := Ideal) x6) (GcnBridge.row512_apply x4) (GcnBridge.row512_apply x5)
    (GcnBridge.row512_apply x6) i q (h8 i)

/-- The same over the kernel's own product array and aggregation, which are the reference's. -/
theorem value_core
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h6 : ∀ i, ∃ r : ℝ, x6 i = (r : EReal))
    (h8 : ∀ i : Fin 50000, ∃ g : Fin 64, x8 (ix1 i) = BitVec.ofNat 32 g.val) :
    Cert.KernelIdeal.Arr.G2
        (Cert.KernelIdeal.Arr1.H1 x0 (Cert.KernelIdeal.HostGlue.agg (F := Ideal) (Cert.KernelIdeal.Arr.G0 x0 x2) x1 x7) (Cert.KernelIdeal.HostGlue.row512 (F := Ideal) x3))
        (Cert.KernelIdeal.HostGlue.batchCol x8)
        (Cert.KernelIdeal.HostGlue.mean (F := Ideal)
          (Cert.KernelIdeal.Arr1.S1 x0 (Cert.KernelIdeal.HostGlue.agg (F := Ideal) (Cert.KernelIdeal.Arr.G0 x0 x2) x1 x7) (Cert.KernelIdeal.HostGlue.row512 (F := Ideal) x3) (Cert.KernelIdeal.HostGlue.batchCol x8)) x8)
        (Cert.KernelIdeal.HostGlue.invstd (F := Ideal)
          (Cert.KernelIdeal.Arr1.S1 x0 (Cert.KernelIdeal.HostGlue.agg (F := Ideal) (Cert.KernelIdeal.Arr.G0 x0 x2) x1 x7) (Cert.KernelIdeal.HostGlue.row512 (F := Ideal) x3) (Cert.KernelIdeal.HostGlue.batchCol x8))
          (Cert.KernelIdeal.Arr1.S2 x0 (Cert.KernelIdeal.HostGlue.agg (F := Ideal) (Cert.KernelIdeal.Arr.G0 x0 x2) x1 x7) (Cert.KernelIdeal.HostGlue.row512 (F := Ideal) x3) (Cert.KernelIdeal.HostGlue.batchCol x8)) x6 x8)
        (Cert.KernelIdeal.HostGlue.row512 (F := Ideal) x6) (Cert.KernelIdeal.HostGlue.row512 (F := Ideal) x4)
        (Cert.KernelIdeal.HostGlue.row512 (F := Ideal) x5)
      = val_main_v96 (F := Ideal) x0 x1 x2 x3 x4 x5 x6 x7 x8 := by
  rw [GcnBridge.G0_eq x0 x2, GcnBridge.agg_eq x0 x1 x2 x7]
  exact value_core_agg x0 x1 x2 x3 x4 x5 x6 x7 x8 h0 h1 h2 h3 h6 h8

end Core

/-- THE VALUE: from a launch memory whose float arguments are finite and whose graph ids lie in [0, 64), the array the
    kernel's last region leaves is the reference's result computed from the launch arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = (fun _ => 1#1)) :
    Cert.KernelIdeal.Gen.W7 (F := Ideal) m ρ c (Proc.devRef .tc Cert.KernelIdeal.main_v77)
      = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, -, -, h6, h8⟩ := Cert.Pre_finite_inputs.Decode.decode _ _ _ _ _ _ _ _ _ hpre
  exact (Cert.KernelIdeal.Chain.chain m ρ c).trans (value_core _ _ _ _ _ _ _ _ _ h0 h1 h2 h3 h6 h8)

end GcnFinal

end
-- ==== Proof.lean ====
/- A GCN layer — node @ W, the normalised edge aggregation, the residual h = node + aggregate + b, GraphNorm over the
   graphs named by batch_ptr, ReLU — computed by three kernel regions with host operations between them, against the
   plain reference, over the extended reals.

   The frames: each program runs to its end, faults nowhere and leaves its nine argument arrays as launched. For the two
   kernel programs this is the launch of the three regions in order (region 0: the matmul block by block; region 1: h
   block by block while two [64, 512] accumulators carried in scratch collect, per graph, the sums of h and of h·h;
   region 2: the normalisation block by block); for the reference it is its run read back.

   The value: at the ideal instance the kernel's result array is, index by index, the reference's. The matmul into a zero
   accumulator is the reference's contraction; the aggregation is the same host operations on both sides; the kernel's
   node + aggregate + b is the reference's node + (aggregate + b) by associativity; a sum over all nodes weighted by the
   one-hot of the node's graph is the sum over the graph's nodes, which is what the reference's scatter-add computes, so
   counts, sums and means agree; with every input finite h is real-valued and E[h²] − (2a − a²)·mean² is the mean of
   (h − a·mean)² over the graph, which is non-negative, so the kernel's clamp at zero changes nothing and the two inverse
   standard deviations agree; and where every node's graph id lies in [0, 64) the one-hot weighted sum over the 64 rows
   of the means (or of the inverse deviations) is the row the reference gathers. -/
import proofs.«430542_j72688026518114_3_alg».proof.Defs
import proofs.«430542_j72688026518114_3_alg».proof.Proof.Gen.Kernel
import proofs.«430542_j72688026518114_3_alg».proof.Proof.Gen.KernelIdeal
import proofs.«430542_j72688026518114_3_alg».proof.Proof.Gen.ReferenceIdeal
import proofs.«430542_j72688026518114_3_alg».proof.Proof.Gen.Pre_finite_inputs
import proofs.«430542_j72688026518114_3_alg».proof.Proof.K.Run
import proofs.«430542_j72688026518114_3_alg».proof.Proof.KI.Run
import proofs.«430542_j72688026518114_3_alg».proof.Proof.KV.Final

noncomputable section

namespace Cert.Proof

open Idealize.ShloMosaic Idealize.SL.Sem

/-- The word-level program runs and keeps its arguments: the launch of its three regions. -/
theorem frame_k : Cert.frame_Kernel := fun m ρ _ => Cert.Kernel.Gen.frame (F := Bits) m ρ

/-- The idealized program runs and keeps its arguments: the same launch at the ideal instance. -/
theorem frame_ki : Cert.frame_KernelIdeal := fun m ρ _ => Cert.KernelIdeal.Gen.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result array: the kernel's last
    region leaves, at every index, the value the reference's last stage computes from the launch arrays. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v77), ?_, ?_⟩
  · refine (θ_run Cert.KernelIdeal.defs _ _).mono (fun r h c => ⟨?_, ?_, ?_, ?_, ?_, ?_, ?_, ?_, ?_, ?_⟩)
      (Cert.KernelIdeal.Gen.run_all (F := Ideal) m ρ)
    · exact h c _ (Cert.KernelIdeal.Gen.mem_uc Cert.KernelIdeal.main_v77 (by decide))
    · exact (h c _ (Cert.KernelIdeal.Gen.mem_uc Cert.KernelIdeal.main_arg0 (by decide))).trans (Cert.KernelIdeal.Gen.W7_main_arg0 m ρ c)
    · exact (h c _ (Cert.KernelIdeal.Gen.mem_uc Cert.KernelIdeal.main_arg1 (by decide))).trans (Cert.KernelIdeal.Gen.W7_main_arg1 m ρ c)
    · exact (h c _ (Cert.KernelIdeal.Gen.mem_uc Cert.KernelIdeal.main_arg2 (by decide))).trans (Cert.KernelIdeal.Gen.W7_main_arg2 m ρ c)
    · exact (h c _ (Cert.KernelIdeal.Gen.mem_uc Cert.KernelIdeal.main_arg3 (by decide))).trans (Cert.KernelIdeal.Gen.W7_main_arg3 m ρ c)
    · exact (h c _ (Cert.KernelIdeal.Gen.mem_uc Cert.KernelIdeal.main_arg4 (by decide))).trans (Cert.KernelIdeal.Gen.W7_main_arg4 m ρ c)
    · exact (h c _ (Cert.KernelIdeal.Gen.mem_uc Cert.KernelIdeal.main_arg5 (by decide))).trans (Cert.KernelIdeal.Gen.W7_main_arg5 m ρ c)
    · exact (h c _ (Cert.KernelIdeal.Gen.mem_uc Cert.KernelIdeal.main_arg6 (by decide))).trans (Cert.KernelIdeal.Gen.W7_main_arg6 m ρ c)
    · exact (h c _ (Cert.KernelIdeal.Gen.mem_uc Cert.KernelIdeal.main_arg7 (by decide))).trans (Cert.KernelIdeal.Gen.W7_main_arg7 m ρ c)
    · exact (h c _ (Cert.KernelIdeal.Gen.mem_uc Cert.KernelIdeal.main_arg8 (by decide))).trans (Cert.KernelIdeal.Gen.W7_main_arg8 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (GcnFinal.kernel_value m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
